-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S16384x1024 : Shape := ⟨2, ![16384, 1024]⟩
abbrev S32768x1024 : Shape := ⟨2, ![32768, 1024]⟩
abbrev S2x1024x1024 : Shape := ⟨3, ![2, 1024, 1024]⟩
abbrev S2 : Shape := ⟨1, ![2]⟩
abbrev S_ : Shape := ⟨0, ![]⟩
abbrev S8 : Shape := ⟨1, ![8]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .local _ .vmem, ⟨0, _⟩ => ⟨S16384x1024, .bf16⟩
  | .local _ .vmem, ⟨1, _⟩ => ⟨S2x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v17 : BitVec 32 := Scalar.muli v5 c8192_i32
  let c0_i32_21 : BitVec 32 := 0#32
  ![v17.toNat, 0]
def k0_off2 (d0 : Dev nD) (c1024_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v17 : BitVec 32 := Scalar.muli v5 c8192_i32
  let v31 : BitVec 32 := Scalar.addi v17 c1024_i32
  let c0_i32_26 : BitVec 32 := 0#32
  ![v31.toNat, 0]
def k0_off3 (d0 : Dev nD) (c0_i32_34 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v17 : BitVec 32 := Scalar.muli v5 c8192_i32
  let v45 : BitVec 32 := Scalar.addi v17 c0_i32_34
  let v46 : Index := Scalar.indexCast v45
  let c0_35 : Index := 0#32
  ![v46.toNat, 0]
def k0_off4 (d0 : Dev nD) (c0_i32_37 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v20 : BitVec 32 := Scalar.muli v2 c16384_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_14 : BitVec 32 := 8192#32
  let v21 : BitVec 32 := Scalar.muli v5 c8192_i32_14
  let v22 : BitVec 32 := Scalar.addi v20 v21
  let v51 : BitVec 32 := Scalar.addi v22 c0_i32_37
  let c0_i32_43 : BitVec 32 := 0#32
  ![v51.toNat, 0]
def k0_dev3 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v52 : BitVec 32 := Scalar.muli v6 c2_i32_40
  let v53 : BitVec 32 := Scalar.addi c0_i32_41 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v54 : BitVec 32 := Scalar.muli v5 c1_i32_42
  let v55 : BitVec 32 := Scalar.addi v53 v54
  v55.toNat
def k0_dev4 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v83 : BitVec 32 := Scalar.muli v6 c2_i32_63
  let v84 : BitVec 32 := Scalar.addi c0_i32_64 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v85 : BitVec 32 := Scalar.muli v5 c1_i32_65
  let v86 : BitVec 32 := Scalar.addi v84 v85
  v86.toNat
def k0_dev5 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v114 : BitVec 32 := Scalar.muli v6 c2_i32_87
  let v115 : BitVec 32 := Scalar.addi c0_i32_88 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v116 : BitVec 32 := Scalar.muli v5 c1_i32_89
  let v117 : BitVec 32 := Scalar.addi v115 v116
  v117.toNat
def k0_dev6 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v145 : BitVec 32 := Scalar.muli v6 c2_i32_110
  let v146 : BitVec 32 := Scalar.addi c0_i32_111 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v147 : BitVec 32 := Scalar.muli v5 c1_i32_112
  let v148 : BitVec 32 := Scalar.addi v146 v147
  v148.toNat
def k0_dev7 (d0 : Dev nD) : Nat :=
  let c0_i32_134 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_133 : BitVec 32 := 2#32
  let v176 : BitVec 32 := Scalar.muli v6 c2_i32_133
  let v177 : BitVec 32 := Scalar.addi c0_i32_134 v176
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v178 : BitVec 32 := Scalar.muli v5 c1_i32_135
  let v179 : BitVec 32 := Scalar.addi v177 v178
  v179.toNat
def k0_dev8 (d0 : Dev nD) : Nat :=
  let c0_i32_157 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_156 : BitVec 32 := 2#32
  let v207 : BitVec 32 := Scalar.muli v6 c2_i32_156
  let v208 : BitVec 32 := Scalar.addi c0_i32_157 v207
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v209 : BitVec 32 := Scalar.muli v5 c1_i32_158
  let v210 : BitVec 32 := Scalar.addi v208 v209
  v210.toNat
def k0_dev9 (d0 : Dev nD) : Nat :=
  let c0_i32_180 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_179 : BitVec 32 := 2#32
  let v238 : BitVec 32 := Scalar.muli v6 c2_i32_179
  let v239 : BitVec 32 := Scalar.addi c0_i32_180 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v240 : BitVec 32 := Scalar.muli v5 c1_i32_181
  let v241 : BitVec 32 := Scalar.addi v239 v240
  v241.toNat
def k0_dev10 (d0 : Dev nD) : Nat :=
  let c0_i32_198 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_197 : BitVec 32 := 2#32
  let v263 : BitVec 32 := Scalar.muli v6 c2_i32_197
  let v264 : BitVec 32 := Scalar.addi c0_i32_198 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v265 : BitVec 32 := Scalar.muli v5 c1_i32_199
  let v266 : BitVec 32 := Scalar.addi v264 v265
  v266.toNat
def k0_off5 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c8192_i32_13 : BitVec 32 := 8192#32
  let v19 : BitVec 32 := Scalar.muli v18 c8192_i32_13
  let c0_i32_206 : BitVec 32 := 0#32
  ![v19.toNat, 0]
def k0_off6 (d0 : Dev nD) (c1024_i32_207 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c8192_i32_13 : BitVec 32 := 8192#32
  let v19 : BitVec 32 := Scalar.muli v18 c8192_i32_13
  let v278 : BitVec 32 := Scalar.addi v19 c1024_i32_207
  let c0_i32_212 : BitVec 32 := 0#32
  ![v278.toNat, 0]
def k0_off7 (d0 : Dev nD) (c0_i32_221 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c8192_i32_13 : BitVec 32 := 8192#32
  let v19 : BitVec 32 := Scalar.muli v18 c8192_i32_13
  let v292 : BitVec 32 := Scalar.addi v19 c0_i32_221
  let v293 : Index := Scalar.indexCast v292
  let c0_222 : Index := 0#32
  ![v293.toNat, 0]
def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_329 : BitVec 32 := 16384#32
  let v424 : BitVec 32 := Scalar.muli v2 c16384_i32_329
  let c0_i32_330 : BitVec 32 := 0#32
  ![v424.toNat, 0]
def k0_off9 (d0 : Dev nD) (c0_i32_339 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c16384_i32_15 : BitVec 32 := 16384#32
  let v23 : BitVec 32 := Scalar.muli v6 c16384_i32_15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_16 : BitVec 32 := 8192#32
  let v24 : BitVec 32 := Scalar.muli v5 c8192_i32_16
  let v25 : BitVec 32 := Scalar.addi v23 v24
  let v435 : BitVec 32 := Scalar.addi v25 c0_i32_339
  let c0_i32_345 : BitVec 32 := 0#32
  ![v435.toNat, 0]
def k0_dev11 (d0 : Dev nD) : Nat :=
  let c0_i32_343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_342 : BitVec 32 := 2#32
  let v436 : BitVec 32 := Scalar.muli v2 c2_i32_342
  let v437 : BitVec 32 := Scalar.addi c0_i32_343 v436
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_344 : BitVec 32 := 1#32
  let v438 : BitVec 32 := Scalar.muli v7 c1_i32_344
  let v439 : BitVec 32 := Scalar.addi v437 v438
  v439.toNat
def k0_dev12 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v456 : BitVec 32 := Scalar.muli v2 c2_i32_358
  let v457 : BitVec 32 := Scalar.addi c0_i32_359 v456
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_360 : BitVec 32 := 1#32
  let v458 : BitVec 32 := Scalar.muli v7 c1_i32_360
  let v459 : BitVec 32 := Scalar.addi v457 v458
  v459.toNat
def k0_dev13 (d0 : Dev nD) : Nat :=
  let c0_i32_375 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_374 : BitVec 32 := 2#32
  let v476 : BitVec 32 := Scalar.muli v2 c2_i32_374
  let v477 : BitVec 32 := Scalar.addi c0_i32_375 v476
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_376 : BitVec 32 := 1#32
  let v478 : BitVec 32 := Scalar.muli v7 c1_i32_376
  let v479 : BitVec 32 := Scalar.addi v477 v478
  v479.toNat
def k0_dev14 (d0 : Dev nD) : Nat :=
  let c0_i32_391 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_390 : BitVec 32 := 2#32
  let v496 : BitVec 32 := Scalar.muli v2 c2_i32_390
  let v497 : BitVec 32 := Scalar.addi c0_i32_391 v496
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_392 : BitVec 32 := 1#32
  let v498 : BitVec 32 := Scalar.muli v7 c1_i32_392
  let v499 : BitVec 32 := Scalar.addi v497 v498
  v499.toNat
def k0_dev15 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v516 : BitVec 32 := Scalar.muli v2 c2_i32_406
  let v517 : BitVec 32 := Scalar.addi c0_i32_407 v516
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_408 : BitVec 32 := 1#32
  let v518 : BitVec 32 := Scalar.muli v7 c1_i32_408
  let v519 : BitVec 32 := Scalar.addi v517 v518
  v519.toNat
def k0_dev16 (d0 : Dev nD) : Nat :=
  let c0_i32_423 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_422 : BitVec 32 := 2#32
  let v536 : BitVec 32 := Scalar.muli v2 c2_i32_422
  let v537 : BitVec 32 := Scalar.addi c0_i32_423 v536
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_424 : BitVec 32 := 1#32
  let v538 : BitVec 32 := Scalar.muli v7 c1_i32_424
  let v539 : BitVec 32 := Scalar.addi v537 v538
  v539.toNat
def k0_dev17 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v556 : BitVec 32 := Scalar.muli v2 c2_i32_438
  let v557 : BitVec 32 := Scalar.addi c0_i32_439 v556
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_440 : BitVec 32 := 1#32
  let v558 : BitVec 32 := Scalar.muli v7 c1_i32_440
  let v559 : BitVec 32 := Scalar.addi v557 v558
  v559.toNat
def k0_dev18 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v576 : BitVec 32 := Scalar.muli v2 c2_i32_454
  let v577 : BitVec 32 := Scalar.addi c0_i32_455 v576
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_456 : BitVec 32 := 1#32
  let v578 : BitVec 32 := Scalar.muli v7 c1_i32_456
  let v579 : BitVec 32 := Scalar.addi v577 v578
  v579.toNat

class Facts₀ : Prop where
  hamt_1 : (1#32 : BitVec 32).msb = false
  hamt_2 : (2#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  h_S1024x1024 : 0 < S1024x1024.numel
  shapeCasts_S1024x1024_S1024x1024 : S1024x1024.ShapeCasts S1024x1024
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch2 : 0 + S2.numel ≤ 35
  hcc0_scratch3 : 2 + S_.numel ≤ 35
  hcc0_scratch4 : 3 + S8.numel ≤ 35
  hcc0_scratch5 : 11 + S8.numel ≤ 35
  hcc0_scratch6 : 19 + S8.numel ≤ 35
  hcc0_scratch7 : 27 + S8.numel ≤ 35
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1024x1024.size a ≤ S16384x1024.size a
  k0_off2_inb : ∀ d0 : Dev nD, ∀ (r : Fin 8), ∀ a, (k0_off2 d0 (BitVec.ofNat 32 (1024 * r.val))) a + S1024x1024.size a ≤ S16384x1024.size a
  k0_off3_inb : ∀ d0 : Dev nD, ∀ (r : Fin 8), ∀ a, (k0_off3 d0 (BitVec.ofNat 32 (1024 * r.val))) a + S1024x1024.size a ≤ S16384x1024.size a
  k0_off3_packedbf16 : ∀ d0 : Dev nD, ∀ (r : Fin 8), (Rect.unit (s := S16384x1024) (k0_off3 d0 (BitVec.ofNat 32 (1024 * r.val))) S1024x1024.size (k0_off3_inb d0 r)).PackedRows (EltTy.packing .bf16)
  k0_off4_inb : ∀ d0 : Dev nD, ∀ (r : Fin 8), ∀ a, (k0_off4 d0 (BitVec.ofNat 32 (1024 * r.val))) a + S1024x1024.size a ≤ S32768x1024.size a
  k0_off2_wordsbf16 : ∀ d0 : Dev nD, ∀ (r : Fin 8), (Rect.unit (s := S16384x1024) (k0_off2 d0 (BitVec.ofNat 32 (1024 * r.val))) S1024x1024.size (k0_off2_inb d0 r)).WholeWords (EltTy.packing .bf16)
  k0_off4_wordsbf16 : ∀ d0 : Dev nD, ∀ (r : Fin 8), (Rect.unit (s := S32768x1024) (k0_off4 d0 (BitVec.ofNat 32 (1024 * r.val))) S1024x1024.size (k0_off4_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off5_inb : ∀ d0 : Dev nD, ∀ a, (k0_off5 d0) a + S1024x1024.size a ≤ S16384x1024.size a
  k0_off6_inb : ∀ d0 : Dev nD, ∀ (r : Fin 7), ∀ a, (k0_off6 d0 (BitVec.ofNat 32 (1024 + 1024 * r.val))) a + S1024x1024.size a ≤ S16384x1024.size a
  k0_off7_inb : ∀ d0 : Dev nD, ∀ (r : Fin 8), ∀ a, (k0_off7 d0 (BitVec.ofNat 32 (1024 * r.val))) a + S1024x1024.size a ≤ S16384x1024.size a
  k0_off7_packedbf16 : ∀ d0 : Dev nD, ∀ (r : Fin 8), (Rect.unit (s := S16384x1024) (k0_off7 d0 (BitVec.ofNat 32 (1024 * r.val))) S1024x1024.size (k0_off7_inb d0 r)).PackedRows (EltTy.packing .bf16)
  k0_off8_inb : ∀ d0 : Dev nD, ∀ a, (k0_off8 d0) a + S16384x1024.size a ≤ S32768x1024.size a
  k0_off8_wordsbf16 : ∀ d0 : Dev nD, (Rect.unit (s := S32768x1024) (k0_off8 d0) S16384x1024.size (k0_off8_inb d0)).WholeWords (EltTy.packing .bf16)
  k0_off9_inb : ∀ d0 : Dev nD, ∀ (r : Fin 8), ∀ a, (k0_off9 d0 (BitVec.ofNat 32 (1024 * r.val))) a + S1024x1024.size a ≤ S32768x1024.size a
  k0_off9_wordsbf16 : ∀ d0 : Dev nD, ∀ (r : Fin 8), (Rect.unit (s := S32768x1024) (k0_off9 d0 (BitVec.ofNat 32 (1024 * r.val))) S1024x1024.size (k0_off9_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD

variable [Facts₀]

abbrev cc0_scratch2 : DmaSems sig S2 := SemArray.consecutive 0 S2 hcc0_scratch2
abbrev cc0_scratch3 : DmaSems sig S_ := SemArray.consecutive 2 S_ hcc0_scratch3
abbrev cc0_scratch4 : DmaSems sig S8 := SemArray.consecutive 3 S8 hcc0_scratch4
abbrev cc0_scratch5 : DmaSems sig S8 := SemArray.consecutive 11 S8 hcc0_scratch5
abbrev cc0_scratch6 : DmaSems sig S8 := SemArray.consecutive 19 S8 hcc0_scratch6
abbrev cc0_scratch7 : DmaSems sig S8 := SemArray.consecutive 27 S8 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Base.lean ====
import proofs.«900078_g7700000000000079_dist_ag_v7x_xy2x2_x_m16384_n1024_bf16_1_alg».proof.Defs
import proofs.«900078_g7700000000000079_dist_ag_v7x_xy2x2_x_m16384_n1024_bf16_1_alg».proof.Proof.Gen.KernelIdeal
import proofs.«900078_g7700000000000079_dist_ag_v7x_xy2x2_x_m16384_n1024_bf16_1_alg».proof.Proof.Gen.KernelIdeal.Skeleton
import proofs.«900078_g7700000000000079_dist_ag_v7x_xy2x2_x_m16384_n1024_bf16_1_alg».proof.Proof.Gen.KernelIdeal.Launch
import proofs.«900078_g7700000000000079_dist_ag_v7x_xy2x2_x_m16384_n1024_bf16_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

/-! The 2 × 2 mesh: device `c` has coordinates `(c / 2, c % 2)`. Each device exchanges with the device
    across the first axis (`xn`) and the device across the second (`yn`); both maps are involutions and they
    commute. A device's protocol cells: its barrier semaphore and, per chunk `k < 8`, the send and receive
    semaphores of the exchange across each axis. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's rounds (duties `Bool`), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance

/-! ## The neighbours -/

/-- The device across the first mesh axis: `(i, j) ↦ (1 - i, j)`. -/
def xn (c : Dev nD) : Dev nD := ⟨(c.val % 2 + 2) - 2 * (c.val / 2), by have := c.isLt; revert this; generalize c.val = v; decide +revert⟩
/-- The device across the second mesh axis: `(i, j) ↦ (i, 1 - j)`. -/
def yn (c : Dev nD) : Dev nD := ⟨(2 * (c.val / 2) + 1) - c.val % 2, by have := c.isLt; revert this; generalize c.val = v; decide +revert⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xswap : Dev nD ≃ Dev nD := ⟨xn, xn, xn_xn, xn_xn⟩
def yswap : Dev nD ≃ Dev nD := ⟨yn, yn, yn_yn, yn_yn⟩

/-- The kernel's device chains: the first signal and the eight first-axis transfers name `xn c`, the second signal and
    the eight second-axis transfers `yn c`. -/
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = xn c := Fin.ext (k0_dev4_eq c)
theorem dev5_eq (c : Dev nD) : (⟨k0_dev5 c, k0_dev5_lt c⟩ : Dev nD) = xn c := Fin.ext (k0_dev5_eq c)
theorem dev6_eq (c : Dev nD) : (⟨k0_dev6 c, k0_dev6_lt c⟩ : Dev nD) = xn c := Fin.ext (k0_dev6_eq c)
theorem dev7_eq (c : Dev nD) : (⟨k0_dev7 c, k0_dev7_lt c⟩ : Dev nD) = xn c := Fin.ext (k0_dev7_eq c)
theorem dev8_eq (c : Dev nD) : (⟨k0_dev8 c, k0_dev8_lt c⟩ : Dev nD) = xn c := Fin.ext (k0_dev8_eq c)
theorem dev9_eq (c : Dev nD) : (⟨k0_dev9 c, k0_dev9_lt c⟩ : Dev nD) = xn c := Fin.ext (k0_dev9_eq c)
theorem dev10_eq (c : Dev nD) : (⟨k0_dev10 c, k0_dev10_lt c⟩ : Dev nD) = xn c := Fin.ext (k0_dev10_eq c)
theorem dev11_eq (c : Dev nD) : (⟨k0_dev11 c, k0_dev11_lt c⟩ : Dev nD) = yn c := Fin.ext (k0_dev11_eq c)
theorem dev12_eq (c : Dev nD) : (⟨k0_dev12 c, k0_dev12_lt c⟩ : Dev nD) = yn c := Fin.ext (k0_dev12_eq c)
theorem dev13_eq (c : Dev nD) : (⟨k0_dev13 c, k0_dev13_lt c⟩ : Dev nD) = yn c := Fin.ext (k0_dev13_eq c)
theorem dev14_eq (c : Dev nD) : (⟨k0_dev14 c, k0_dev14_lt c⟩ : Dev nD) = yn c := Fin.ext (k0_dev14_eq c)
theorem dev15_eq (c : Dev nD) : (⟨k0_dev15 c, k0_dev15_lt c⟩ : Dev nD) = yn c := Fin.ext (k0_dev15_eq c)
theorem dev16_eq (c : Dev nD) : (⟨k0_dev16 c, k0_dev16_lt c⟩ : Dev nD) = yn c := Fin.ext (k0_dev16_eq c)
theorem dev17_eq (c : Dev nD) : (⟨k0_dev17 c, k0_dev17_lt c⟩ : Dev nD) = yn c := Fin.ext (k0_dev17_eq c)
theorem dev18_eq (c : Dev nD) : (⟨k0_dev18 c, k0_dev18_lt c⟩ : Dev nD) = yn c := Fin.ext (k0_dev18_eq c)

/-! ## The cells -/

/-- The runtime's barrier semaphore of collective id 0 (unscoped). -/
abbrev barS : Sem sig := (SemArray.scalar (sig.barrier 0 rfl) : Sems sig S_).sem

/-- The kernel's DMA semaphores by number: loads 0–1, the local store 2, first-axis sends 3–10 and receives 11–18,
    second-axis sends 19–26 and receives 27–34. -/
abbrev xsS (k : Fin 8) : DmaSem sig := ⟨3 + k.val, by have := k.isLt; show 3 + k.val < 35; omega⟩
abbrev xrS (k : Fin 8) : DmaSem sig := ⟨11 + k.val, by have := k.isLt; show 11 + k.val < 35; omega⟩
abbrev ysS (k : Fin 8) : DmaSem sig := ⟨19 + k.val, by have := k.isLt; show 19 + k.val < 35; omega⟩
abbrev yrS (k : Fin 8) : DmaSem sig := ⟨27 + k.val, by have := k.isLt; show 27 + k.val < 35; omega⟩

abbrev barCell (c : Dev nD) : GSem nD τ sig := ((c : Thread nD τ), .reg barS)
abbrev xsCell (c : Dev nD) (k : Fin 8) : GSem nD τ sig := ((c : Thread nD τ), .dma (xsS k))
abbrev xrCell (c : Dev nD) (k : Fin 8) : GSem nD τ sig := ((c : Thread nD τ), .dma (xrS k))
abbrev ysCell (c : Dev nD) (k : Fin 8) : GSem nD τ sig := ((c : Thread nD τ), .dma (ysS k))
abbrev yrCell (c : Dev nD) (k : Fin 8) : GSem nD τ sig := ((c : Thread nD τ), .dma (yrS k))

example : ((cc0_scratch4.slice (Rect.unit (s := S8) ![2] S1.size inb_S8_S1_2)).squeeze S_ squeezes_S1_S_).sem = xsS 2 := rfl
example : ((cc0_scratch7.slice (Rect.unit (s := S8) ![7] S1.size inb_S8_S1_7)).squeeze S_ squeezes_S1_S_).sem = yrS 7 := rfl

/-! ## Regions: bands of rows -/

/-- Rows `a ≤ i < a + n` of the result array (full width). -/
def oRows (a n : ℕ) : Finset S32768x1024.Idx := Finset.univ.filter fun i => a ≤ (i 0).val ∧ (i 0).val < a + n
/-- Rows `a ≤ i < a + n` of the shard scratch (full width). -/
def sRows (a n : ℕ) : Finset S16384x1024.Idx := Finset.univ.filter fun i => a ≤ (i 0).val ∧ (i 0).val < a + n

theorem mem_oRows {a n : ℕ} {i : S32768x1024.Idx} : i ∈ oRows a n ↔ a ≤ (i 0).val ∧ (i 0).val < a + n := by
  unfold oRows; rw [Finset.mem_filter]; exact ⟨fun h => h.2, fun h => ⟨Finset.mem_univ _, h⟩⟩
theorem mem_sRows {a n : ℕ} {i : S16384x1024.Idx} : i ∈ sRows a n ↔ a ≤ (i 0).val ∧ (i 0).val < a + n := by
  unfold sRows; rw [Finset.mem_filter]; exact ⟨fun h => h.2, fun h => ⟨Finset.mem_univ _, h⟩⟩

theorem oRows_disjoint {a n b k : ℕ} (h : a + n ≤ b ∨ b + k ≤ a) : Disjoint (oRows a n) (oRows b k) :=
  Finset.disjoint_left.mpr fun i hi hj => by rw [mem_oRows] at hi hj; omega
theorem sRows_disjoint {a n b k : ℕ} (h : a + n ≤ b ∨ b + k ≤ a) : Disjoint (sRows a n) (sRows b k) :=
  Finset.disjoint_left.mpr fun i hi hj => by rw [mem_sRows] at hi hj; omega
theorem oRows_union (a n k : ℕ) : oRows a n ∪ oRows (a + n) k = oRows a (n + k) :=
  Finset.ext fun i => by rw [Finset.mem_union, mem_oRows, mem_oRows, mem_oRows]; omega
theorem sRows_union (a n k : ℕ) : sRows a n ∪ sRows (a + n) k = sRows a (n + k) :=
  Finset.ext fun i => by rw [Finset.mem_union, mem_sRows, mem_sRows, mem_sRows]; omega
theorem oRows_univ : oRows 0 32768 = Finset.univ :=
  Finset.ext fun i => by rw [mem_oRows]; have := (i 0).isLt; exact ⟨fun _ => Finset.mem_univ _, fun _ => ⟨Nat.zero_le _, by simpa using this⟩⟩
theorem sRows_univ : sRows 0 16384 = Finset.univ :=
  Finset.ext fun i => by rw [mem_sRows]; have := (i 0).isLt; exact ⟨fun _ => Finset.mem_univ _, fun _ => ⟨Nat.zero_le _, by simpa using this⟩⟩

/-! The kernel's memrefs. -/
abbrev xM : Memref sig .tc .hbm S16384x1024 .f32 := Memref.whole main_arg0
abbrev oM : Memref sig .tc .hbm S32768x1024 .bf16 := Memref.whole main_v1
abbrev sM : Memref sig .tc .vmem S16384x1024 .bf16 := Memref.whole cc0_scratch0
abbrev fM : Memref sig .tc .vmem S2x1024x1024 .f32 := Memref.whole cc0_scratch1

/-- A full-width slice of `n` rows of the result array is a band of rows. -/
theorem set_slice_o (off size : Fin 2 → ℕ) (inb : ∀ a, off a + size a ≤ S32768x1024.size a) (h1 : off 1 = 0) (hw : size 1 = 1024) (hs) :
    ((oM.slice (Rect.unit (s := S32768x1024) off size inb) hs).view.set : Finset S32768x1024.Idx) = oRows (off 0) (size 0) := by
  ext i
  simp only [Memref.view_slice, Memref.view_whole, View.set_slice_whole]
  rw [Rect.mem_set_unit, mem_oRows]
  refine ⟨fun h => h 0, fun h a => ?_⟩
  match a with
  | ⟨0, _⟩ => exact h
  | ⟨1, _⟩ =>
    have := (i 1).isLt
    change off 1 ≤ (i 1).val ∧ (i 1).val < off 1 + size 1
    rw [h1, hw, Nat.zero_add]
    exact ⟨Nat.zero_le _, this⟩

/-- The same for the shard scratch. -/
theorem set_slice_s (off size : Fin 2 → ℕ) (inb : ∀ a, off a + size a ≤ S16384x1024.size a) (h1 : off 1 = 0) (hw : size 1 = 1024) (hs) :
    ((sM.slice (Rect.unit (s := S16384x1024) off size inb) hs).view.set : Finset S16384x1024.Idx) = sRows (off 0) (size 0) := by
  ext i
  simp only [Memref.view_slice, Memref.view_whole, View.set_slice_whole]
  rw [Rect.mem_set_unit, mem_sRows]
  refine ⟨fun h => h 0, fun h a => ?_⟩
  match a with
  | ⟨0, _⟩ => exact h
  | ⟨1, _⟩ =>
    have := (i 1).isLt
    change off 1 ≤ (i 1).val ∧ (i 1).val < off 1 + size 1
    rw [h1, hw, Nat.zero_add]
    exact ⟨Nat.zero_le _, this⟩

end Cert.KernelIdeal.AG

end
-- ==== Proof.Sched.lean ====
import proofs.«900078_g7700000000000079_dist_ag_v7x_xy2x2_x_m16384_n1024_bf16_1_alg».proof.Proof.Base
import Idealize.ShloMosaic.Lib.ValueIdx

/-! What the protocol moves. Device `c` casts its shard to bf16 into the shard scratch, eight chunks of 1024 rows for each
    half; the half indexed by its second coordinate goes chunk by chunk to the device across the first axis, which forwards
    each chunk across the second axis; the whole scratch is copied into the device's own band of the result. Every piece of
    the result array on device `c` ends at one function `R c` of the launch contents; every piece of the scratch at `T c`. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s shard as launched. -/
def X (c : Dev nD) : (⟨S16384x1024, .f32⟩ : BufTy).Contents (Elt F) := m ((c : Thread nD τ).loc main_arg0)
/-- Its cast to bf16, entry by entry: what the shard scratch ends at. -/
def T (c : Dev nD) : (⟨S16384x1024, .bf16⟩ : BufTy).Contents (Elt F) := truncf .bf16 (X m c) bitsLt_bf16_f32

/-- Which device's shard row `r` of the result on device `c` comes from: its own band from `c`; in the other band, the
    half indexed by `c`'s second coordinate from `xn c` directly, the other half from `xn (yn c)` by way of `yn c`. -/
def srcDev (c : Dev nD) (r : ℕ) : Dev nD :=
  if r / 16384 = c.val / 2 then c else if (r % 16384) / 8192 = c.val % 2 then xn c else xn (yn c)

/-- What the result array on device `c` ends at. -/
def R (c : Dev nD) : (⟨S32768x1024, .bf16⟩ : BufTy).Contents (Elt F) := fun i =>
  T m (srcDev c (i 0).val) (ValueIdx.ix2 (⟨(i 0).val % 16384, Nat.mod_lt _ (by decide)⟩ : Fin 16384) (i 1))

/-! ## Bands -/

/-- Device `c`'s own band of the result: rows `16384 (c / 2) …`. -/
def ownBand (c : Dev nD) : Finset S32768x1024.Idx := oRows (16384 * (c.val / 2)) 16384
/-- Chunk `k` of what device `c` receives across the first axis. -/
def xrBand (c : Dev nD) (k : Fin 8) : Finset S32768x1024.Idx := oRows ((8192 * (c.val % 2) + 1024 * k.val + 16384) - 16384 * (c.val / 2)) 1024
/-- Chunk `k` of what it receives across the second axis: the rows `yn c` received across the first. -/
def yrBand (c : Dev nD) (k : Fin 8) : Finset S32768x1024.Idx := xrBand (yn c) k
/-- Chunk `k` of the half of the scratch that is sent, and of the half that is only kept. -/
def sendBand (c : Dev nD) (k : Fin 8) : Finset S16384x1024.Idx := sRows (8192 * (c.val % 2) + 1024 * k.val) 1024
def keepBand (c : Dev nD) (k : Fin 8) : Finset S16384x1024.Idx := sRows ((1024 * k.val + 8192) - 8192 * (c.val % 2)) 1024

abbrev oLoc (c : Dev nD) : Loc nD τ sig := (c : Thread nD τ).loc main_v1
abbrev sLoc (c : Dev nD) : Loc nD τ sig := (c : Thread nD τ).loc cc0_scratch0
abbrev xLoc (c : Dev nD) : Loc nD τ sig := (c : Thread nD τ).loc main_arg0
abbrev fLoc (c : Dev nD) : Loc nD τ sig := (c : Thread nD τ).loc cc0_scratch1

abbrev hL : PosShare TreeShare := fullShare.left
abbrev hR : PosShare TreeShare := fullShare.right

/-! ## Payloads -/

/-- The first-axis receive of chunk `k` hands `c` that band of its result, landed. -/
def xrPay (c : Dev nD) (k : Fin 8) : sProp (MT nD τ sig Unit (Elt F) ℕ UU ℕ) := oLoc c ↦[xrBand c k]{fullShare} R m c
/-- The second-axis receive likewise. -/
def yrPay (c : Dev nD) (k : Fin 8) : sProp (MT nD τ sig Unit (Elt F) ℕ UU ℕ) := oLoc c ↦[yrBand c k]{fullShare} R m c
/-- A first-axis send returns the half share of the scratch chunk it read. -/
def xsPay (c : Dev nD) (k : Fin 8) : sProp (MT nD τ sig Unit (Elt F) ℕ UU ℕ) := sLoc c ↦[sendBand c k]{hL} T m c
/-- A second-axis send returns the half share of the result band it read. -/
def ysPay (c : Dev nD) (k : Fin 8) : sProp (MT nD τ sig Unit (Elt F) ℕ UU ℕ) := oLoc c ↦[xrBand c k]{hL} R m c
/-- The barrier signal from `xn c` hands `c` the eight bands of `xn c`'s result it will write; -/
def barPayX (c : Dev nD) : sProp (MT nD τ sig Unit (Elt F) ℕ UU ℕ) := bigSep Finset.univ fun k : Fin 8 => iprop(∃ f, oLoc (xn c) ↦[xrBand (xn c) k]{fullShare} f)
/-- the one from `yn c` the eight bands of `yn c`'s. -/
def barPayY (c : Dev nD) : sProp (MT nD τ sig Unit (Elt F) ℕ UU ℕ) := bigSep Finset.univ fun k : Fin 8 => iprop(∃ f, oLoc (yn c) ↦[yrBand (yn c) k]{fullShare} f)

/-! ## The schedule: one round; the barrier cell two unit duties (`false` from `xn`, `true` from `yn`), every transfer cell one -/

/-- The credit of one chunk's transfer. -/
abbrev N : ℕ := ((oM.slice (Rect.unit (s := S32768x1024) ![0, 0] S1024x1024.size (by decide)) (fun _ => rfl)) : Memref sig .tc .hbm S1024x1024 .bf16).view.dmaCredit

/-- Which kind of cell a DMA semaphore number is, and its chunk. -/
def kindOf (j : ℕ) : Option (Fin 4 × Fin 8) :=
  if h : 3 ≤ j ∧ j < 11 then some (0, ⟨j - 3, by omega⟩) else if h : 11 ≤ j ∧ j < 19 then some (1, ⟨j - 11, by omega⟩)
  else if h : 19 ≤ j ∧ j < 27 then some (2, ⟨j - 19, by omega⟩) else if h : 27 ≤ j ∧ j < 35 then some (3, ⟨j - 27, by omega⟩) else none

def sched : Rounds.Schedule (GSem nD τ sig) Bool (MT nD τ sig Unit (Elt F) ℕ UU ℕ) where
  duties g r :=
    if r = 0 ∧ g.1.2 = .tc then
      match g.2 with
      | .reg _ => Finset.univ
      | .dma q => if (kindOf q.val).isSome then {false} else ∅
    else ∅
  amount g _ _ := match g.2 with | .reg _ => 1 | .dma _ => N
  payload g _ d := match g.2 with
    | .reg _ => if d then barPayY g.1.1 else barPayX g.1.1
    | .dma q => match kindOf q.val with
      | some (0, k) => xsPay m g.1.1 k
      | some (1, k) => xrPay m g.1.1 k
      | some (2, k) => ysPay m g.1.1 k
      | some (3, k) => yrPay m g.1.1 k
      | none => iprop(emp)
  amount_pos g _ _ _ := by
    cases g.2 with
    | reg _ => exact Nat.one_pos
    | dma _ => exact View.dmaCredit_pos _ (by decide)

/-! ## The schedule's tables, cell by cell -/

theorem kind_xs (k : Fin 8) : kindOf (3 + k.val) = some (0, k) := by fin_cases k <;> rfl
theorem kind_xr (k : Fin 8) : kindOf (11 + k.val) = some (1, k) := by fin_cases k <;> rfl
theorem kind_ys (k : Fin 8) : kindOf (19 + k.val) = some (2, k) := by fin_cases k <;> rfl
theorem kind_yr (k : Fin 8) : kindOf (27 + k.val) = some (3, k) := by fin_cases k <;> rfl

instance sched_payload_storable (g : GSem nD τ sig) (r : ℕ) (d : Bool) :
    BI.Storable (upEmb : UEmb _ (MT nD τ sig Unit (Elt F) ℕ UU ℕ)) ((sched (F := F) m).payload g r d) := by
  obtain ⟨t, sm⟩ := g
  cases sm with
  | reg s =>
    show BI.Storable upEmb (if d then barPayY t.1 else barPayX t.1)
    unfold barPayY barPayX
    split <;> infer_instance
  | dma q =>
    show BI.Storable upEmb (match kindOf q.val with
      | some (0, k) => xsPay m t.1 k | some (1, k) => xrPay m t.1 k | some (2, k) => ysPay m t.1 k | some (3, k) => yrPay m t.1 k
      | none => iprop(emp))
    unfold xsPay xrPay ysPay yrPay
    split <;> infer_instance

section Tables
variable (c : Dev nD) (k : Fin 8)

theorem duties_bar : (sched (F := F) m).duties (barCell c) 0 = Finset.univ := by dsimp only [sched]; rw [if_pos ⟨rfl, rfl⟩]
theorem duties_xs : (sched (F := F) m).duties (xsCell c k) 0 = {false} := by
  dsimp only [sched]; rw [if_pos ⟨rfl, rfl⟩]; show (if (kindOf (3 + k.val)).isSome then ({false} : Finset Bool) else ∅) = _; rw [kind_xs]; rfl
theorem duties_xr : (sched (F := F) m).duties (xrCell c k) 0 = {false} := by
  dsimp only [sched]; rw [if_pos ⟨rfl, rfl⟩]; show (if (kindOf (11 + k.val)).isSome then ({false} : Finset Bool) else ∅) = _; rw [kind_xr]; rfl
theorem duties_ys : (sched (F := F) m).duties (ysCell c k) 0 = {false} := by
  dsimp only [sched]; rw [if_pos ⟨rfl, rfl⟩]; show (if (kindOf (19 + k.val)).isSome then ({false} : Finset Bool) else ∅) = _; rw [kind_ys]; rfl
theorem duties_yr : (sched (F := F) m).duties (yrCell c k) 0 = {false} := by
  dsimp only [sched]; rw [if_pos ⟨rfl, rfl⟩]; show (if (kindOf (27 + k.val)).isSome then ({false} : Finset Bool) else ∅) = _; rw [kind_yr]; rfl
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_dma (q : DmaSem sig) (d : Bool) : (sched (F := F) m).amount ((c : Thread nD τ), .dma q) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_xs : (sched (F := F) m).expect (xsCell c k) 0 = N := by
  unfold Schedule.expect Schedule.amountOf; rw [duties_xs, Finset.sum_singleton]; rfl
theorem expect_xr : (sched (F := F) m).expect (xrCell c k) 0 = N := by
  unfold Schedule.expect Schedule.amountOf; rw [duties_xr, Finset.sum_singleton]; rfl
theorem expect_ys : (sched (F := F) m).expect (ysCell c k) 0 = N := by
  unfold Schedule.expect Schedule.amountOf; rw [duties_ys, Finset.sum_singleton]; rfl
theorem expect_yr : (sched (F := F) m).expect (yrCell c k) 0 = N := by
  unfold Schedule.expect Schedule.amountOf; rw [duties_yr, Finset.sum_singleton]; rfl

theorem payload_bar_false : (sched (F := F) m).payload (barCell c) 0 false = barPayX c := by dsimp only [sched]; exact if_neg Bool.false_ne_true
theorem payload_bar_true : (sched (F := F) m).payload (barCell c) 0 true = barPayY c := by dsimp only [sched]; exact if_pos rfl
theorem payload_xs (d : Bool) : (sched (F := F) m).payload (xsCell c k) 0 d = xsPay m c k := by
  show (match kindOf (3 + k.val) with
      | some (0, k) => xsPay m c k | some (1, k) => xrPay m c k | some (2, k) => ysPay m c k | some (3, k) => yrPay m c k
      | none => iprop(emp)) = _
  rw [kind_xs]
theorem payload_xr (d : Bool) : (sched (F := F) m).payload (xrCell c k) 0 d = xrPay m c k := by
  show (match kindOf (11 + k.val) with
      | some (0, k) => xsPay m c k | some (1, k) => xrPay m c k | some (2, k) => ysPay m c k | some (3, k) => yrPay m c k
      | none => iprop(emp)) = _
  rw [kind_xr]
theorem payload_ys (d : Bool) : (sched (F := F) m).payload (ysCell c k) 0 d = ysPay m c k := by
  show (match kindOf (19 + k.val) with
      | some (0, k) => xsPay m c k | some (1, k) => xrPay m c k | some (2, k) => ysPay m c k | some (3, k) => yrPay m c k
      | none => iprop(emp)) = _
  rw [kind_ys]
theorem payload_yr (d : Bool) : (sched (F := F) m).payload (yrCell c k) 0 d = yrPay m c k := by
  show (match kindOf (27 + k.val) with
      | some (0, k) => xsPay m c k | some (1, k) => xrPay m c k | some (2, k) => ysPay m c k | some (3, k) => yrPay m c k
      | none => iprop(emp)) = _
  rw [kind_yr]

/-- The whole of the barrier cell's round: both neighbours' bands. -/
theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_xs : bigSep ((sched (F := F) m).duties (xsCell c k) 0 \ ∅) (fun d => (sched (F := F) m).payload (xsCell c k) 0 d) = xsPay m c k := by
  rw [Finset.sdiff_empty, duties_xs, bigSep_singleton, payload_xs]
theorem rest_xr : bigSep ((sched (F := F) m).duties (xrCell c k) 0 \ ∅) (fun d => (sched (F := F) m).payload (xrCell c k) 0 d) = xrPay m c k := by
  rw [Finset.sdiff_empty, duties_xr, bigSep_singleton, payload_xr]
theorem rest_ys : bigSep ((sched (F := F) m).duties (ysCell c k) 0 \ ∅) (fun d => (sched (F := F) m).payload (ysCell c k) 0 d) = ysPay m c k := by
  rw [Finset.sdiff_empty, duties_ys, bigSep_singleton, payload_ys]
theorem rest_yr : bigSep ((sched (F := F) m).duties (yrCell c k) 0 \ ∅) (fun d => (sched (F := F) m).payload (yrCell c k) 0 d) = yrPay m c k := by
  rw [Finset.sdiff_empty, duties_yr, bigSep_singleton, payload_yr]

end Tables

end Cert.KernelIdeal.AG

end
-- ==== Proof.Bridge.lean ====
import proofs.«900078_g7700000000000079_dist_ag_v7x_xy2x2_x_m16384_n1024_bf16_1_alg».proof.Proof.Sched
import Idealize.ShloMosaic.Lib.Layout

/-! The value bridge. The whole array `W` (32768 rows) is cut along its rows into two blocks of 16384; device `c` of the
    2 × 2 mesh holds block `c / 2`, its first mesh coordinate. Row `r` of the gathered result on device `c` is read from the
    shard of `srcDev c r`, a device whose first coordinate is `r / 16384`, at row `r % 16384` — that is row `r` of `W`. So every
    device's result is the entry-by-entry cast of the whole array. -/

noncomputable section

namespace Cert.KernelIdeal.AG

open Cert.KernelIdeal Cert.KernelIdeal.Gen

open Idealize.ShloMosaic
open Idealize.ShloMosaic.TcCoe

variable {F : FTy → Type} [FloatOps F]

variable (m : (ℓ : Loc nD τ sig) → Buf (Elt F) ℓ)

/-- On the 2 × 2 mesh with the rows cut along the first axis only, device `c` holds block `c / 2`. -/
theorem meshLin_rows (c : Dev nD) : Layout.meshLin [2, 2] c.val [0] = c.val / 2 := by revert c; decide

/-- Uncut columns: one block. -/
theorem meshLin_cols (c : Dev nD) : Layout.meshLin [2, 2] c.val [] = 0 := rfl

/-- The first mesh coordinate of the device a row is read from is the row's block: in its own band the device itself; in
    the other band a device across the first axis (`xn c` or `xn (yn c)`), whose first coordinate is the other one. -/
theorem srcDev_block_aux : ∀ (c : Dev nD) (a b : Fin 2),
    ((if a.val = c.val / 2 then c else if b.val = c.val % 2 then xn c else xn (yn c)) : Dev nD).val / 2 = a.val := by decide

theorem srcDev_block (c : Dev nD) (r : ℕ) (hr : r < 32768) : (srcDev c r).val / 2 = r / 16384 :=
  srcDev_block_aux c ⟨r / 16384, by omega⟩ ⟨r % 16384 / 8192, by omega⟩

/-- Every device's result is the cast of the whole array, given that each device's shard is its block of it. -/
theorem R_eq_whole (W : (⟨S32768x1024, .f32⟩ : BufTy).Contents (Elt F))
    (hagree : ∀ c : Dev nD, X m c = Layout.blockN ⟨2, ![16384, 1024]⟩ ⟨2, ![32768, 1024]⟩ (Layout.meshBlock [2, 2] ![[0], []] c) W)
    (c : Dev nD) : R m c = truncf .bf16 W bitsLt_bf16_f32 := by
  funext i
  have hr : (i 0).val < 32768 := (i 0).isLt
  show FloatOps.truncf .bf16 bitsLt_bf16_f32 (X m (srcDev c (i 0).val) _) = FloatOps.truncf .bf16 bitsLt_bf16_f32 (W i)
  rw [hagree (srcDev c (i 0).val), Layout.blockN_apply]
  congr 2
  funext b
  apply Fin.ext
  rw [Layout.TilesN.idx_val]
  match b with
  | ⟨0, _⟩ =>
    show Layout.meshLin [2, 2] (srcDev c (i 0).val).val [0] * 16384 + (i 0).val % 16384 = (i 0).val
    rw [meshLin_rows, srcDev_block c _ hr]
    exact Nat.div_add_mod' _ _
  | ⟨1, _⟩ =>
    show Layout.meshLin [2, 2] (srcDev c (i 0).val).val [] * 1024 + (i 1).val = (i 1).val
    rw [meshLin_cols, Nat.zero_mul, Nat.zero_add]

/-- info: 'Cert.KernelIdeal.AG.R_eq_whole' depends on axioms: [propext, Classical.choice, Quot.sound] -/
#guard_msgs in #print axioms R_eq_whole

end Cert.KernelIdeal.AG

end
-- ==== Proof.Proto.lean ====
import proofs.«900078_g7700000000000079_dist_ag_v7x_xy2x2_x_m16384_n1024_bf16_1_alg».proof.Proof.Sched

/-! The protocol's bookkeeping: what each device owes at launch (its two barrier signals, the eight chunks it sends across
    each axis), the waiting levels (barrier below first-axis receives below second-axis receives), the ghost state a device
    starts from, and the region's invariant before and after the one grid point. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells, indexed: the barrier, or a transfer cell by kind (0 first-axis send, 1 first-axis receive,
    2 second-axis send, 3 second-axis receive) and chunk -/

abbrev CK : Type := Option (Fin 4 × Fin 8)

def ksem : CK → SemLoc sig
  | none => .reg barS
  | some (0, k) => .dma (xsS k)
  | some (1, k) => .dma (xrS k)
  | some (2, k) => .dma (ysS k)
  | some (3, k) => .dma (yrS k)

abbrev kcell (ck : Dev nD × CK) : GSem nD τ sig := ((ck.1 : Thread nD τ), ksem ck.2)

/-- The kernel's own (scoped) semaphores: the three of its local copies, and the thirty-two transfer cells. -/
def osem : Fin 3 ⊕ (Fin 4 × Fin 8) → SemLoc sig
  | .inl j => .dma ⟨j.val, by have := j.isLt; show j.val < 35; omega⟩
  | .inr tk => ksem (some tk)

/-! ## What is owed -/

/-- The tallies of a list of (cell, units), the head last: a payment of the head peels the outermost summand. -/
def owedL : List (GSem nD τ sig × ℕ) → CellTallies nD τ sig Unit
  | [] => 0
  | x :: xs => owedL xs + tallyAt x.1 () x.2

def xOwes (c : Dev nD) : List (GSem nD τ sig × ℕ) :=
  [(xrCell (xn c) 0, N), (xrCell (xn c) 1, N), (xrCell (xn c) 2, N), (xrCell (xn c) 3, N),
   (xrCell (xn c) 4, N), (xrCell (xn c) 5, N), (xrCell (xn c) 6, N), (xrCell (xn c) 7, N)]
def yOwes (c : Dev nD) : List (GSem nD τ sig × ℕ) :=
  [(yrCell (yn c) 0, N), (yrCell (yn c) 1, N), (yrCell (yn c) 2, N), (yrCell (yn c) 3, N),
   (yrCell (yn c) 4, N), (yrCell (yn c) 5, N), (yrCell (yn c) 6, N), (yrCell (yn c) 7, N)]

/-- In program order: the signal to `xn c`, the signal to `yn c`, the eight first-axis chunks, the eight second-axis chunks. -/
def owesList (c : Dev nD) : List (GSem nD τ sig × ℕ) := (barCell (xn c), 1) :: (barCell (yn c), 1) :: (xOwes c ++ yOwes c)
def O₀ (c : Dev nD) : CellTallies nD τ sig Unit := owedL (owesList c)

/-! ## Levels -/

def L (g : GSem nD τ sig) : Finset Unit := if g.1.2 = .tc then {()} else ∅
def lvOf : SemLoc sig → ℕ
  | .reg _ => 1
  | .dma q => match kindOf q.val with
    | some (1, _) => 2
    | some (3, _) => 3
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- Every protocol cell's invariant, under the names `K`, and that round 0 of each is reached: persistent, every device's. -/
def records (K : Dev nD × CK → ℕ) : sProp (MT nD τ sig Unit (Elt F) ℕ UU ℕ) :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays: its signal on each neighbour's barrier cell; per chunk its two sends and the
    two receives they land on. -/
def payToks (c : Dev nD) : sProp (MT nD τ sig Unit (Elt F) ℕ UU ℕ) :=
  iprop(dutyTok ER (barCell (xn c)) 0 false ∗ dutyTok ER (barCell (yn c)) 0 true
    ∗ bigSep Finset.univ fun k : Fin 8 => iprop(dutyTok ER (xsCell c k) 0 false ∗ dutyTok ER (xrCell (xn c) k) 0 false
        ∗ dutyTok ER (ysCell c k) 0 false ∗ dutyTok ER (yrCell (yn c) k) 0 false))

/-- What stays with device `c`: its position at round 0 of each of its cells, and the tokens it pays with. -/
def linear (c : Dev nD) : sProp (MT nD τ sig Unit (Elt F) ℕ UU ℕ) :=
  iprop((bigSep Finset.univ fun j : CK => atPos ER (kcell (c, j)) 0 ∅ 0) ∗ payToks c)

def ghost (c : Dev nD) : sProp (MT nD τ sig Unit (Elt F) ℕ UU ℕ) := iprop(∃ K, records m K ∗ linear c)

/-- The launch credit of device `c`'s cells: two units on its barrier, a chunk's credit on each receive. -/
def creds (c : Dev nD) : sProp (MT nD τ sig Unit (Elt F) ℕ UU ℕ) :=
  iprop(cred (tallyAt (barCell c) () 2) ∗ bigSep Finset.univ fun k : Fin 8 => iprop(cred (tallyAt (xrCell c k) () N) ∗ cred (tallyAt (yrCell c k) () N)))

/-- The three semaphores of the device's local copies, at zero. -/
def locals (c : Dev nD) : sProp (MT nD τ sig Unit (Elt F) ℕ UU ℕ) :=
  iprop(semVal ((c : Thread nD τ), .dma 0) 0 ∗ semVal ((c : Thread nD τ), .dma 1) 0 ∗ semVal ((c : Thread nD τ), .dma 2) 0)

def start (c : Dev nD) : sProp (MT nD τ sig Unit (Elt F) ℕ UU ℕ) := iprop(ghost m c ∗ locals c ∗ creds c ∗ levAts L lv)

/-- Before the point: that, the shard and the result array as launched, the two scratch buffers at some contents. -/
def Φ₀ (c : Dev nD) : sProp (MT nD τ sig Unit (Elt F) ℕ UU ℕ) :=
  iprop(start m c ∗ (xLoc c ↦{fullShare} m (xLoc c)) ∗ (oLoc c ↦{fullShare} m (oLoc c)) ∗ (∃ f, sLoc c ↦{fullShare} f) ∗ (∃ f, fLoc c ↦{fullShare} f))

/-- After it: the shard as launched, the result array at `R c`, the scratch buffers, every own semaphore at zero. -/
def Φ₁ (c : Dev nD) : sProp (MT nD τ sig Unit (Elt F) ℕ UU ℕ) :=
  iprop((xLoc c ↦{fullShare} m (xLoc c)) ∗ (oLoc c ↦{fullShare} R m c) ∗ (∃ f, sLoc c ↦{fullShare} f) ∗ (∃ f, fLoc c ↦{fullShare} f)
    ∗ locals c ∗ bigSep Finset.univ fun tk : Fin 4 × Fin 8 => semVal (kcell (c, some tk)) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.Deal.lean ====
import proofs.«900078_g7700000000000079_dist_ag_v7x_xy2x2_x_m16384_n1024_bf16_1_alg».proof.Proof.Proto

/-! Dealing the ghost state at launch. The launch element funds, for every device, its thirty-three protocol cells
    (the barrier cell and the thirty-two transfer cells) at round 0 and mints one token per duty of each cell: the
    barrier cell's two, every transfer cell's one. Each device's semaphores at zero are turned into its cells'
    invariants, and the tokens are dealt across the mesh to the devices that pay the duties: a barrier cell's
    `false` token and the first-axis receives' tokens across the first axis, the barrier cell's `true` token and the
    second-axis receives' tokens across the second, the sends' tokens staying where they are. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

/-- A protocol cell's index read back from its semaphore: the barrier semaphore is the one regular semaphore, a DMA
    semaphore's number names its kind and chunk. -/
def kinv : SemLoc sig → CK
  | .reg _ => none
  | .dma q => kindOf q.val

theorem kinv_ksem (j : CK) : kinv (ksem j) = j := by
  rcases j with _ | ⟨t, k⟩
  · rfl
  · fin_cases t
    · exact kind_xs k
    · exact kind_xr k
    · exact kind_ys k
    · exact kind_yr k

theorem ksem_injective : Function.Injective ksem := Function.LeftInverse.injective kinv_ksem

theorem kcell_injective : Function.Injective (kcell : Dev nD × CK → GSem nD τ sig) := by
  rintro ⟨c, j⟩ ⟨c', j'⟩ h
  have h1 : c = c' := congrArg (fun g : GSem nD τ sig => g.1.1) h
  subst h1
  have h2 : j = j' := ksem_injective (congrArg Prod.snd h)
  subst h2; rfl

/-- Every device's thirty-three protocol cells. -/
def ringCells : Finset (GSem nD τ sig) := Finset.univ.map ⟨kcell, kcell_injective⟩

/-- The duty tokens as minted, by (device, which): its barrier cell's two duties, each transfer cell's one. -/
abbrev tokOf (cj : Dev nD × (Bool ⊕ (Fin 4 × Fin 8))) : GSem nD τ sig × ℕ × Bool := match cj.2 with
  | .inl d => (kcell (cj.1, none), 0, d)
  | .inr tk => (kcell (cj.1, some tk), 0, false)

theorem tokOf_injective : Function.Injective (tokOf : Dev nD × (Bool ⊕ (Fin 4 × Fin 8)) → GSem nD τ sig × ℕ × Bool) := by
  rintro ⟨c, x⟩ ⟨c', x'⟩ h
  have h1 : c = c' := by
    have := congrArg (fun y : GSem nD τ sig × ℕ × Bool => y.1.1.1) h
    rcases x with d | tk <;> rcases x' with d' | tk' <;> exact this
  subst h1
  have h2 : x = x' := by
    rcases x with d | tk <;> rcases x' with d' | tk'
    · exact congrArg Sum.inl (congrArg (fun y : GSem nD τ sig × ℕ × Bool => y.2.2) h)
    · have e : ksem none = ksem (some tk') := congrArg (fun y : GSem nD τ sig × ℕ × Bool => y.1.2) h
      exact absurd (ksem_injective e) (fun h' => by cases h')
    · have e : ksem (some tk) = ksem none := congrArg (fun y : GSem nD τ sig × ℕ × Bool => y.1.2) h
      exact absurd (ksem_injective e) (fun h' => by cases h')
    · have e : ksem (some tk) = ksem (some tk') := congrArg (fun y : GSem nD τ sig × ℕ × Bool => y.1.2) h
      exact congrArg Sum.inr (Option.some.inj (ksem_injective e))
  subst h2; rfl

def ringToks : Finset (GSem nD τ sig × ℕ × Bool) := Finset.univ.map ⟨tokOf, tokOf_injective⟩

/-- The launch element: the pipeline library's cells, the protocol's cells and tokens, no transfer counter yet. -/
def u₀ : UU :=
  (initOf (Pipeline.cells cfgs cellOf_inj) (Pipeline.launchToks cfgs cellOf_inj), (initOf ringCells ringToks, (1 : Counters)))

/-- The duty tokens of device `c`'s own cells. -/
def toks (c : Dev nD) : sProp (MT nD τ sig Unit (Elt F) ℕ UU ℕ) :=
  iprop((bigSep Finset.univ fun d : Bool => dutyTok ER (kcell (c, none)) 0 d)
    ∗ bigSep Finset.univ fun tk : Fin 4 × Fin 8 => dutyTok ER (kcell (c, some tk)) 0 false)

/-- What the launch element deals device `c`: each of its cells' round state at round 0, its position there and that
    the round is reached, and its own cells' tokens. -/
def G (c : Dev nD) : sProp (MT nD τ sig Unit (Elt F) ℕ UU ℕ) :=
  iprop((bigSep Finset.univ fun j : CK => roundState ER (sched m) (kcell (c, j)) 0)
    ∗ (bigSep Finset.univ fun j : CK => iprop(atPos ER (kcell (c, j)) 0 ∅ 0 ∗ reached ER (kcell (c, j)) 0)) ∗ toks c)

/-- What the global step makes of it. -/
def G' (c : Dev nD) : sProp (MT nD τ sig Unit (Elt F) ℕ UU ℕ) := iprop(ghost m c ∗ locals c)

/-! ## Enumerations -/

omit [FloatOps F] in
theorem sep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem sep_bool (Φ : Bool → sProp 𝕄) : bigSep Finset.univ Φ = iprop(Φ false ∗ Φ true) := bigSep_univ_eq_bigSepL [false, true] (by decide) (by decide) Φ

omit [FloatOps F] in
/-- Over an option type: the summand at `none`, then the rest. -/
theorem sep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

/-! ## Funding the cells -/

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : CK => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element split three ways: the pipeline library's component as it is, the protocol's funded, the
    counters' unit dropped. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR (initOf ringCells ringToks) (1 : Counters)) $$ HX
  icases H2 with ⟨HR, -⟩
  ihave HR' := (show (BI.own (((Emb.inl : Emb UB (UB × Counters)).trans (embR : Emb (UB × Counters) (MT nD τ sig Unit (Elt F) ℕ UU ℕ))) (initOf ringCells ringToks)) : sProp 𝕄)
      ⊢ BI.own (ER (initOf ringCells ringToks)) from BI.Entails.refl _) $$ HR
  imod (fund_ring m) $$ HR' with HG
  imodintro
  isplitl [HP] <;> iassumption

/-! ## The semaphores at zero -/

omit [FloatOps F] in
/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores: the three of its local copies, then the transfer cells'. -/
theorem ownSems0_eq (c : Dev nD) : (Pipeline.ownSems0 (Ix := Unit) (Name := ℕ) (U := UU) (Lvl := ℕ) (Val := Elt F) (τ := τ) osem c : sProp 𝕄)
    = iprop(locals c ∗ bigSep Finset.univ fun tk : Fin 4 × Fin 8 => semVal (kcell (c, some tk)) 0) := by
  unfold Pipeline.ownSems0 locals; rw [bigSep_univ_sum, sep_fin3]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun j : CK => semVal (kcell (c, j)) 0) ∗ locals c) : sProp 𝕄) := by
  rw [ownSems0_eq, unscopedSems0_eq, sep_option]
  iintro ⟨⟨HL, HT⟩, HB⟩
  isplitr [HL]
  · isplitl [HB]; · iexact HB
    iexact HT
  iexact HL

/-! ## The cells' invariants -/

/-- Each of a device's cells closed into an invariant from its semaphore at zero and its round state at round 0; the
    three local semaphores pass through. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CK => iprop(∃ κ : ℕ, cellInv ER (sched m) κ (kcell (c, j))))
          ∗ (bigSep Finset.univ fun j : CK => iprop(atPos ER (kcell (c, j)) 0 ∅ 0 ∗ reached ER (kcell (c, j)) 0)) ∗ toks c ∗ locals c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun j : CK => semVal (kcell (c, j)) 0) ∗ bigSep Finset.univ fun j : CK => roundState ER (sched m) (kcell (c, j)) 0)
      ⊢ (|={Set.univ}=> bigSep Finset.univ fun j : CK => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

theorem ghost_intro (K : Dev nD × CK → ℕ) (c : Dev nD) : iprop(records m K ∗ linear c ∗ locals c) ⊢ G' m c := by
  unfold G' ghost
  iintro ⟨#HR, Hl, Hloc⟩
  isplitl [Hl]
  · iexists K
    isplitr; · iexact HR
    iexact Hl
  iexact Hloc

/-! ## The tokens dealt across the mesh -/

omit [FloatOps F] in
/-- A device's own tokens, one by one and kind by kind. -/
theorem toks_split (c : Dev nD) : (toks c : sProp 𝕄) ⊢ iprop(dutyTok ER (barCell c) 0 false ∗ dutyTok ER (barCell c) 0 true
    ∗ (bigSep Finset.univ fun k : Fin 8 => dutyTok ER (xsCell c k) 0 false) ∗ (bigSep Finset.univ fun k : Fin 8 => dutyTok ER (xrCell c k) 0 false)
    ∗ (bigSep Finset.univ fun k : Fin 8 => dutyTok ER (ysCell c k) 0 false) ∗ (bigSep Finset.univ fun k : Fin 8 => dutyTok ER (yrCell c k) 0 false)) := by
  unfold toks
  rw [sep_bool, bigSep_univ_prod, sep_fin4]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

omit [FloatOps F] in
/-- A barrier cell's `false` token and the first-axis receives' tokens go across the first axis, the barrier cell's
    `true` token and the second-axis receives' across the second (both maps are involutions of the mesh); the sends'
    tokens stay. -/
theorem toks_around : (bigSep Finset.univ fun c : Dev nD => (toks c : sProp 𝕄)) ⊢ bigSep Finset.univ fun c : Dev nD => payToks c := by
  refine (bigSep_mono fun c _ => toks_split c).trans (show (bigSep Finset.univ fun c : Dev nD => iprop(dutyTok ER (barCell c) 0 false ∗ dutyTok ER (barCell c) 0 true
    ∗ (bigSep Finset.univ fun k : Fin 8 => dutyTok ER (xsCell c k) 0 false) ∗ (bigSep Finset.univ fun k : Fin 8 => dutyTok ER (xrCell c k) 0 false)
    ∗ (bigSep Finset.univ fun k : Fin 8 => dutyTok ER (ysCell c k) 0 false) ∗ (bigSep Finset.univ fun k : Fin 8 => dutyTok ER (yrCell c k) 0 false)) : sProp 𝕄)
      ⊢ bigSep Finset.univ fun c : Dev nD => payToks c from ?_)
  unfold payToks
  simp only [bigSep_sep']
  rw [bigSep_univ_equiv xswap (fun c : Dev nD => (dutyTok ER (barCell c) 0 false : sProp 𝕄)),
    bigSep_univ_equiv yswap (fun c : Dev nD => (dutyTok ER (barCell c) 0 true : sProp 𝕄)),
    bigSep_univ_equiv xswap (fun c : Dev nD => (bigSep Finset.univ fun k : Fin 8 => dutyTok ER (xrCell c k) 0 false : sProp 𝕄)),
    bigSep_univ_equiv yswap (fun c : Dev nD => (bigSep Finset.univ fun k : Fin 8 => dutyTok ER (yrCell c k) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The global step -/

theorem regroup :
    (bigSep Finset.univ fun c : Dev nD => iprop((bigSep Finset.univ fun j : CK => iprop(∃ κ : ℕ, cellInv ER (sched m) κ (kcell (c, j))))
          ∗ (bigSep Finset.univ fun j : CK => iprop(atPos ER (kcell (c, j)) 0 ∅ 0 ∗ reached ER (kcell (c, j)) 0)) ∗ toks c ∗ locals c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun j : CK => (atPos ER (kcell (c, j)) 0 ∅ 0 : sProp 𝕄)) (fun j => reached ER (kcell (c, j)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show (iprop(((bigSep Finset.univ fun c : Dev nD => bigSep Finset.univ fun j : CK => (atPos ER (kcell (c, j)) 0 ∅ 0 : sProp 𝕄))
          ∗ bigSep Finset.univ fun c : Dev nD => payToks c) ∗ bigSep Finset.univ fun c : Dev nD => locals c) : sProp 𝕄)
        = bigSep Finset.univ fun c : Dev nD => iprop(linear c ∗ locals c) from by
      unfold linear; rw [← bigSep_sep', ← bigSep_sep']))
    isplitl [Hat Htk]
    · isplitl [Hat]; · iexact Hat
      iexact Htk
    iexact Hloc

/-- The global step: every device's own and unscoped semaphores at once, since a barrier cell's invariant is shared by
    the device and both its neighbours. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The kernel's own semaphores -/

/-- The kernel's thirty-five DMA semaphores are scoped, pairwise distinct, and none is a staging semaphore (the
    pipeline stages nothing here). -/
theorem ownSemFacts : Pipeline.OwnSemFacts cfg0.spec osem := by decide

/-- info: 'Cert.KernelIdeal.AG.ownSemFacts' depends on axioms: [propext, Classical.choice, Quot.sound] -/
#guard_msgs in #print axioms ownSemFacts
/-- info: 'Cert.KernelIdeal.AG.hu₀' depends on axioms: [propext, Classical.choice, Quot.sound] -/
#guard_msgs in #print axioms hu₀
/-- info: 'Cert.KernelIdeal.AG.glob' depends on axioms: [propext, Classical.choice, Quot.sound] -/
#guard_msgs in #print axioms glob

end Cert.KernelIdeal.AG

end
-- ==== Proof.Levels.lean ====
import proofs.«900078_g7700000000000079_dist_ag_v7x_xy2x2_x_m16384_n1024_bf16_1_alg».proof.Proof.Proto

/-! The waiting evidence and the launch credit. A device may wait on a semaphore whose level sits below the level of every
    cell it still owes (barrier below first-axis receives below second-axis receives, every other cell at the bottom); and
    the credit the launch deals a device is what its two neighbours owe its cells: a unit each on its barrier, a chunk's
    credit on each receive. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waiting while owing -/

/-- A list's tallies are positive only at the cell of one of its entries. -/
theorem owedL_pos {l : List (GSem nD τ sig × ℕ)} {g : GSem nD τ sig} {u : Unit} (h : 0 < owedL l g u) : ∃ x ∈ l, g = x.1 := by
  induction l with
  | nil => exact absurd h (Nat.lt_irrefl 0)
  | cons x xs ih =>
    rcases Pipeline.add_pos_cases (show 0 < (owedL xs + tallyAt x.1 () x.2) g u from h) with h | h
    · obtain ⟨y, hy, hg⟩ := ih h
      exact ⟨y, List.mem_cons_of_mem _ hy, hg⟩
    · exact ⟨x, List.mem_cons_self, (Pipeline.tallyAt_pos h).1⟩

/-- A device may wait on a semaphore whose level is below the level of every cell it still owes. -/
theorem mayWait_owedL (c : Dev nD) (sm : SemLoc sig) (l : List (GSem nD τ sig × ℕ)) (h : ∀ x ∈ l, x.1.1.2 = .tc ∧ lvOf sm < lvOf x.1.2) :
    (levAts L lv : sProp (MT nD τ sig Unit (Elt F) ℕ UU ℕ)) ⊢ MayWait (c : Thread nD τ) sm () (owedL l) :=
  Pipeline.mayWait_of_levAts (by rw [L_tc]; exact Finset.mem_singleton_self _) fun g u hg => by
    obtain ⟨x, hx, rfl⟩ := owedL_pos hg
    exact ⟨by rw [L, if_pos (h x hx).1]; exact Finset.mem_singleton_self _, (h x hx).2⟩

/-- The region stages no window, so its pipeline has no wait of its own. -/
theorem waits (c : Dev nD) : (levAts L lv : sProp (MT nD τ sig Unit (Elt F) ℕ UU ℕ)) ⊢ Pipeline.cellsWaits cfgs (dats m) () 0 c :=
  Pipeline.cellsWaits_intro cfgs (dats m) () 0 c fun w => w.elim0

/-! ## The levels of the cells, and the waits of the body -/

theorem lvOf_bar : lvOf (.reg barS : SemLoc sig) = 1 := rfl
theorem lvOf_xs (k : Fin 8) : lvOf (.dma (xsS k) : SemLoc sig) = 0 := by
  show (match kindOf (3 + k.val) with | some (1, _) => 2 | some (3, _) => 3 | _ => 0) = 0
  rw [kind_xs]; rfl
theorem lvOf_xr (k : Fin 8) : lvOf (.dma (xrS k) : SemLoc sig) = 2 := by
  show (match kindOf (11 + k.val) with | some (1, _) => 2 | some (3, _) => 3 | _ => 0) = 2
  rw [kind_xr]; rfl
theorem lvOf_ys (k : Fin 8) : lvOf (.dma (ysS k) : SemLoc sig) = 0 := by
  show (match kindOf (19 + k.val) with | some (1, _) => 2 | some (3, _) => 3 | _ => 0) = 0
  rw [kind_ys]; rfl
theorem lvOf_yr (k : Fin 8) : lvOf (.dma (yrS k) : SemLoc sig) = 3 := by
  show (match kindOf (27 + k.val) with | some (1, _) => 2 | some (3, _) => 3 | _ => 0) = 3
  rw [kind_yr]; rfl
/-- The semaphores of the three local copies sit at the bottom. -/
theorem lvOf_local (j : Fin 3) : lvOf (.dma ⟨j.val, by have := j.isLt; show j.val < 35; omega⟩ : SemLoc sig) = 0 := by
  fin_cases j <;> rfl

/-- Every first-axis chunk a device owes is a receive cell of a TensorCore, at level 2; -/
theorem xOwes_lv (c : Dev nD) : ∀ x ∈ xOwes c, x.1.1.2 = .tc ∧ lvOf x.1.2 = 2 := by
  intro x hx
  simp only [xOwes, List.mem_cons, List.not_mem_nil, or_false] at hx
  rcases hx with rfl | rfl | rfl | rfl | rfl | rfl | rfl | rfl <;> exact ⟨rfl, lvOf_xr _⟩
/-- every second-axis chunk at level 3. -/
theorem yOwes_lv (c : Dev nD) : ∀ x ∈ yOwes c, x.1.1.2 = .tc ∧ lvOf x.1.2 = 3 := by
  intro x hx
  simp only [yOwes, List.mem_cons, List.not_mem_nil, or_false] at hx
  rcases hx with rfl | rfl | rfl | rfl | rfl | rfl | rfl | rfl <;> exact ⟨rfl, lvOf_yr _⟩

/-- A wait below level 2 — the barrier's, a local copy's, a send's — while owing any of the chunks. -/
theorem mayWait_low (c : Dev nD) (sm : SemLoc sig) (hsm : lvOf sm < 2) (l : List (GSem nD τ sig × ℕ)) (hl : ∀ x ∈ l, x ∈ xOwes c ++ yOwes c) :
    (levAts L lv : sProp (MT nD τ sig Unit (Elt F) ℕ UU ℕ)) ⊢ MayWait (c : Thread nD τ) sm () (owedL l) :=
  mayWait_owedL c sm l fun x hx => by
    rcases List.mem_append.mp (hl x hx) with h | h
    · exact ⟨(xOwes_lv c x h).1, by rw [(xOwes_lv c x h).2]; exact hsm⟩
    · exact ⟨(yOwes_lv c x h).1, by rw [(yOwes_lv c x h).2]; omega⟩

/-- A wait below level 3 — a first-axis receive's — while owing any of the second-axis chunks. -/
theorem mayWait_mid (c : Dev nD) (sm : SemLoc sig) (hsm : lvOf sm < 3) (l : List (GSem nD τ sig × ℕ)) (hl : ∀ x ∈ l, x ∈ yOwes c) :
    (levAts L lv : sProp (MT nD τ sig Unit (Elt F) ℕ UU ℕ)) ⊢ MayWait (c : Thread nD τ) sm () (owedL l) :=
  mayWait_owedL c sm l fun x hx => ⟨(yOwes_lv c x (hl x hx)).1, by rw [(yOwes_lv c x (hl x hx)).2]; exact hsm⟩

/-- Any wait while owing nothing. -/
theorem mayWait_nil (c : Dev nD) (sm : SemLoc sig) :
    (levAts L lv : sProp (MT nD τ sig Unit (Elt F) ℕ UU ℕ)) ⊢ MayWait (c : Thread nD τ) sm () (owedL []) :=
  mayWait_owedL c sm [] fun x hx => absurd hx List.not_mem_nil

/-- The barrier wait: both signals paid, all sixteen chunks owed. -/
theorem mayWait_bar (c : Dev nD) :
    (levAts L lv : sProp (MT nD τ sig Unit (Elt F) ℕ UU ℕ)) ⊢ MayWait (c : Thread nD τ) (.reg barS) () (owedL (xOwes c ++ yOwes c)) :=
  mayWait_low c _ (by rw [lvOf_bar]; decide) _ fun _ h => h

/-- A local copy's wait while the chunks from the `j`-th on are owed. -/
theorem mayWait_local (c : Dev nD) (i : Fin 3) (j : ℕ) :
    (levAts L lv : sProp (MT nD τ sig Unit (Elt F) ℕ UU ℕ))
      ⊢ MayWait (c : Thread nD τ) (.dma ⟨i.val, by have := i.isLt; show i.val < 35; omega⟩) () (owedL ((xOwes c ++ yOwes c).drop j)) :=
  mayWait_low c _ (by rw [lvOf_local]; decide) _ fun _ h => List.mem_of_mem_drop h

/-- The wait on the first-axis receive of chunk `k` while the second-axis chunks from the `j`-th on are owed. -/
theorem mayWait_xr (c : Dev nD) (k : Fin 8) (j : ℕ) :
    (levAts L lv : sProp (MT nD τ sig Unit (Elt F) ℕ UU ℕ)) ⊢ MayWait (c : Thread nD τ) (.dma (xrS k)) () (owedL ((yOwes c).drop j)) :=
  mayWait_mid c _ (by rw [lvOf_xr]; decide) _ fun _ h => List.mem_of_mem_drop h

/-! ## The launch credit -/

/-- The neighbour across the first axis (`false`) or the second (`true`). -/
def nb (b : Bool) (d : Dev nD) : Dev nD := cond b (yn d) (xn d)

theorem nb_nb (b : Bool) (d : Dev nD) : nb b (nb b d) = d := by
  cases b
  · exact xn_xn d
  · exact yn_yn d

/-- What a device owes, entry by entry: which neighbour's cell, on which semaphore, how much. -/
def owesT : List (Bool × SemLoc sig × ℕ) :=
  [(false, .reg barS, 1), (true, .reg barS, 1),
   (false, .dma (xrS 0), N), (false, .dma (xrS 1), N), (false, .dma (xrS 2), N), (false, .dma (xrS 3), N),
   (false, .dma (xrS 4), N), (false, .dma (xrS 5), N), (false, .dma (xrS 6), N), (false, .dma (xrS 7), N),
   (true, .dma (yrS 0), N), (true, .dma (yrS 1), N), (true, .dma (yrS 2), N), (true, .dma (yrS 3), N),
   (true, .dma (yrS 4), N), (true, .dma (yrS 5), N), (true, .dma (yrS 6), N), (true, .dma (yrS 7), N)]

theorem owesList_eq (d : Dev nD) : owesList d = owesT.map fun a => ((((nb a.1 d : Dev nD) : Thread nD τ), a.2.1), a.2.2) := rfl

/-- Every device owing a list of entries, each on a semaphore of one of its two neighbours: both neighbour maps being
    involutions, the launch deals device `c` the matching credit on its own semaphore, entry by entry. -/
theorem launchCred_entries (l : List (Bool × SemLoc sig × ℕ)) (c : Dev nD) :
    (Pipeline.launchCred (fun d => owedL (l.map fun a => ((((nb a.1 d : Dev nD) : Thread nD τ), a.2.1), a.2.2))) c : sProp (MT nD τ sig Unit (Elt F) ℕ UU ℕ))
      ⊢ bigSepL l fun a => cred (tallyAt ((c : Thread nD τ), a.2.1) () a.2.2) := by
  induction l with
  | nil =>
    show (Pipeline.launchCred (fun _ : Dev nD => (0 : CellTallies nD τ sig Unit)) c : sProp (MT nD τ sig Unit (Elt F) ℕ UU ℕ)) ⊢ iprop(emp)
    rw [Pipeline.launchCred_zero]
  | cons a l ih =>
    rw [bigSepL_cons]
    show (Pipeline.launchCred (fun d => owedL (l.map fun a => ((((nb a.1 d : Dev nD) : Thread nD τ), a.2.1), a.2.2))
        + tallyAt ((((nb a.1 d : Dev nD) : Thread nD τ), a.2.1)) () a.2.2) c : sProp (MT nD τ sig Unit (Elt F) ℕ UU ℕ)) ⊢ _
    rw [Pipeline.launchCred_add]
    show _ ⊢ iprop(cred (tallyAt ((c : Thread nD τ), a.2.1) () a.2.2) ∗ bigSepL l fun a => cred (tallyAt ((c : Thread nD τ), a.2.1) () a.2.2))
    iintro ⟨HA, HB⟩
    isplitl [HB]
    · iapply (Pipeline.launchCred_tallyAt a.2.1 (nb a.1) (nb a.1) (nb_nb a.1) (nb_nb a.1) () a.2.2 c); iexact HB
    · iapply ih; iexact HA

/-- The launch credit, entry by entry. -/
theorem launch_entries (c : Dev nD) :
    (Pipeline.launchCred O₀ c : sProp (MT nD τ sig Unit (Elt F) ℕ UU ℕ))
      ⊢ iprop(cred (tallyAt (barCell c) () 1) ∗ cred (tallyAt (barCell c) () 1)
        ∗ cred (tallyAt (xrCell c 0) () N) ∗ cred (tallyAt (xrCell c 1) () N) ∗ cred (tallyAt (xrCell c 2) () N) ∗ cred (tallyAt (xrCell c 3) () N)
        ∗ cred (tallyAt (xrCell c 4) () N) ∗ cred (tallyAt (xrCell c 5) () N) ∗ cred (tallyAt (xrCell c 6) () N) ∗ cred (tallyAt (xrCell c 7) () N)
        ∗ cred (tallyAt (yrCell c 0) () N) ∗ cred (tallyAt (yrCell c 1) () N) ∗ cred (tallyAt (yrCell c 2) () N) ∗ cred (tallyAt (yrCell c 3) () N)
        ∗ cred (tallyAt (yrCell c 4) () N) ∗ cred (tallyAt (yrCell c 5) () N) ∗ cred (tallyAt (yrCell c 6) () N) ∗ cred (tallyAt (yrCell c 7) () N)) :=
  launchCred_entries owesT c

/-- Device `c`'s barrier cell is owed a unit by each neighbour, its first-axis receives a chunk's credit each by `xn c`, its
    second-axis receives by `yn c`. -/
theorem creds_of_launch (c : Dev nD) : (Pipeline.launchCred O₀ c : sProp (MT nD τ sig Unit (Elt F) ℕ UU ℕ)) ⊢ creds c := by
  refine (launch_entries c).trans ?_
  unfold creds
  rw [bigSep_univ_eq_bigSepL [0, 1, 2, 3, 4, 5, 6, 7] (by decide) (by decide), ← tallyAt_add (barCell c) () 1 1]
  show _ ⊢ iprop(cred (tallyAt (barCell c) () 1 + tallyAt (barCell c) () 1) ∗ (cred (tallyAt (xrCell c 0) () N) ∗ cred (tallyAt (yrCell c 0) () N)) ∗ (cred (tallyAt (xrCell c 1) () N) ∗ cred (tallyAt (yrCell c 1) () N))
    ∗ (cred (tallyAt (xrCell c 2) () N) ∗ cred (tallyAt (yrCell c 2) () N)) ∗ (cred (tallyAt (xrCell c 3) () N) ∗ cred (tallyAt (yrCell c 3) () N))
    ∗ (cred (tallyAt (xrCell c 4) () N) ∗ cred (tallyAt (yrCell c 4) () N)) ∗ (cred (tallyAt (xrCell c 5) () N) ∗ cred (tallyAt (yrCell c 5) () N))
    ∗ (cred (tallyAt (xrCell c 6) () N) ∗ cred (tallyAt (yrCell c 6) () N)) ∗ (cred (tallyAt (xrCell c 7) () N) ∗ cred (tallyAt (yrCell c 7) () N)))
  iintro ⟨Hb1, Hb2, Hx0, Hx1, Hx2, Hx3, Hx4, Hx5, Hx6, Hx7, Hy0, Hy1, Hy2, Hy3, Hy4, Hy5, Hy6, Hy7⟩
  isplitl [Hb1 Hb2]
  · iapply (cred_add _ _).2; isplitl [Hb1] <;> iassumption
  isplitl [Hx0 Hy0]; · isplitl [Hx0] <;> iassumption
  isplitl [Hx1 Hy1]; · isplitl [Hx1] <;> iassumption
  isplitl [Hx2 Hy2]; · isplitl [Hx2] <;> iassumption
  isplitl [Hx3 Hy3]; · isplitl [Hx3] <;> iassumption
  isplitl [Hx4 Hy4]; · isplitl [Hx4] <;> iassumption
  isplitl [Hx5 Hy5]; · isplitl [Hx5] <;> iassumption
  isplitl [Hx6 Hy6]; · isplitl [Hx6] <;> iassumption
  isplitl [Hx7] <;> iassumption

/-- info: 'Cert.KernelIdeal.AG.mayWait_owedL' depends on axioms: [propext, Classical.choice, Quot.sound] -/
#guard_msgs in #print axioms mayWait_owedL

/-- info: 'Cert.KernelIdeal.AG.waits' depends on axioms: [propext, Classical.choice, Quot.sound] -/
#guard_msgs in #print axioms waits

/-- info: 'Cert.KernelIdeal.AG.mayWait_low' depends on axioms: [propext, Classical.choice, Quot.sound] -/
#guard_msgs in #print axioms mayWait_low

/-- info: 'Cert.KernelIdeal.AG.mayWait_mid' depends on axioms: [propext, Classical.choice, Quot.sound] -/
#guard_msgs in #print axioms mayWait_mid

/-- info: 'Cert.KernelIdeal.AG.creds_of_launch' depends on axioms: [propext, Classical.choice, Quot.sound] -/
#guard_msgs in #print axioms creds_of_launch

end Cert.KernelIdeal.AG

end
-- ==== Proof.Body1.lean ====
import proofs.«900078_g7700000000000079_dist_ag_v7x_xy2x2_x_m16384_n1024_bf16_1_alg».proof.Proof.Proto
import proofs.«900078_g7700000000000079_dist_ag_v7x_xy2x2_x_m16384_n1024_bf16_1_alg».proof.Proof.Levels
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The entry handshake: device `c` signals each neighbour's barrier cell, handing it the eight bands of its own result array
    that neighbour will write, and waits for both neighbours' signals, which hand it theirs. -/

theorem inv_at (K : Dev nD × CK → ℕ) (ck : Dev nD × CK) : (records m K : sProp (MT nD τ sig Unit (Elt F) ℕ UU ℕ)) ⊢ cellInv ER (sched m) (K ck) (kcell ck) := by
  unfold records
  exact sep_elim_left.trans (bigSep_elim (Finset.mem_univ ck))
theorem reached_at (K : Dev nD × CK → ℕ) (ck : Dev nD × CK) : (records m K : sProp (MT nD τ sig Unit (Elt F) ℕ UU ℕ)) ⊢ reached ER (kcell ck) 0 := by
  unfold records
  exact sep_elim_right.trans (bigSep_elim (Finset.mem_univ ck))

/-- What the handshake needs: the barrier cell's position and credit, the two signal tokens, the bands to hand over. -/
def pre1 (K : Dev nD × CK → ℕ) (c : Dev nD) (W : Waits sig Unit) : sProp (MT nD τ sig Unit (Elt F) ℕ UU ℕ) :=
  iprop(records m K ∗ levAts L lv ∗ atPos ER (barCell c) 0 ∅ 0 ∗ dutyTok ER (barCell (xn c)) 0 false ∗ dutyTok ER (barCell (yn c)) 0 true
    ∗ cred (tallyAt (barCell c) () 2) ∗ owes (c : Thread nD τ) (O₀ c) W ∗ barPayX (xn c) ∗ barPayY (yn c))

/-- What it leaves: the neighbours' bands, and the sixteen chunks still owed. -/
def post1 (c : Dev nD) : sProp (MT nD τ sig Unit (Elt F) ℕ UU ℕ) :=
  iprop(atPos ER (barCell c) 1 ∅ 0 ∗ (∃ W, owes (c : Thread nD τ) (owedL (xOwes c ++ yOwes c)) W) ∗ barPayX c ∗ barPayY c)

set_option maxHeartbeats 800000 in
theorem part1_spec (K : Dev nD × CK → ℕ) (c : Dev nD) (W : Waits sig Unit)
    (Kt : (Σ' (d0 : Dev nD) (v2 : BitVec 32) (v5 : BitVec 32) (v6 : BitVec 32) (v7 : BitVec 32) (v17 : BitVec 32) (v19 : BitVec 32) (v22 : BitVec 32), BitVec 32) → sProp (MT nD τ sig Unit (Elt F) ℕ UU ℕ)) :
    iprop(pre1 m K c W ∗ (∀ r, iprop(⌜r.1 = c⌝ ∗ post1 (F := F) c) -∗ Kt r))
      ⊢ wp frame (wpE (defs₀ (F := F)) 𝒱₀ c none) Set.univ (k0_part1 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  simp only [k0_part1_eq_skeleton]; unfold k0_part1_skel
  simp only [semSignalWord, semWaitWord, Prog.lift, Prog.bind_op, Prog.bind_ret, Prog.pure_eq_ret, wp_deviceId]
  simp only [dev1_eq c, dev2_eq c]
  unfold pre1
  iintro ⟨⟨#HR, #Hlev, HatB, HtX, HtY, HcB, HO, HpX, HpY⟩, Hk⟩
  -- the signal to `xn c`: its barrier cell's duty `false`
  iapply (Rounds.wp_signal 𝒱₀ ER (sched m) (c : Thread nD τ) none (dst := (xn c : Thread nD τ)) (κ := K (xn c, none))
      (d := false) (by rw [duties_bar]; exact Finset.mem_univ _) ((amount_bar m (xn c) false).trans (by decide)) ()
      (owedL ((barCell (yn c), 1) :: (xOwes c ++ yOwes c))) rfl) $$ [HO HtX HpX]
  · isplitr; · iapply (inv_at m K (xn c, none)); iexact HR
    isplitl [HO]; · iexact HO
    isplitl [HtX]; · iexact HtX
    isplitl [HpX]; · rw [payload_bar_false]; iexact HpX
    iapply (reached_at m K (xn c, none)); iexact HR
  iintro HO
  -- the signal to `yn c`: duty `true`
  iapply (Rounds.wp_signal 𝒱₀ ER (sched m) (c : Thread nD τ) none (dst := (yn c : Thread nD τ)) (κ := K (yn c, none))
      (d := true) (by rw [duties_bar]; exact Finset.mem_univ _) ((amount_bar m (yn c) true).trans (by decide)) ()
      (owedL (xOwes c ++ yOwes c)) rfl) $$ [HO HtY HpY]
  · isplitr; · iapply (inv_at m K (yn c, none)); iexact HR
    isplitl [HO]; · iexact HO
    isplitl [HtY]; · iexact HtY
    isplitl [HpY]; · rw [payload_bar_true]; iexact HpY
    iapply (reached_at m K (yn c, none)); iexact HR
  iintro HO
  -- the wait for both neighbours' signals
  iapply (Rounds.wp_wait_rest_token 𝒱₀ ER (sched m) (c : Thread nD τ) none (κ := K (c, none))
      (wpE_semWait_eq 𝒱₀ (c : Thread nD τ) none Set.univ) (Set.mem_univ _) () (O := owedL (xOwes c ++ yOwes c)) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨HpX, HpY⟩
  rw [wp_ret]; imodintro
  iapply Hk
  isplitr; · ipureintro; rfl
  unfold post1
  isplitl [HatB]; · iexact HatB
  isplitl [HO]; · iexists _; iexact HO
  isplitl [HpX] <;> iassumption

end Cert.KernelIdeal.AG

end
-- ==== Proof.Bands.lean ====
import proofs.«900078_g7700000000000079_dist_ag_v7x_xy2x2_x_m16384_n1024_bf16_1_alg».proof.Proof.Proto

/-! Cutting the two big buffers into bands of rows and putting them back. The result array on device `c` (32768 rows)
    is the disjoint union of its own band (16384 rows), the eight chunks it receives across the first axis and the eight it
    receives across the second; the shard scratch (16384 rows) of the eight chunks that are sent and the eight that are
    only kept. A full share of any region is the sum of its two halves. The kernel's slices are these bands. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's slices are the bands -/

/-- Small arithmetic of the mesh coordinates. -/
theorem yn_val (c : Dev nD) : (yn c).val = (2 * (c.val / 2) + 1) - c.val % 2 := rfl
theorem xn_val (c : Dev nD) : (xn c).val = (c.val % 2 + 2) - 2 * (c.val / 2) := rfl
theorem dev_lt (c : Dev nD) : c.val < 4 := c.isLt

theorem set_off2 (c : Dev nD) (r : Fin 8) (hs) :
    ((sM.slice (Rect.unit (s := S16384x1024) (k0_off2 c (BitVec.ofNat 32 (1024 * r.val))) S1024x1024.size (k0_off2_inb c r)) hs).view.set
      : Finset S16384x1024.Idx) = sendBand c r := by
  rw [set_slice_s _ _ _ (congrFun (k0_off2_eq c r) 1) rfl, congrFun (k0_off2_eq c r) 0]
  rfl

theorem set_off3 (c : Dev nD) (r : Fin 8) (hs) :
    ((sM.slice (Rect.unit (s := S16384x1024) (k0_off3 c (BitVec.ofNat 32 (1024 * r.val))) S1024x1024.size (k0_off3_inb c r)) hs).view.set
      : Finset S16384x1024.Idx) = sendBand c r := by
  rw [set_slice_s _ _ _ (congrFun (k0_off3_eq c r) 1) rfl, congrFun (k0_off3_eq c r) 0]
  rfl

theorem set_off7 (c : Dev nD) (r : Fin 8) (hs) :
    ((sM.slice (Rect.unit (s := S16384x1024) (k0_off7 c (BitVec.ofNat 32 (1024 * r.val))) S1024x1024.size (k0_off7_inb c r)) hs).view.set
      : Finset S16384x1024.Idx) = keepBand c r := by
  rw [set_slice_s _ _ _ (congrFun (k0_off7_eq c r) 1) rfl, congrFun (k0_off7_eq c r) 0]
  rfl

theorem set_off9 (c : Dev nD) (r : Fin 8) (hs) :
    ((oM.slice (Rect.unit (s := S32768x1024) (k0_off9 c (BitVec.ofNat 32 (1024 * r.val))) S1024x1024.size (k0_off9_inb c r)) hs).view.set
      : Finset S32768x1024.Idx) = xrBand c r := by
  rw [set_slice_o _ _ _ (congrFun (k0_off9_eq c r) 1) rfl, congrFun (k0_off9_eq c r) 0]
  rfl

/-- The rows device `c` writes on `xn c`: the first coordinate flips, the second stays. -/
theorem set_off4 (c : Dev nD) (r : Fin 8) (hs) :
    ((oM.slice (Rect.unit (s := S32768x1024) (k0_off4 c (BitVec.ofNat 32 (1024 * r.val))) S1024x1024.size (k0_off4_inb c r)) hs).view.set
      : Finset S32768x1024.Idx) = xrBand (xn c) r := by
  rw [set_slice_o _ _ _ (congrFun (k0_off4_eq c r) 1) rfl, congrFun (k0_off4_eq c r) 0]
  unfold xrBand
  have h4 := dev_lt c
  have hx := xn_val c
  congr 1
  show 16384 * (c.val / 2) + 8192 * (c.val % 2) + 1024 * r.val = _
  omega

/-- The same rows as `set_off9`, seen as what `yn c` receives across the second axis. -/
theorem set_off9_y (c : Dev nD) (r : Fin 8) (hs) :
    ((oM.slice (Rect.unit (s := S32768x1024) (k0_off9 c (BitVec.ofNat 32 (1024 * r.val))) S1024x1024.size (k0_off9_inb c r)) hs).view.set
      : Finset S32768x1024.Idx) = yrBand (yn c) r := by
  rw [set_off9]; unfold yrBand; rw [yn_yn]

theorem set_off8 (c : Dev nD) (hs) :
    ((oM.slice (Rect.unit (s := S32768x1024) (k0_off8 c) S16384x1024.size (k0_off8_inb c)) hs).view.set
      : Finset S32768x1024.Idx) = ownBand c := by
  rw [set_slice_o _ _ _ (congrFun (k0_off8_eq c) 1) rfl, congrFun (k0_off8_eq c) 0]
  rfl

/-! ## A full share is its two halves -/

theorem half_split {ℓ : Loc nD τ sig} (S : Finset (Idx ℓ)) (f : Buf (Elt F) ℓ) :
    (ℓ ↦[S]{fullShare} f : sProp (MT nD τ sig Unit (Elt F) ℕ UU ℕ)) ⊣⊢ iprop((ℓ ↦[S]{hL} f) ∗ (ℓ ↦[S]{hR} f)) :=
  pointsTo_share (PosShare.mem_left_op_right fullShare)

/-! ## The bands cover each buffer and do not overlap -/

/-- The eight chunks received across the first axis are one block of 8192 rows. -/
theorem xr_biUnion (c : Dev nD) :
    Finset.univ.biUnion (xrBand c) = oRows ((8192 * (c.val % 2) + 16384) - 16384 * (c.val / 2)) 8192 := by
  have h4 := dev_lt c
  ext i
  simp only [Finset.mem_biUnion, Finset.mem_univ, true_and, xrBand, mem_oRows]
  constructor
  · rintro ⟨k, hk⟩
    have := k.isLt
    omega
  · intro h
    refine ⟨⟨((i 0).val - ((8192 * (c.val % 2) + 16384) - 16384 * (c.val / 2))) / 1024, by omega⟩, ?_⟩
    show _ ≤ (i 0).val ∧ (i 0).val < _
    dsimp only
    omega

theorem yr_biUnion (c : Dev nD) :
    Finset.univ.biUnion (yrBand c) = oRows ((8192 * ((yn c).val % 2) + 16384) - 16384 * ((yn c).val / 2)) 8192 :=
  xr_biUnion (yn c)

theorem send_biUnion (c : Dev nD) : Finset.univ.biUnion (sendBand c) = sRows (8192 * (c.val % 2)) 8192 := by
  have h4 := dev_lt c
  ext i
  simp only [Finset.mem_biUnion, Finset.mem_univ, true_and, sendBand, mem_sRows]
  constructor
  · rintro ⟨k, hk⟩
    have := k.isLt
    omega
  · intro h
    refine ⟨⟨((i 0).val - 8192 * (c.val % 2)) / 1024, by omega⟩, ?_⟩
    show _ ≤ (i 0).val ∧ (i 0).val < _
    dsimp only
    omega

theorem keep_biUnion (c : Dev nD) : Finset.univ.biUnion (keepBand c) = sRows (8192 - 8192 * (c.val % 2)) 8192 := by
  have h4 := dev_lt c
  ext i
  simp only [Finset.mem_biUnion, Finset.mem_univ, true_and, keepBand, mem_sRows]
  constructor
  · rintro ⟨k, hk⟩
    have := k.isLt
    omega
  · intro h
    refine ⟨⟨((i 0).val - (8192 - 8192 * (c.val % 2))) / 1024, by omega⟩, ?_⟩
    show _ ≤ (i 0).val ∧ (i 0).val < _
    dsimp only
    omega

theorem xr_disjoint (c : Dev nD) {k k' : Fin 8} (h : k ≠ k') : Disjoint (xrBand c k) (xrBand c k') := by
  have h4 := dev_lt c
  have hk := k.isLt
  have hk' := k'.isLt
  have hne : k.val ≠ k'.val := Fin.val_ne_of_ne h
  exact oRows_disjoint (by omega)

theorem yr_disjoint (c : Dev nD) {k k' : Fin 8} (h : k ≠ k') : Disjoint (yrBand c k) (yrBand c k') :=
  xr_disjoint (yn c) h

theorem send_disjoint (c : Dev nD) {k k' : Fin 8} (h : k ≠ k') : Disjoint (sendBand c k) (sendBand c k') := by
  have hne : k.val ≠ k'.val := Fin.val_ne_of_ne h
  exact sRows_disjoint (by omega)

theorem keep_disjoint (c : Dev nD) {k k' : Fin 8} (h : k ≠ k') : Disjoint (keepBand c k) (keepBand c k') := by
  have h4 := dev_lt c
  have hne : k.val ≠ k'.val := Fin.val_ne_of_ne h
  exact sRows_disjoint (by omega)

theorem xr_yr_disjoint (c : Dev nD) : Disjoint (Finset.univ.biUnion (xrBand c)) (Finset.univ.biUnion (yrBand c)) := by
  rw [xr_biUnion, yr_biUnion]
  have h4 := dev_lt c
  have hy := yn_val c
  exact oRows_disjoint (by omega)

theorem own_disjoint (c : Dev nD) :
    Disjoint (ownBand c) (Finset.univ.biUnion (xrBand c) ∪ Finset.univ.biUnion (yrBand c)) := by
  rw [xr_biUnion, yr_biUnion]
  have h4 := dev_lt c
  have hy := yn_val c
  exact Finset.disjoint_union_right.mpr ⟨oRows_disjoint (by omega), oRows_disjoint (by omega)⟩

theorem send_keep_disjoint (c : Dev nD) : Disjoint (Finset.univ.biUnion (sendBand c)) (Finset.univ.biUnion (keepBand c)) := by
  rw [send_biUnion, keep_biUnion]
  have h4 := dev_lt c
  exact sRows_disjoint (by omega)

/-- The result array is its own band and the two received blocks. -/
theorem o_cover (c : Dev nD) :
    ownBand c ∪ ((Finset.univ.biUnion (xrBand c)) ∪ (Finset.univ.biUnion (yrBand c))) = Finset.univ := by
  rw [xr_biUnion, yr_biUnion]
  have h4 := dev_lt c
  have hy := yn_val c
  ext i
  have hi : (i 0).val < 32768 := (i 0).isLt
  simp only [ownBand, Finset.mem_union, mem_oRows, Finset.mem_univ, iff_true]
  omega

/-- The shard scratch is the sent half and the kept half. -/
theorem s_cover (c : Dev nD) :
    (Finset.univ.biUnion (sendBand c)) ∪ (Finset.univ.biUnion (keepBand c)) = Finset.univ := by
  rw [send_biUnion, keep_biUnion]
  have h4 := dev_lt c
  ext i
  have hi : (i 0).val < 16384 := (i 0).isLt
  simp only [Finset.mem_union, mem_sRows, Finset.mem_univ, iff_true]
  omega

/-! ## Splitting the buffers -/

theorem o_split (c : Dev nD) (f : Buf (Elt F) (oLoc c)) :
    (oLoc c ↦{fullShare} f : sProp (MT nD τ sig Unit (Elt F) ℕ UU ℕ)) ⊣⊢
      iprop((oLoc c ↦[ownBand c]{fullShare} f) ∗ (bigSep Finset.univ fun k : Fin 8 => oLoc c ↦[xrBand c k]{fullShare} f) ∗
        (bigSep Finset.univ fun k : Fin 8 => oLoc c ↦[yrBand c k]{fullShare} f)) := by
  have e : (oLoc c ↦{fullShare} f : sProp (MT nD τ sig Unit (Elt F) ℕ UU ℕ))
      = (oLoc c ↦[ownBand c ∪ ((Finset.univ.biUnion (xrBand c)) ∪ (Finset.univ.biUnion (yrBand c)))]{fullShare} f) := by
    rw [o_cover]
  have hu : (oLoc c ↦[(Finset.univ.biUnion (xrBand c)) ∪ (Finset.univ.biUnion (yrBand c))]{fullShare} f : sProp (MT nD τ sig Unit (Elt F) ℕ UU ℕ))
      ⊣⊢ iprop((oLoc c ↦[Finset.univ.biUnion (xrBand c)]{fullShare} f) ∗ (oLoc c ↦[Finset.univ.biUnion (yrBand c)]{fullShare} f)) :=
    pointsTo_union (ℓ := oLoc c) (q := fullShare) (f := f) (xr_yr_disjoint c)
  have e2 : (oLoc c ↦[(Finset.univ.biUnion (xrBand c)) ∪ (Finset.univ.biUnion (yrBand c))]{fullShare} f : sProp (MT nD τ sig Unit (Elt F) ℕ UU ℕ))
      = iprop((oLoc c ↦[Finset.univ.biUnion (xrBand c)]{fullShare} f) ∗ (oLoc c ↦[Finset.univ.biUnion (yrBand c)]{fullShare} f)) :=
    BI.equiv_iff.mp ⟨hu.1, hu.2⟩
  have hx : (oLoc c ↦[Finset.univ.biUnion (xrBand c)]{fullShare} f : sProp (MT nD τ sig Unit (Elt F) ℕ UU ℕ))
      = bigSep Finset.univ fun k : Fin 8 => oLoc c ↦[xrBand c k]{fullShare} f :=
    pointsTo_biUnion (ℓ := oLoc c) (q := fullShare) (f := f) Finset.univ (xrBand c) (fun k _ k' _ h => xr_disjoint c h)
  have hy : (oLoc c ↦[Finset.univ.biUnion (yrBand c)]{fullShare} f : sProp (MT nD τ sig Unit (Elt F) ℕ UU ℕ))
      = bigSep Finset.univ fun k : Fin 8 => oLoc c ↦[yrBand c k]{fullShare} f :=
    pointsTo_biUnion (ℓ := oLoc c) (q := fullShare) (f := f) Finset.univ (yrBand c) (fun k _ k' _ h => yr_disjoint c h)
  rw [e]
  refine (pointsTo_union (ℓ := oLoc c) (q := fullShare) (f := f) (own_disjoint c)).trans (BiEntails.of_eq ?_)
  rw [e2, hx, hy]

theorem s_split (c : Dev nD) (q : PosShare TreeShare) (f : Buf (Elt F) (sLoc c)) :
    (sLoc c ↦{q} f : sProp (MT nD τ sig Unit (Elt F) ℕ UU ℕ)) ⊣⊢
      iprop((bigSep Finset.univ fun k : Fin 8 => sLoc c ↦[sendBand c k]{q} f) ∗
        (bigSep Finset.univ fun k : Fin 8 => sLoc c ↦[keepBand c k]{q} f)) := by
  have e : (sLoc c ↦{q} f : sProp (MT nD τ sig Unit (Elt F) ℕ UU ℕ))
      = (sLoc c ↦[(Finset.univ.biUnion (sendBand c)) ∪ (Finset.univ.biUnion (keepBand c))]{q} f) := by
    rw [s_cover]
  have hx : (sLoc c ↦[Finset.univ.biUnion (sendBand c)]{q} f : sProp (MT nD τ sig Unit (Elt F) ℕ UU ℕ))
      = bigSep Finset.univ fun k : Fin 8 => sLoc c ↦[sendBand c k]{q} f :=
    pointsTo_biUnion (ℓ := sLoc c) (q := q) (f := f) Finset.univ (sendBand c) (fun k _ k' _ h => send_disjoint c h)
  have hy : (sLoc c ↦[Finset.univ.biUnion (keepBand c)]{q} f : sProp (MT nD τ sig Unit (Elt F) ℕ UU ℕ))
      = bigSep Finset.univ fun k : Fin 8 => sLoc c ↦[keepBand c k]{q} f :=
    pointsTo_biUnion (ℓ := sLoc c) (q := q) (f := f) Finset.univ (keepBand c) (fun k _ k' _ h => keep_disjoint c h)
  rw [e]
  refine (pointsTo_union (ℓ := sLoc c) (q := q) (f := f) (send_keep_disjoint c)).trans (BiEntails.of_eq ?_)
  rw [hx, hy]

/-! ## Axiom audit -/

/-- info: 'Cert.KernelIdeal.AG.o_split' depends on axioms: [propext, Classical.choice, Quot.sound] -/
#guard_msgs in #print axioms o_split

/-- info: 'Cert.KernelIdeal.AG.s_split' depends on axioms: [propext, Classical.choice, Quot.sound] -/
#guard_msgs in #print axioms s_split

/-- info: 'Cert.KernelIdeal.AG.half_split' depends on axioms: [propext, Classical.choice, Quot.sound] -/
#guard_msgs in #print axioms half_split

/-- info: 'Cert.KernelIdeal.AG.set_off2' depends on axioms: [propext, Classical.choice, Quot.sound] -/
#guard_msgs in #print axioms set_off2

/-- info: 'Cert.KernelIdeal.AG.set_off3' depends on axioms: [propext, Classical.choice, Quot.sound] -/
#guard_msgs in #print axioms set_off3

/-- info: 'Cert.KernelIdeal.AG.set_off4' depends on axioms: [propext, Classical.choice, Quot.sound] -/
#guard_msgs in #print axioms set_off4

/-- info: 'Cert.KernelIdeal.AG.set_off7' depends on axioms: [propext, Classical.choice, Quot.sound] -/
#guard_msgs in #print axioms set_off7

/-- info: 'Cert.KernelIdeal.AG.set_off8' depends on axioms: [propext, Classical.choice, Quot.sound] -/
#guard_msgs in #print axioms set_off8

/-- info: 'Cert.KernelIdeal.AG.set_off9' depends on axioms: [propext, Classical.choice, Quot.sound] -/
#guard_msgs in #print axioms set_off9

/-- info: 'Cert.KernelIdeal.AG.set_off9_y' depends on axioms: [propext, Classical.choice, Quot.sound] -/
#guard_msgs in #print axioms set_off9_y

end Cert.KernelIdeal.AG

end
-- ==== Proof.Values.lean ====
import proofs.«900078_g7700000000000079_dist_ag_v7x_xy2x2_x_m16384_n1024_bf16_1_alg».proof.Proof.Bands
import Idealize.ShloMosaic.Lib.Pipeline.Value
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! What each movement leaves, index by index. A first-axis transfer lands rows of the sender's cast shard on the receiver's
    band; a second-axis transfer lands the same rows of the sender's result on its neighbour; the local copy lands the whole
    cast shard on the device's own band; a chunk read back from the staging slot, cast and stored is the cast shard there. -/

/-- A unit-stride slice of the result array places index `y` at `off + y`, axis by axis. -/
theorem o_emb_val (off size : Fin 2 → ℕ) (inb : ∀ a, off a + size a ≤ S32768x1024.size a) (hs)
    (y : (Rect.unit (s := S32768x1024) off size inb).shape.Idx) (a : Fin 2) :
    (((oM.slice (Rect.unit (s := S32768x1024) off size inb) hs).view.emb y) a).val = off a + (y a).val := by
  show off a + 1 * (y a).val = _
  rw [Nat.one_mul]

/-- The same for the shard scratch. -/
theorem s_emb_val (off size : Fin 2 → ℕ) (inb : ∀ a, off a + size a ≤ S16384x1024.size a) (hs)
    (y : (Rect.unit (s := S16384x1024) off size inb).shape.Idx) (a : Fin 2) :
    (((sM.slice (Rect.unit (s := S16384x1024) off size inb) hs).view.emb y) a).val = off a + (y a).val := by
  show off a + 1 * (y a).val = _
  rw [Nat.one_mul]

/-- On the band `xn c` receives across the first axis, the rows come from `c`. -/
theorem srcDev_xland (c : Dev nD) (r : Fin 8) {i : S32768x1024.Idx} (hi : i ∈ xrBand (xn c) r) :
    srcDev (xn c) (i 0).val = c := by
  have h4 := dev_lt c
  have hx := xn_val c
  have hr := r.isLt
  unfold xrBand at hi
  rw [mem_oRows] at hi
  unfold srcDev
  rw [if_neg (by omega), if_pos (by omega), xn_xn]

/-- On the band `yn c` receives across the second axis, `c` and `yn c` hold the same device's rows. -/
theorem srcDev_yland (c : Dev nD) (r : Fin 8) {i : S32768x1024.Idx} (hi : i ∈ yrBand (yn c) r) :
    srcDev c (i 0).val = srcDev (yn c) (i 0).val := by
  have h4 := dev_lt c
  have hy := yn_val c
  have hr := r.isLt
  unfold yrBand at hi
  rw [yn_yn] at hi
  unfold xrBand at hi
  rw [mem_oRows] at hi
  unfold srcDev
  rw [if_neg (by omega), if_pos (by omega), if_neg (by omega), if_neg (by omega), yn_yn]

/-- Chunk `r` of device `c`'s cast shard, landed on `xn c`'s band: what `xn c`'s result holds there. -/
theorem val_xland (c : Dev nD) (r : Fin 8) (fd : (⟨S32768x1024, .bf16⟩ : BufTy).Contents (Elt F)) (hs1) (hs2) :
    ∀ i ∈ xrBand (xn c) r,
      (oM.slice (Rect.unit (s := S32768x1024) (k0_off4 c (BitVec.ofNat 32 (1024 * r.val))) S1024x1024.size (k0_off4_inb c r)) hs1).view.write (Elt F) fd
        ((sM.slice (Rect.unit (s := S16384x1024) (k0_off2 c (BitVec.ofNat 32 (1024 * r.val))) S1024x1024.size (k0_off2_inb c r)) hs2).view.read (Elt F) (T m c)) Finset.univ i
      = R m (xn c) i := by
  intro i hi
  have hsrc := srcDev_xland c r hi
  have hmem : i ∈ (oM.slice (Rect.unit (s := S32768x1024) (k0_off4 c (BitVec.ofNat 32 (1024 * r.val))) S1024x1024.size (k0_off4_inb c r)) hs1).view.set := by
    rw [set_off4]; exact hi
  obtain ⟨y, rfl⟩ := View.exists_emb_of_mem_set _ hmem
  rw [View.write_emb_of_mem _ _ (Finset.mem_univ y), View.read_apply]
  have d0 := o_emb_val _ _ (k0_off4_inb c r) hs1 y 0
  have d1 := o_emb_val _ _ (k0_off4_inb c r) hs1 y 1
  have s0 := s_emb_val _ _ (k0_off2_inb c r) hs2 y 0
  have s1 := s_emb_val _ _ (k0_off2_inb c r) hs2 y 1
  rw [congrFun (k0_off4_eq c r) 0] at d0
  rw [congrFun (k0_off4_eq c r) 1] at d1
  rw [congrFun (k0_off2_eq c r) 0] at s0
  rw [congrFun (k0_off2_eq c r) 1] at s1
  have h4 := dev_lt c
  have hr := r.isLt
  have hy0 : (y 0).val < 1024 := (y 0).isLt
  show T m c _ = R m (xn c) _
  unfold R
  rw [hsrc]
  refine congrArg (T m c) (funext fun a => ?_)
  match a with
  | ⟨0, _⟩ =>
    refine Fin.ext ?_
    show _ = _ % 16384
    change ((sM.slice _ hs2).view.emb y 0).val = ((oM.slice _ hs1).view.emb y 0).val % 16384
    rw [s0, d0]
    show 8192 * (c.val % 2) + 1024 * r.val + (y 0).val = (16384 * (c.val / 2) + 8192 * (c.val % 2) + 1024 * r.val + (y 0).val) % 16384
    omega
  | ⟨1, _⟩ =>
    refine Fin.ext ?_
    change ((sM.slice _ hs2).view.emb y 1).val = ((oM.slice _ hs1).view.emb y 1).val
    rw [s1, d1]
    rfl

/-- The band `c` received across the first axis, landed on `yn c` at the same rows: what `yn c`'s result holds there. -/
theorem val_yland (c : Dev nD) (r : Fin 8) (fd : (⟨S32768x1024, .bf16⟩ : BufTy).Contents (Elt F)) (hs1) (hs2) :
    ∀ i ∈ yrBand (yn c) r,
      (oM.slice (Rect.unit (s := S32768x1024) (k0_off9 c (BitVec.ofNat 32 (1024 * r.val))) S1024x1024.size (k0_off9_inb c r)) hs1).view.write (Elt F) fd
        ((oM.slice (Rect.unit (s := S32768x1024) (k0_off9 c (BitVec.ofNat 32 (1024 * r.val))) S1024x1024.size (k0_off9_inb c r)) hs2).view.read (Elt F) (R m c)) Finset.univ i
      = R m (yn c) i := by
  intro i hi
  have hR : R m c i = R m (yn c) i := by
    unfold R
    rw [srcDev_yland c r hi]
  have hmem : i ∈ (oM.slice (Rect.unit (s := S32768x1024) (k0_off9 c (BitVec.ofNat 32 (1024 * r.val))) S1024x1024.size (k0_off9_inb c r)) hs1).view.set := by
    rw [set_off9_y]; exact hi
  obtain ⟨y, rfl⟩ := View.exists_emb_of_mem_set _ hmem
  rw [View.write_emb_of_mem _ _ (Finset.mem_univ y), View.read_apply]
  exact hR

/-- info: 'Cert.KernelIdeal.AG.val_xland' depends on axioms: [propext, Classical.choice, Quot.sound] -/
#guard_msgs in #print axioms val_xland

/-- info: 'Cert.KernelIdeal.AG.val_yland' depends on axioms: [propext, Classical.choice, Quot.sound] -/
#guard_msgs in #print axioms val_yland

end Cert.KernelIdeal.AG

end
-- ==== Proof.Values2.lean ====
import proofs.«900078_g7700000000000079_dist_ag_v7x_xy2x2_x_m16384_n1024_bf16_1_alg».proof.Proof.Sched
import Idealize.ShloMosaic.Lib.Tactic
import Idealize.ShloMosaic.Lib.Pipeline.Value
import Idealize.ShloMosaic.Lib.ValueLayout
import Idealize.ShloMosaic.Lib.Writes

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! What each movement leaves, index by index. A first-axis transfer lands rows of the sender's cast shard on the receiver's
    band; a second-axis transfer lands the same rows of the sender's result on its neighbour; the local copy lands the whole
    cast shard on the device's own band; a chunk read back from the staging slot, cast and stored is the cast shard there. -/

/-- The whole cast shard, copied onto the device's own band. -/
theorem val_own (c : Dev nD) (fd : (⟨S32768x1024, .bf16⟩ : BufTy).Contents (Elt F)) (hs1) :
    ∀ i ∈ ownBand c,
      (oM.slice (Rect.unit (s := S32768x1024) (k0_off8 c) S16384x1024.size (k0_off8_inb c)) hs1).view.write (Elt F) fd
        (sM.view.read (Elt F) (T m c)) Finset.univ i
      = R m c i := by
  intro i hi
  have hoff0 : k0_off8 c 0 = 16384 * (c.val / 2) := by rw [k0_off8_eq]; rfl
  have hoff1 : k0_off8 c 1 = 0 := by rw [k0_off8_eq]; rfl
  have hset : i ∈ (oM.slice (Rect.unit (s := S32768x1024) (k0_off8 c) S16384x1024.size (k0_off8_inb c)) hs1).view.set := by
    rw [set_slice_o _ _ _ hoff1 rfl, hoff0]; exact hi
  obtain ⟨y, rfl⟩ := View.exists_emb_of_mem_set _ hset
  rw [View.write_emb_of_mem _ _ (Finset.mem_univ y)]
  -- the element under `y`: row `16384 (c / 2) + y 0`, column `y 1`
  have e0 : (((oM.slice (Rect.unit (s := S32768x1024) (k0_off8 c) S16384x1024.size (k0_off8_inb c)) hs1).view.emb y) 0).val
      = 16384 * (c.val / 2) + (y 0).val := by
    show k0_off8 c 0 + 1 * (y 0).val = _; rw [hoff0, Nat.one_mul]
  have e1 : (((oM.slice (Rect.unit (s := S32768x1024) (k0_off8 c) S16384x1024.size (k0_off8_inb c)) hs1).view.emb y) 1).val = (y 1).val := by
    show k0_off8 c 1 + 1 * (y 1).val = _; rw [hoff1, Nat.one_mul, Nat.zero_add]
  have hy0 : (y 0).val < 16384 := (y 0).isLt
  show T m c y = R m c _
  unfold R
  have hsrc : srcDev c (((oM.slice (Rect.unit (s := S32768x1024) (k0_off8 c) S16384x1024.size (k0_off8_inb c)) hs1).view.emb y) 0).val = c := by
    unfold srcDev; rw [e0, if_pos (by omega)]
  rw [hsrc]
  refine congrArg (T m c) (funext fun a => ?_)
  match a with
  | ⟨0, _⟩ => exact Fin.ext (by show (y 0).val = _ % 16384; rw [e0]; omega)
  | ⟨1, _⟩ => exact Fin.ext e1.symm

/-- The staging slots. -/
abbrev slotR (j : Fin 2) : Rect S2x1024x1024 := Rect.unit (s := S2x1024x1024) ![j.val, 0, 0] S1x1024x1024.size (by revert j; decide)

/-- A chunk of the shard at rows `a …`, landed in staging slot `j`, read back whole, cast, and stored on rows `a …` of the
    scratch: the cast shard on those rows. `pay` is the body's cast (a shape cast, the truncation, a shape cast). -/
theorem val_store (c : Dev nD) (j : Fin 2) (off : Fin 2 → ℕ) (inbx : ∀ a, off a + S1024x1024.size a ≤ S16384x1024.size a) (h1 : off 1 = 0)
    (ff : (⟨S2x1024x1024, .f32⟩ : BufTy).Contents (Elt F)) (f : (⟨S16384x1024, .bf16⟩ : BufTy).Contents (Elt F))
    (pay : Vec F S1x1024x1024 .f32 → FVec F S1024x1024 .bf16)
    (hpay : ∀ v, pay v = shapeCast S1024x1024 (truncf .bf16 (shapeCast S1024x1024 v shapeCasts_S1x1024x1024_S1024x1024) bitsLt_bf16_f32) shapeCasts_S1024x1024_S1024x1024)
    (hs1) (hs2) (hsq) :
    ∀ i ∈ sRows (off 0) 1024,
      (sM.access (Rect.unit (s := S16384x1024) off S1024x1024.size inbx)).write (Elt F) f
        (pay (fM.view.readAt (Elt F) (slotR j).toLoadRect
          ((((fM.slice (slotR j) hs1).squeeze S1024x1024 hsq).view.write (Elt F) ff
            ((xM.slice (Rect.unit (s := S16384x1024) off S1024x1024.size inbx) hs2).view.read (Elt F) (X m c)) Finset.univ))))
        Finset.univ i
      = T m c i := by
  intro i hi
  have hset : i ∈ (sM.access (Rect.unit (s := S16384x1024) off S1024x1024.size inbx)).set := by
    have hb := set_slice_s off S1024x1024.size inbx h1 rfl (fun _ => rfl)
    rw [show (sM.access (Rect.unit (s := S16384x1024) off S1024x1024.size inbx)).set = _ from hb]
    exact hi
  obtain ⟨z, rfl⟩ := View.exists_emb_of_mem_set _ hset
  rw [View.write_emb_of_mem _ _ (Finset.mem_univ z), hpay, shapeCast_self]
  obtain ⟨a, b, rfl⟩ : ∃ a b, z = ValueIdx.ix2 a b := ⟨z 0, z 1, ValueIdx.eq_ix2 z⟩
  -- what the whole-slot load reads at `(0, a, b)`: the shard at row `off 0 + a`, column `b`
  have hload : (fM.view.readAt (Elt F) (slotR j).toLoadRect
          ((((fM.slice (slotR j) hs1).squeeze S1024x1024 hsq).view.write (Elt F) ff
            ((xM.slice (Rect.unit (s := S16384x1024) off S1024x1024.size inbx) hs2).view.read (Elt F) (X m c)) Finset.univ))) (ValueIdx.ix3 (0 : Fin 1) a b)
        = X m c ((Rect.unit (s := S16384x1024) off S1024x1024.size inbx).emb (ValueIdx.ix2 a b)) := by
    rw [View.readAt_apply]
    show View.read (Elt F) fM.view
      (View.write (Elt F) ((fM.view.slice (slotR j)).reshape S1024x1024 hsq.numel_eq) ff
        (View.read (Elt F) (xM.slice (Rect.unit (s := S16384x1024) off S1024x1024.size inbx) hs2).view (X m c)) Finset.univ)
      ((slotR j).emb (ValueIdx.ix3 (0 : Fin 1) a b)) = _
    rw [View.write_reshape_univ, View.read_slice_write_emb _ _ _ (Finset.mem_univ _)]
    have hidx : (Shape.reshapeEquiv hsq.numel_eq).symm (ValueIdx.ix3 (0 : Fin 1) a b) = ValueIdx.ix2 a b := by
      rw [Equiv.symm_apply_eq]
      exact (Shape.reshapeEquiv_eq_of_rowMajor _ (by
        rw [Shape.rowMajor_val_three, Shape.rowMajor_val_two]
        show (0 * 1024 + a.val) * 1024 + b.val = a.val * 1024 + b.val
        rw [Nat.zero_mul, Nat.zero_add])).symm
    rw [hidx]
    rfl
  show FloatOps.truncf .bf16 bitsLt_bf16_f32 (shapeCast S1024x1024 _ shapeCasts_S1x1024x1024_S1024x1024 (ValueIdx.ix2 a b)) = T m c _
  rw [ValueIdx.shapeCast_1ab_ab_apply, hload]
  rfl

/-- info: 'Cert.KernelIdeal.AG.val_own' depends on axioms: [propext, Classical.choice, Quot.sound] -/
#guard_msgs in #print axioms val_own

/-- info: 'Cert.KernelIdeal.AG.val_store' depends on axioms: [propext, Classical.choice, Quot.sound] -/
#guard_msgs in #print axioms val_store

end Cert.KernelIdeal.AG

end
-- ==== Proof.Steps.lean ====
import proofs.«900078_g7700000000000079_dist_ag_v7x_xy2x2_x_m16384_n1024_bf16_1_alg».proof.Proof.Body1
import proofs.«900078_g7700000000000079_dist_ag_v7x_xy2x2_x_m16384_n1024_bf16_1_alg».proof.Proof.Bands
import proofs.«900078_g7700000000000079_dist_ag_v7x_xy2x2_x_m16384_n1024_bf16_1_alg».proof.Proof.Values
import proofs.«900078_g7700000000000079_dist_ag_v7x_xy2x2_x_m16384_n1024_bf16_1_alg».proof.Proof.Values2
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The two remote transfers of a chunk, each as one rule over the protocol's resources. -/

/-- The scratch chunk a first-axis transfer reads, the band of the neighbour's result it writes. -/
abbrev xsrc (c : Dev nD) (r : Fin 8) : Memref sig .tc .vmem S1024x1024 .bf16 :=
  sM.slice (Rect.unit (s := S16384x1024) (k0_off2 c (BitVec.ofNat 32 (1024 * r.val))) S1024x1024.size (k0_off2_inb c r)) (fun _ => rfl)
abbrev xdst (c : Dev nD) (r : Fin 8) : Memref sig .tc .hbm S1024x1024 .bf16 :=
  oM.slice (Rect.unit (s := S32768x1024) (k0_off4 c (BitVec.ofNat 32 (1024 * r.val))) S1024x1024.size (k0_off4_inb c r)) (fun _ => rfl)
/-- The band a second-axis transfer reads on the device and writes on its neighbour: the same rows. -/
abbrev ybuf (c : Dev nD) (r : Fin 8) : Memref sig .tc .hbm S1024x1024 .bf16 :=
  oM.slice (Rect.unit (s := S32768x1024) (k0_off9 c (BitVec.ofNat 32 (1024 * r.val))) S1024x1024.size (k0_off9_inb c r)) (fun _ => rfl)

set_option maxHeartbeats 1600000 in
/-- The first-axis transfer of chunk `r`: device `c` lends the left half of that chunk of its cast scratch and gives the band
    of `xn c`'s result it holds; `xn c`'s receive cell will hand that band over landed, `c`'s send cell the half back. -/
theorem wp_xsend (K : Dev nD × CK → ℕ) (c n : Dev nD) (hn : n = xn c) (r : Fin 8)
    {hsc : (xdst c r : Memref sig (Dev.tc n : Thread nD τ).2.kind .hbm S1024x1024 .bf16).view.ref.isScScratch = false}
    {hsrc hdst hsem}
    {α : Type} {Q : α → sProp (MT nD τ sig Unit (Elt F) ℕ UU ℕ)} {k : PUnit → Prog (TpuEff nD τ sig (Elt F) Λ₀ .tc) α}
    (fd : Buf (Elt F) (oLoc (xn c))) (O : CellTallies nD τ sig Unit) (W : Waits sig Unit) :
    iprop(records m K ∗ (sLoc c ↦[sendBand c r]{hL} T m c) ∗ (oLoc (xn c) ↦[xrBand (xn c) r]{fullShare} fd)
        ∗ owes (c : Thread nD τ) (O + tallyAt (xrCell (xn c) r) () N) W
        ∗ dutyTok ER (xsCell c r) 0 false ∗ dutyTok ER (xrCell (xn c) r) 0 false)
      ⊢ iprop(((cred (tallyAt (xsCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsrc c r) (.remote (Dev.tc n : Thread nD τ) (xdst c r) (.dma (xsS r)) hsc) (.dma (xrS r)) hsrc hdst hsem) k) Q) := by
  subst hn
  iintro ⟨#HR, Hs, Hd, HO, Ht1, Ht2⟩
  iapply (Rounds.wp_send_pointsTo 𝒱₀ ER (sched m) (c : Thread nD τ) none (c' := (xn c : Thread nD τ))
    (src := xsrc c r) (dst := xdst c r) (sS := .dma (xsS r)) (sem := .dma (xrS r))
    (κ₁ := K (c, some (0, r))) (κ₂ := K (xn c, some (1, r)))
    (r₁ := 0) (r₂ := 0) (d₁ := false) (d₂ := false) (fd := fd) (fs := T m c) (q := hL)
    (by rw [duties_xs]; exact Finset.mem_singleton_self _) (by rw [duties_xr]; exact Finset.mem_singleton_self _)
    () () N rfl rfl rfl O rfl (W := W)
    (by rw [payload_xs, set_off2]; try exact BI.Entails.refl _)
    (by rw [payload_xr, set_off4]; unfold xrPay; rw [pointsTo_congr (val_xland m c r fd (fun _ => rfl) (fun _ => rfl))]; try exact BI.Entails.refl _))
  isplitr; · iapply (inv_at m K (c, some (0, r))); iexact HR
  isplitr; · iapply (inv_at m K (xn c, some (1, r))); iexact HR
  isplitl [Hs]; · rw [set_off2]; iexact Hs
  isplitl [Hd]; · rw [set_off4]; iexact Hd
  isplitl [HO]; · iexact HO
  isplitl [Ht1]; · iexact Ht1
  isplitr; · iapply (reached_at m K (c, some (0, r))); iexact HR
  isplitl [Ht2]; · iexact Ht2
  iapply (reached_at m K (xn c, some (1, r))); iexact HR

end Cert.KernelIdeal.AG

end
-- ==== Proof.Phase1.lean ====
import proofs.«900078_g7700000000000079_dist_ag_v7x_xy2x2_x_m16384_n1024_bf16_1_alg».proof.Proof.Steps
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! Casting the half of the shard that is sent: per chunk, a local copy of 1024 rows into one of two staging slots, the slot read
    back whole, cast, and stored on the same rows of the scratch; the copy of the next chunk is started before the wait for
    this one, the two slots alternating. The shard is held as two half shares, one lent to the copies into each slot. -/

/-- The counters' embedding (the local copies' flights draw their tokens from it). -/
abbrev EC : UEmb Counters (MT nD τ sig Unit (Elt F) ℕ UU ℕ) := countersEmb

/-- The staging slots as the copies address them. -/
abbrev slot0M : Memref sig .tc .vmem S1024x1024 .f32 :=
  (fM.slice (Rect.unit (s := S2x1024x1024) ![0, 0, 0] S1x1024x1024.size inb_S2x1024x1024_S1x1024x1024_0_0_0) (fun _ => rfl)).squeeze S1024x1024 squeezes_S1x1024x1024_S1024x1024
abbrev slot1M : Memref sig .tc .vmem S1024x1024 .f32 :=
  (fM.slice (Rect.unit (s := S2x1024x1024) ![1, 0, 0] S1x1024x1024.size inb_S2x1024x1024_S1x1024x1024_1_0_0) (fun _ => rfl)).squeeze S1024x1024 squeezes_S1x1024x1024_S1024x1024

/-- Their elements. -/
def slotSet0 : Finset S2x1024x1024.Idx := (Rect.unit (s := S2x1024x1024) ![0, 0, 0] S1x1024x1024.size inb_S2x1024x1024_S1x1024x1024_0_0_0).set
def slotSet1 : Finset S2x1024x1024.Idx := (Rect.unit (s := S2x1024x1024) ![1, 0, 0] S1x1024x1024.size inb_S2x1024x1024_S1x1024x1024_1_0_0).set

theorem set_slot0 : (slot0M.view.set : Finset S2x1024x1024.Idx) = slotSet0 := by
  simp only [Memref.view_squeeze, Memref.view_slice, Memref.view_whole, View.set_reshape, View.set_slice_whole]; rfl
theorem set_slot1 : (slot1M.view.set : Finset S2x1024x1024.Idx) = slotSet1 := by
  simp only [Memref.view_squeeze, Memref.view_slice, Memref.view_whole, View.set_reshape, View.set_slice_whole]; rfl

/-- Through a whole buffer's view an element set is itself. -/
theorem setOn_f (M : Finset S2x1024x1024.Idx) : (fM.view.setOn M : Finset S2x1024x1024.Idx) = M := by
  show M.map (View.whole cc0_scratch1 : View sig .tc _ _ _).emb = M
  rw [View.emb_whole]; exact Finset.map_refl
theorem setOn_s (M : Finset S16384x1024.Idx) : (sM.view.setOn M : Finset S16384x1024.Idx) = M := by
  show M.map (View.whole cc0_scratch0 : View sig .tc _ _ _).emb = M
  rw [View.emb_whole]; exact Finset.map_refl
/-- A full-width rectangle of 1024 rows of the scratch is that band of rows. -/
theorem rect_set_s (off : Fin 2 → ℕ) (inb : ∀ a, off a + S1024x1024.size a ≤ S16384x1024.size a) (h1 : off 1 = 0) :
    ((Rect.unit (s := S16384x1024) off S1024x1024.size inb).set : Finset S16384x1024.Idx) = sRows (off 0) 1024 := by
  have h := set_slice_s off S1024x1024.size inb h1 rfl (fun _ => rfl)
  simp only [Memref.view_slice, Memref.view_whole, View.set_slice_whole] at h
  exact h

/-- The chunk of the shard a copy reads: 1024 full rows at offset `off`. -/
abbrev xsl (off : Fin 2 → ℕ) (inbx : ∀ a, off a + S1024x1024.size a ≤ S16384x1024.size a) : Memref sig .tc .hbm S1024x1024 .f32 :=
  xM.slice (Rect.unit (s := S16384x1024) off S1024x1024.size inbx) (fun _ => rfl)

/-- The credit of one such copy. -/
abbrev Nf : ℕ := (slot0M : Memref sig .tc .vmem S1024x1024 .f32).view.dmaCredit

/-- A copy of the chunk at `off` into slot 0 in flight: at the wait it delivers the slot rewritten and the lent share back. -/
def flight0 (c : Dev nD) (off : Fin 2 → ℕ) (inbx : ∀ a, off a + S1024x1024.size a ≤ S16384x1024.size a) (q : PosShare TreeShare) (fd : Buf (Elt F) (slot0M.view.loc (c : Thread nD τ))) : sProp (MT nD τ sig Unit (Elt F) ℕ UU ℕ) :=
  Flight EC (c : Thread nD τ) (.dma 0) () Nf
    iprop((slot0M.view.loc (c : Thread nD τ) ↦[slotSet0]{fullShare} (slot0M.view.write (Elt F) fd ((xsl off inbx).view.read (Elt F) (m (xLoc c))) Finset.univ))
      ∗ ((xsl off inbx).view.loc (c : Thread nD τ) ↦[(xsl off inbx).view.set]{q} m (xLoc c)))
def flight1 (c : Dev nD) (off : Fin 2 → ℕ) (inbx : ∀ a, off a + S1024x1024.size a ≤ S16384x1024.size a) (q : PosShare TreeShare) (fd : Buf (Elt F) (slot1M.view.loc (c : Thread nD τ))) : sProp (MT nD τ sig Unit (Elt F) ℕ UU ℕ) :=
  Flight EC (c : Thread nD τ) (.dma 1) () Nf
    iprop((slot1M.view.loc (c : Thread nD τ) ↦[slotSet1]{fullShare} (slot1M.view.write (Elt F) fd ((xsl off inbx).view.read (Elt F) (m (xLoc c))) Finset.univ))
      ∗ ((xsl off inbx).view.loc (c : Thread nD τ) ↦[(xsl off inbx).view.set]{q} m (xLoc c)))

/-- Starting a copy of the chunk at `off` into slot 0: the chunk is carved out of the held share of the shard and lent. -/
theorem start0 (c : Dev nD) (off : Fin 2 → ℕ) (inbx : ∀ a, off a + S1024x1024.size a ≤ S16384x1024.size a) (q : PosShare TreeShare) (fd : Buf (Elt F) (slot0M.view.loc (c : Thread nD τ)))
    {hsrc hdst hsem} {α : Type} {Q : α → sProp (MT nD τ sig Unit (Elt F) ℕ UU ℕ)} {k : PUnit → Prog (TpuEff nD τ sig (Elt F) Λ₀ .tc) α} :
    iprop((xLoc c ↦{q} m (xLoc c)) ∗ (slot0M.view.loc (c : Thread nD τ) ↦[slotSet0]{fullShare} fd) ∗ semVal ((c : Thread nD τ), .dma 0) 0)
      ⊢ iprop(((flight0 m c off inbx q fd ∗ (xLoc c ↦[Finset.univ \ (xsl off inbx).view.set]{q} m (xLoc c)))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsl off inbx) (.here slot0M) (.dma (0 : DmaSem sig)) hsrc hdst hsem) k) Q) := by
  iintro ⟨Hx, Hf, Hv⟩ Hk
  ihave Hx' := (pointsTo_split_subset (ℓ := xLoc c) (q := q) (f := m (xLoc c)) (Finset.subset_univ (xsl off inbx).view.set)).1 $$ Hx
  icases Hx' with ⟨Hx1, Hx2⟩
  iapply (wp_dmaLocal EC 𝒱₀ (c : Thread nD τ) none (src := xsl off inbx) (dst := slot0M) (sm := .dma 0) (q := q) (fs := m (xLoc c))
    (Sd := slotSet0) (fd := fd) () Nf rfl (View.dmaCredit_pos _ (by decide)) (by rw [set_slot0])) $$ [Hx1 Hf Hv]
  · isplitl [Hx1]; · iexact Hx1
    isplitl [Hf]; · iexact Hf
    iexact Hv
  iintro HF
  iapply Hk
  isplitl [HF]; · unfold flight0; iexact HF
  iexact Hx2

/-- Waiting for it, whatever the device still owes (given the evidence that it may wait): the slot rewritten, the lent chunk
    rejoined with the rest of that share of the shard, the semaphore at zero again. -/
theorem wait0 (c : Dev nD) (off : Fin 2 → ℕ) (inbx : ∀ a, off a + S1024x1024.size a ≤ S16384x1024.size a) (q : PosShare TreeShare) (fd : Buf (Elt F) (slot0M.view.loc (c : Thread nD τ)))
    (O : CellTallies nD τ sig Unit) (W : Waits sig Unit)
    {s' : Shape} {e' : EltTy} {srcw : Memref sig .tc .hbm s' e'} {dstw : Memref sig .tc .vmem S1024x1024 .f32} {hsrc hdst} (hN : dstw.view.dmaCredit = Nf)
    {α : Type} {Q : α → sProp (MT nD τ sig Unit (Elt F) ℕ UU ℕ)} {k : PUnit → Prog (TpuEff nD τ sig (Elt F) Λ₀ .tc) α} :
    iprop(flight0 m c off inbx q fd ∗ (xLoc c ↦[Finset.univ \ (xsl off inbx).view.set]{q} m (xLoc c)) ∗ owes (c : Thread nD τ) O W ∗ MayWait (c : Thread nD τ) (.dma 0) () O)
      ⊢ iprop((((slot0M.view.loc (c : Thread nD τ) ↦[slotSet0]{fullShare} (slot0M.view.write (Elt F) fd ((xsl off inbx).view.read (Elt F) (m (xLoc c))) Finset.univ))
                ∗ (xLoc c ↦{q} m (xLoc c)) ∗ semVal ((c : Thread nD τ), .dma 0) 0 ∗ ∃ W', owes (c : Thread nD τ) O W')
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (0 : DmaSem sig) srcw dstw hsrc hdst) k) Q) := by
  iintro ⟨HF, Hx2, HO, Hmw⟩ Hk
  unfold flight0
  iapply (wp_waitLocalO EC 𝒱₀ (c : Thread nD τ) none () hN (O := O) (W := W)) $$ [HF HO Hmw]
  · isplitl [HF]; · iexact HF
    isplitl [HO]; · iexact HO
    iexact Hmw
  iintro ⟨⟨Hf, Hx1⟩, Hv, HO⟩
  iapply Hk
  isplitl [Hf]; · iexact Hf
  isplitl [Hx1 Hx2]
  · iapply (pointsTo_split_subset (ℓ := xLoc c) (q := q) (f := m (xLoc c)) (Finset.subset_univ (xsl off inbx).view.set)).2
    isplitl [Hx1]; · iexact Hx1
    iexact Hx2
  isplitl [Hv]; · iexact Hv
  iexists _; iexact HO

set_option maxHeartbeats 1600000 in
set_option maxRecDepth 8000 in
/-- The chunk landed in slot 0, read back whole, cast and stored on the same rows of the scratch (after a read of those rows whose
    value is not used): those rows of the scratch hold the cast shard. `off'` is the store's offset, equal to the copy's. -/
theorem caststore0 (c : Dev nD) (off off' : Fin 2 → ℕ) (inbx : ∀ a, off a + S1024x1024.size a ≤ S16384x1024.size a) (inbs : ∀ a, off' a + S1024x1024.size a ≤ S16384x1024.size a) (he : off' = off) (h1 : off 1 = 0)
    (fd : Buf (Elt F) (slot0M.view.loc (c : Thread nD τ))) (f : Buf (Elt F) (sLoc c))
    (pay : Vec F S1x1024x1024 .f32 → FVec F S1024x1024 .bf16)
    (hpay : ∀ v, pay v = shapeCast S1024x1024 (truncf .bf16 (shapeCast S1024x1024 v shapeCasts_S1x1024x1024_S1024x1024) bitsLt_bf16_f32) shapeCasts_S1024x1024_S1024x1024)
    {hl0 hl1 hx hm} {α : Type} {Q : α → sProp (MT nD τ sig Unit (Elt F) ℕ UU ℕ)} {k : PUnit → Prog (TpuEff nD τ sig (Elt F) Λ₀ .tc) α} :
    iprop((slot0M.view.loc (c : Thread nD τ) ↦[slotSet0]{fullShare} (slot0M.view.write (Elt F) fd ((xsl off inbx).view.read (Elt F) (m (xLoc c))) Finset.univ))
        ∗ (sLoc c ↦[sRows (off 0) 1024]{fullShare} f))
      ⊢ iprop((((∃ g, slot0M.view.loc (c : Thread nD τ) ↦[slotSet0]{fullShare} g) ∗ (sLoc c ↦[sRows (off 0) 1024]{fullShare} T m c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load fM (Rect.unit (s := S2x1024x1024) ![0, 0, 0] S1x1024x1024.size inb_S2x1024x1024_S1x1024x1024_0_0_0).toLoadRect hl0) fun v =>
                .op (.load sM (Rect.unit (s := S16384x1024) off' S1024x1024.size inbs).toLoadRect hl1) fun _ =>
                .op (.store sM (Rect.unit (s := S16384x1024) off' S1024x1024.size inbs) (pay v) Finset.univ hx hm) k) Q) := by
  subst he
  iintro ⟨Hf, Hs⟩ Hk
  iapply (wp_load 𝒱₀ (c : Thread nD τ) none Set.univ (m := fM) (S := slotSet0) (by rw [setOn_f]; exact Finset.Subset.refl _)) $$ Hf; iintro Hf
  iapply (wp_load 𝒱₀ (c : Thread nD τ) none Set.univ (m := sM) (S := sRows (off' 0) 1024)
    (by rw [setOn_s, rect_set_s off' inbs h1])) $$ Hs; iintro Hs
  iapply (wp_store 𝒱₀ (c : Thread nD τ) none Set.univ (m := sM) (r := Rect.unit (s := S16384x1024) off' S1024x1024.size inbs) (Mk := Finset.univ) (S := sRows (off' 0) 1024)
    (by rw [View.setOn_univ, View.set_slice_whole, rect_set_s off' inbs h1])) $$ Hs; iintro Hs
  iapply Hk
  isplitl [Hf]; · iexists _; iexact Hf
  have hval : ∀ i ∈ sRows (off' 0) 1024,
      (sM.access (Rect.unit (s := S16384x1024) off' S1024x1024.size inbs)).write (Elt F) f
        (pay (fM.view.readAt (Elt F) (Rect.unit (s := S2x1024x1024) ![0, 0, 0] S1x1024x1024.size inb_S2x1024x1024_S1x1024x1024_0_0_0).toLoadRect
          (slot0M.view.write (Elt F) fd ((xsl off' inbx).view.read (Elt F) (m (xLoc c))) Finset.univ))) Finset.univ i = T m c i :=
    val_store m c 0 off' inbx h1 fd f pay hpay (fun _ => rfl) (fun _ => rfl) squeezes_S1x1024x1024_S1024x1024
  ihave Hs' := (Entails.of_eq (pointsTo_congr (ℓ := sLoc c) (I := sRows (off' 0) 1024) (q := fullShare) hval)) $$ Hs
  iexact Hs'

end Cert.KernelIdeal.AG

end
-- ==== Proof.Stages.lean ====
import proofs.«900078_g7700000000000079_dist_ag_v7x_xy2x2_x_m16384_n1024_bf16_1_alg».proof.Proof.Phase1b
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! The body in four stretches, and what the device holds between them (beside the persistent records and levels). Each definition
    lists only what its stretch touches. -/

theorem bigSep_fin8 (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Eight things, one per chunk. -/
abbrev conj8 (Φ : Fin 8 → sProp (MT nD τ sig Unit (Elt F) ℕ UU ℕ)) : sProp (MT nD τ sig Unit (Elt F) ℕ UU ℕ) :=
  iprop(Φ 0 ∗ Φ 1 ∗ Φ 2 ∗ Φ 3 ∗ Φ 4 ∗ Φ 5 ∗ Φ 6 ∗ Φ 7)
theorem bigSep_conj8 (Φ : Fin 8 → sProp (MT nD τ sig Unit (Elt F) ℕ UU ℕ)) : bigSep Finset.univ Φ = conj8 Φ := bigSep_fin8 Φ

/-- The device's own band of its result, as the local copy addresses it. -/
abbrev ownM (c : Dev nD) : Memref sig .tc .hbm S16384x1024 .bf16 :=
  oM.slice (Rect.unit (s := S32768x1024) (k0_off8 c) S16384x1024.size (k0_off8_inb c)) (fun _ => rfl)
abbrev Ns (c : Dev nD) : ℕ := (ownM c).view.dmaCredit

/-- The local copy of the whole scratch onto the own band, in flight. -/
def storeFlight (c : Dev nD) : sProp (MT nD τ sig Unit (Elt F) ℕ UU ℕ) :=
  iprop(∃ fd : Buf (Elt F) (oLoc c), Flight EC (c : Thread nD τ) (.dma 2) () (Ns c)
    iprop((oLoc c ↦[ownBand c]{fullShare} ((ownM c).view.write (Elt F) fd (sM.view.read (Elt F) (T m c)) Finset.univ)) ∗ (sLoc c ↦{hR} T m c)))

/-! ### Stretch A: the sent half is cast chunk by chunk and each chunk sent across the first axis (parts 2–9) -/
def preA (c : Dev nD) (W : Waits sig Unit) : sProp (MT nD τ sig Unit (Elt F) ℕ UU ℕ) :=
  iprop(conj8 (fun k => iprop(∃ f, oLoc (xn c) ↦[xrBand (xn c) k]{fullShare} f))
    ∗ (conj8 fun k => iprop(dutyTok ER (xsCell c k) 0 false ∗ dutyTok ER (xrCell (xn c) k) 0 false))
    ∗ owes (c : Thread nD τ) (owedL (xOwes c ++ yOwes c)) W
    ∗ (xLoc c ↦{fullShare} m (xLoc c)) ∗ (∃ f, fLoc c ↦{fullShare} f)
    ∗ semVal ((c : Thread nD τ), .dma 0) 0 ∗ semVal ((c : Thread nD τ), .dma 1) 0
    ∗ conj8 fun k => iprop(∃ f, sLoc c ↦[sendBand c k]{fullShare} f))
def postA (c : Dev nD) : sProp (MT nD τ sig Unit (Elt F) ℕ UU ℕ) :=
  iprop((conj8 fun k => cred (tallyAt (xsCell c k) () N))
    ∗ (conj8 fun k => sLoc c ↦[sendBand c k]{hR} T m c)
    ∗ (∃ W, owes (c : Thread nD τ) (owedL (yOwes c)) W)
    ∗ (xLoc c ↦{fullShare} m (xLoc c)) ∗ (∃ f, fLoc c ↦{fullShare} f)
    ∗ semVal ((c : Thread nD τ), .dma 0) 0 ∗ semVal ((c : Thread nD τ), .dma 1) 0)

/-! ### Stretch B: the kept half is cast, and the whole scratch starts its copy onto the own band (parts 10–14) -/
def preB (c : Dev nD) (W : Waits sig Unit) : sProp (MT nD τ sig Unit (Elt F) ℕ UU ℕ) :=
  iprop(owes (c : Thread nD τ) (owedL (yOwes c)) W
    ∗ (xLoc c ↦{fullShare} m (xLoc c)) ∗ (∃ f, fLoc c ↦{fullShare} f)
    ∗ semVal ((c : Thread nD τ), .dma 0) 0 ∗ semVal ((c : Thread nD τ), .dma 1) 0 ∗ semVal ((c : Thread nD τ), .dma 2) 0
    ∗ (conj8 fun k => iprop(∃ f, sLoc c ↦[keepBand c k]{fullShare} f))
    ∗ (conj8 fun k => sLoc c ↦[sendBand c k]{hR} T m c)
    ∗ (∃ f, oLoc c ↦[ownBand c]{fullShare} f))
def postB (c : Dev nD) : sProp (MT nD τ sig Unit (Elt F) ℕ UU ℕ) :=
  iprop((∃ W, owes (c : Thread nD τ) (owedL (yOwes c)) W)
    ∗ (xLoc c ↦{fullShare} m (xLoc c)) ∗ (∃ f, fLoc c ↦{fullShare} f)
    ∗ semVal ((c : Thread nD τ), .dma 0) 0 ∗ semVal ((c : Thread nD τ), .dma 1) 0
    ∗ (conj8 fun k => sLoc c ↦[keepBand c k]{hL} T m c)
    ∗ storeFlight m c)

/-! ### Stretch C: each chunk received across the first axis is forwarded across the second (parts 15–19: all eight receives are
    waited, chunks 0–6 forwarded; chunk 7's forward is the first statement of part 20) -/
def preC (c : Dev nD) (W : Waits sig Unit) : sProp (MT nD τ sig Unit (Elt F) ℕ UU ℕ) :=
  iprop(conj8 (fun k => iprop(∃ f, oLoc (yn c) ↦[yrBand (yn c) k]{fullShare} f))
    ∗ conj8 (fun k => iprop(cred (tallyAt (xrCell c k) () N) ∗ atPos ER (xrCell c k) 0 ∅ 0
        ∗ dutyTok ER (ysCell c k) 0 false ∗ dutyTok ER (yrCell (yn c) k) 0 false))
    ∗ owes (c : Thread nD τ) (owedL (yOwes c)) W)
/-- After it: chunks 0–6 forwarded (their receive cells waited, the send's credit, the right half of the band kept); chunk 7
    received and held whole, with what its forward needs. -/
def postC (c : Dev nD) : sProp (MT nD τ sig Unit (Elt F) ℕ UU ℕ) :=
  iprop((atPos ER (xrCell c 0) 1 ∅ 0 ∗ cred (tallyAt (ysCell c 0) () N) ∗ (oLoc c ↦[xrBand c 0]{hR} R m c))
    ∗ (atPos ER (xrCell c 1) 1 ∅ 0 ∗ cred (tallyAt (ysCell c 1) () N) ∗ (oLoc c ↦[xrBand c 1]{hR} R m c))
    ∗ (atPos ER (xrCell c 2) 1 ∅ 0 ∗ cred (tallyAt (ysCell c 2) () N) ∗ (oLoc c ↦[xrBand c 2]{hR} R m c))
    ∗ (atPos ER (xrCell c 3) 1 ∅ 0 ∗ cred (tallyAt (ysCell c 3) () N) ∗ (oLoc c ↦[xrBand c 3]{hR} R m c))
    ∗ (atPos ER (xrCell c 4) 1 ∅ 0 ∗ cred (tallyAt (ysCell c 4) () N) ∗ (oLoc c ↦[xrBand c 4]{hR} R m c))
    ∗ (atPos ER (xrCell c 5) 1 ∅ 0 ∗ cred (tallyAt (ysCell c 5) () N) ∗ (oLoc c ↦[xrBand c 5]{hR} R m c))
    ∗ (atPos ER (xrCell c 6) 1 ∅ 0 ∗ cred (tallyAt (ysCell c 6) () N) ∗ (oLoc c ↦[xrBand c 6]{hR} R m c))
    ∗ (atPos ER (xrCell c 7) 1 ∅ 0 ∗ (oLoc c ↦[xrBand c 7]{fullShare} R m c) ∗ dutyTok ER (ysCell c 7) 0 false ∗ dutyTok ER (yrCell (yn c) 7) 0 false
        ∗ (∃ f, oLoc (yn c) ↦[yrBand (yn c) 7]{fullShare} f))
    ∗ ∃ W, owes (c : Thread nD τ) (owedL [(yrCell (yn c) 7, N)]) W)

/-! ### Stretch D: chunk 7's forward, then the waits on every send and on the second-axis receives, and on the local copy; the
    thirty-two transfer cells closed (parts 20–24 and the body's last two waits) -/
def preD (c : Dev nD) : sProp (MT nD τ sig Unit (Elt F) ℕ UU ℕ) :=
  iprop(postC m c
    ∗ conj8 (fun k => iprop(cred (tallyAt (xsCell c k) () N) ∗ atPos ER (xsCell c k) 0 ∅ 0 ∗ atPos ER (ysCell c k) 0 ∅ 0
        ∗ cred (tallyAt (yrCell c k) () N) ∗ atPos ER (yrCell c k) 0 ∅ 0))
    ∗ storeFlight m c)
def postD (c : Dev nD) : sProp (MT nD τ sig Unit (Elt F) ℕ UU ℕ) :=
  iprop(conj8 (fun k => iprop(semVal (xsCell c k) 0 ∗ semVal (xrCell c k) 0 ∗ semVal (ysCell c k) 0 ∗ semVal (yrCell c k) 0))
    ∗ semVal ((c : Thread nD τ), .dma 2) 0
    ∗ conj8 (fun k => iprop(xsPay m c k ∗ (oLoc c ↦[xrBand c k]{fullShare} R m c) ∗ yrPay m c k))
    ∗ (oLoc c ↦[ownBand c]{fullShare} R m c) ∗ (sLoc c ↦{hR} T m c) ∗ ∃ W, owes (c : Thread nD τ) (owedL []) W)

end Cert.KernelIdeal.AG

end
-- ==== Proof.Steps2.lean ====
import proofs.«900078_g7700000000000079_dist_ag_v7x_xy2x2_x_m16384_n1024_bf16_1_alg».proof.Proof.Steps
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The rest of a chunk's protocol steps, each as one rule over the protocol's resources: the second-axis transfer, the waits
    on the four transfer cells of a chunk, and the closing of a transfer cell once its one round is done. -/

set_option maxHeartbeats 1600000 in
/-- The second-axis transfer of chunk `r`: device `c` lends the left half of the band it received across the first axis and
    gives the same rows of `yn c`'s result, which it holds; `yn c`'s receive cell will hand that band over landed, `c`'s send
    cell the half back. -/
theorem wp_ysend (K : Dev nD × CK → ℕ) (c n : Dev nD) (hn : n = yn c) (r : Fin 8)
    {hsc : (ybuf c r : Memref sig (Dev.tc n : Thread nD τ).2.kind .hbm S1024x1024 .bf16).view.ref.isScScratch = false}
    {hsrc hdst hsem}
    {α : Type} {Q : α → sProp (MT nD τ sig Unit (Elt F) ℕ UU ℕ)} {k : PUnit → Prog (TpuEff nD τ sig (Elt F) Λ₀ .tc) α}
    (fd : Buf (Elt F) (oLoc (yn c))) (O : CellTallies nD τ sig Unit) (W : Waits sig Unit) :
    iprop(records m K ∗ (oLoc c ↦[xrBand c r]{hL} R m c) ∗ (oLoc (yn c) ↦[yrBand (yn c) r]{fullShare} fd)
        ∗ owes (c : Thread nD τ) (O + tallyAt (yrCell (yn c) r) () N) W
        ∗ dutyTok ER (ysCell c r) 0 false ∗ dutyTok ER (yrCell (yn c) r) 0 false)
      ⊢ iprop(((cred (tallyAt (ysCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ybuf c r) (.remote (Dev.tc n : Thread nD τ) (ybuf c r) (.dma (ysS r)) hsc) (.dma (yrS r)) hsrc hdst hsem) k) Q) := by
  subst hn
  iintro ⟨#HR, Hs, Hd, HO, Ht1, Ht2⟩
  iapply (Rounds.wp_send_pointsTo 𝒱₀ ER (sched m) (c : Thread nD τ) none (c' := (yn c : Thread nD τ))
    (src := ybuf c r) (dst := ybuf c r) (sS := .dma (ysS r)) (sem := .dma (yrS r))
    (κ₁ := K (c, some (2, r))) (κ₂ := K (yn c, some (3, r)))
    (r₁ := 0) (r₂ := 0) (d₁ := false) (d₂ := false) (fd := fd) (fs := R m c) (q := hL)
    (by rw [duties_ys]; exact Finset.mem_singleton_self _) (by rw [duties_yr]; exact Finset.mem_singleton_self _)
    () () N rfl rfl rfl O rfl (W := W)
    (by rw [payload_ys, set_off9]; try exact BI.Entails.refl _)
    (by rw [payload_yr, set_off9_y]; unfold yrPay; rw [pointsTo_congr (val_yland m c r fd (fun _ => rfl) (fun _ => rfl))]; try exact BI.Entails.refl _))
  isplitr; · iapply (inv_at m K (c, some (2, r))); iexact HR
  isplitr; · iapply (inv_at m K (yn c, some (3, r))); iexact HR
  isplitl [Hs]; · rw [set_off9]; iexact Hs
  isplitl [Hd]; · rw [set_off9_y]; iexact Hd
  isplitl [HO]; · iexact HO
  isplitl [Ht1]; · iexact Ht1
  isplitr; · iapply (reached_at m K (c, some (2, r))); iexact HR
  isplitl [Ht2]; · iexact Ht2
  iapply (reached_at m K (yn c, some (3, r))); iexact HR

/-- What a wait naming one of a chunk's transfer views waits for: a chunk's credit, whichever of the three views it names. -/
theorem credit_xsrc (c : Dev nD) (r : Fin 8) : (xsrc c r).view.dmaCredit = N := rfl
theorem credit_xdst (c : Dev nD) (r : Fin 8) : (xdst c r).view.dmaCredit = N := rfl
theorem credit_ybuf (c : Dev nD) (r : Fin 8) : (ybuf c r).view.dmaCredit = N := rfl

/-! ## The waits: a transfer cell's one round has one duty, so the wait for the chunk's credit closes the round and hands
    over that duty's payload. The memrefs the wait names only say how much it waits for. -/

/-- The wait on the first-axis send cell of chunk `r`: the half share of the scratch chunk the transfer read comes back. -/
theorem wp_wait_xs (K : Dev nD × CK → ℕ) (c : Dev nD) (r : Fin 8)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = N)
    {α : Type} {Q : α → sProp (MT nD τ sig Unit (Elt F) ℕ UU ℕ)} {k : PUnit → Prog (TpuEff nD τ sig (Elt F) Λ₀ .tc) α}
    (O : CellTallies nD τ sig Unit) (W : Waits sig Unit) :
    iprop(records m K ∗ cred (tallyAt (xsCell c r) () N) ∗ owes (c : Thread nD τ) O W
        ∗ MayWait (c : Thread nD τ) (.dma (xsS r)) () O ∗ atPos ER (xsCell c r) 0 ∅ 0)
      ⊢ iprop(((owes (c : Thread nD τ) O (insert (.dma (xsS r), ()) W) ∗ atPos ER (xsCell c r) 1 ∅ 0 ∗ xsPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xsS r) srcw dstw hsrc hdst) k) Q) := by
  iintro ⟨#HR, Hc, HO, HM, Hat⟩ Hk
  iapply (Rounds.wp_wait_rest_token 𝒱₀ ER (sched m) (c : Thread nD τ) none (κ := K (c, some (0, r)))
      (wpE_waitDma2_eq 𝒱₀ (c : Thread nD τ) none Set.univ) (Set.mem_univ _) () (O := O) (W := W) (R := 0) (m := 0) (T := ∅)
      (by rw [Nat.zero_add, expect_xs, hN])) $$ [Hc HO HM Hat]
  · isplitr; · iapply (inv_at m K (c, some (0, r))); iexact HR
    isplitl [Hc]; · rw [hN]; iexact Hc
    isplitl [HO]; · iexact HO
    isplitl [HM]; · iexact HM
    iexact Hat
  iintro ⟨HO, Hat, -, Hpay⟩
  ihave Hp := (Entails.of_eq (rest_xs m c r)) $$ Hpay
  iapply Hk
  isplitl [HO]; · iexact HO
  isplitl [Hat] <;> iassumption

/-- The wait on the first-axis receive cell: the band of the device's result that `xn c` wrote, landed. -/
theorem wp_wait_xr (K : Dev nD × CK → ℕ) (c : Dev nD) (r : Fin 8)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = N)
    {α : Type} {Q : α → sProp (MT nD τ sig Unit (Elt F) ℕ UU ℕ)} {k : PUnit → Prog (TpuEff nD τ sig (Elt F) Λ₀ .tc) α}
    (O : CellTallies nD τ sig Unit) (W : Waits sig Unit) :
    iprop(records m K ∗ cred (tallyAt (xrCell c r) () N) ∗ owes (c : Thread nD τ) O W
        ∗ MayWait (c : Thread nD τ) (.dma (xrS r)) () O ∗ atPos ER (xrCell c r) 0 ∅ 0)
      ⊢ iprop(((owes (c : Thread nD τ) O (insert (.dma (xrS r), ()) W) ∗ atPos ER (xrCell c r) 1 ∅ 0 ∗ xrPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xrS r) srcw dstw hsrc hdst) k) Q) := by
  iintro ⟨#HR, Hc, HO, HM, Hat⟩ Hk
  iapply (Rounds.wp_wait_rest_token 𝒱₀ ER (sched m) (c : Thread nD τ) none (κ := K (c, some (1, r)))
      (wpE_waitDma2_eq 𝒱₀ (c : Thread nD τ) none Set.univ) (Set.mem_univ _) () (O := O) (W := W) (R := 0) (m := 0) (T := ∅)
      (by rw [Nat.zero_add, expect_xr, hN])) $$ [Hc HO HM Hat]
  · isplitr; · iapply (inv_at m K (c, some (1, r))); iexact HR
    isplitl [Hc]; · rw [hN]; iexact Hc
    isplitl [HO]; · iexact HO
    isplitl [HM]; · iexact HM
    iexact Hat
  iintro ⟨HO, Hat, -, Hpay⟩
  ihave Hp := (Entails.of_eq (rest_xr m c r)) $$ Hpay
  iapply Hk
  isplitl [HO]; · iexact HO
  isplitl [Hat] <;> iassumption

/-- The wait on the second-axis send cell: the half share of the band the transfer read comes back. -/
theorem wp_wait_ys (K : Dev nD × CK → ℕ) (c : Dev nD) (r : Fin 8)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = N)
    {α : Type} {Q : α → sProp (MT nD τ sig Unit (Elt F) ℕ UU ℕ)} {k : PUnit → Prog (TpuEff nD τ sig (Elt F) Λ₀ .tc) α}
    (O : CellTallies nD τ sig Unit) (W : Waits sig Unit) :
    iprop(records m K ∗ cred (tallyAt (ysCell c r) () N) ∗ owes (c : Thread nD τ) O W
        ∗ MayWait (c : Thread nD τ) (.dma (ysS r)) () O ∗ atPos ER (ysCell c r) 0 ∅ 0)
      ⊢ iprop(((owes (c : Thread nD τ) O (insert (.dma (ysS r), ()) W) ∗ atPos ER (ysCell c r) 1 ∅ 0 ∗ ysPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ysS r) srcw dstw hsrc hdst) k) Q) := by
  iintro ⟨#HR, Hc, HO, HM, Hat⟩ Hk
  iapply (Rounds.wp_wait_rest_token 𝒱₀ ER (sched m) (c : Thread nD τ) none (κ := K (c, some (2, r)))
      (wpE_waitDma2_eq 𝒱₀ (c : Thread nD τ) none Set.univ) (Set.mem_univ _) () (O := O) (W := W) (R := 0) (m := 0) (T := ∅)
      (by rw [Nat.zero_add, expect_ys, hN])) $$ [Hc HO HM Hat]
  · isplitr; · iapply (inv_at m K (c, some (2, r))); iexact HR
    isplitl [Hc]; · rw [hN]; iexact Hc
    isplitl [HO]; · iexact HO
    isplitl [HM]; · iexact HM
    iexact Hat
  iintro ⟨HO, Hat, -, Hpay⟩
  ihave Hp := (Entails.of_eq (rest_ys m c r)) $$ Hpay
  iapply Hk
  isplitl [HO]; · iexact HO
  isplitl [Hat] <;> iassumption

/-- The wait on the second-axis receive cell: the band of the device's result that `yn c` wrote, landed. -/
theorem wp_wait_yr (K : Dev nD × CK → ℕ) (c : Dev nD) (r : Fin 8)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = N)
    {α : Type} {Q : α → sProp (MT nD τ sig Unit (Elt F) ℕ UU ℕ)} {k : PUnit → Prog (TpuEff nD τ sig (Elt F) Λ₀ .tc) α}
    (O : CellTallies nD τ sig Unit) (W : Waits sig Unit) :
    iprop(records m K ∗ cred (tallyAt (yrCell c r) () N) ∗ owes (c : Thread nD τ) O W
        ∗ MayWait (c : Thread nD τ) (.dma (yrS r)) () O ∗ atPos ER (yrCell c r) 0 ∅ 0)
      ⊢ iprop(((owes (c : Thread nD τ) O (insert (.dma (yrS r), ()) W) ∗ atPos ER (yrCell c r) 1 ∅ 0 ∗ yrPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yrS r) srcw dstw hsrc hdst) k) Q) := by
  iintro ⟨#HR, Hc, HO, HM, Hat⟩ Hk
  iapply (Rounds.wp_wait_rest_token 𝒱₀ ER (sched m) (c : Thread nD τ) none (κ := K (c, some (3, r)))
      (wpE_waitDma2_eq 𝒱₀ (c : Thread nD τ) none Set.univ) (Set.mem_univ _) () (O := O) (W := W) (R := 0) (m := 0) (T := ∅)
      (by rw [Nat.zero_add, expect_yr, hN])) $$ [Hc HO HM Hat]
  · isplitr; · iapply (inv_at m K (c, some (3, r))); iexact HR
    isplitl [Hc]; · rw [hN]; iexact Hc
    isplitl [HO]; · iexact HO
    isplitl [HM]; · iexact HM
    iexact Hat
  iintro ⟨HO, Hat, -, Hpay⟩
  ihave Hp := (Entails.of_eq (rest_yr m c r)) $$ Hpay
  iapply Hk
  isplitl [HO]; · iexact HO
  isplitl [Hat] <;> iassumption

/-- A transfer cell whose one round is done, nothing taken of the next, is closed: its semaphore is back at zero for good. -/
theorem close_cell (K : Dev nD × CK → ℕ) (c : Dev nD) (tk : Fin 4 × Fin 8) :
    iprop(records m K ∗ atPos ER (kcell (c, some tk)) 1 ∅ 0)
      ⊢ (iprop(|={Set.univ}=> semVal (kcell (c, some tk)) 0) : sProp (MT nD τ sig Unit (Elt F) ℕ UU ℕ)) := by
  iintro ⟨#HR, Hat⟩
  iapply (Rounds.cell_close ER (sched m) (κ := K (c, some tk)) (Set.mem_univ _) (fun h => h) (R := 0 + 1) (duties_later m _))
  isplitr; · iapply (inv_at m K (c, some tk)); iexact HR
  iexact Hat

/-- info: 'Cert.KernelIdeal.AG.wp_ysend' depends on axioms: [propext, Classical.choice, Quot.sound] -/
#guard_msgs in #print axioms wp_ysend
/-- info: 'Cert.KernelIdeal.AG.wp_wait_xs' depends on axioms: [propext, Classical.choice, Quot.sound] -/
#guard_msgs in #print axioms wp_wait_xs
/-- info: 'Cert.KernelIdeal.AG.wp_wait_xr' depends on axioms: [propext, Classical.choice, Quot.sound] -/
#guard_msgs in #print axioms wp_wait_xr
/-- info: 'Cert.KernelIdeal.AG.wp_wait_ys' depends on axioms: [propext, Classical.choice, Quot.sound] -/
#guard_msgs in #print axioms wp_wait_ys
/-- info: 'Cert.KernelIdeal.AG.wp_wait_yr' depends on axioms: [propext, Classical.choice, Quot.sound] -/
#guard_msgs in #print axioms wp_wait_yr
/-- info: 'Cert.KernelIdeal.AG.close_cell' depends on axioms: [propext, Classical.choice, Quot.sound] -/
#guard_msgs in #print axioms close_cell

end Cert.KernelIdeal.AG

end
-- ==== Proof.Slots.lean ====
import proofs.«900078_g7700000000000079_dist_ag_v7x_xy2x2_x_m16384_n1024_bf16_1_alg».proof.Proof.Phase1
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The staging buffer is its two slots: an index lies in slot 0 or slot 1 as its first coordinate is 0 or 1. -/

theorem mem_slotSet0 {i : S2x1024x1024.Idx} : i ∈ slotSet0 ↔ (i 0).val = 0 := by
  unfold slotSet0; rw [Rect.mem_set_unit]
  constructor
  · intro h
    have h0 := h 0
    change 0 ≤ (i 0).val ∧ (i 0).val < 0 + 1 at h0
    omega
  · intro h a
    match a with
    | ⟨0, _⟩ => change 0 ≤ (i 0).val ∧ (i 0).val < 0 + 1; omega
    | ⟨1, _⟩ => change 0 ≤ (i 1).val ∧ (i 1).val < 0 + 1024; rw [Nat.zero_add]; exact ⟨Nat.zero_le _, (i 1).isLt⟩
    | ⟨2, _⟩ => change 0 ≤ (i 2).val ∧ (i 2).val < 0 + 1024; rw [Nat.zero_add]; exact ⟨Nat.zero_le _, (i 2).isLt⟩

theorem mem_slotSet1 {i : S2x1024x1024.Idx} : i ∈ slotSet1 ↔ (i 0).val = 1 := by
  unfold slotSet1; rw [Rect.mem_set_unit]
  constructor
  · intro h
    have h0 := h 0
    change 1 ≤ (i 0).val ∧ (i 0).val < 1 + 1 at h0
    omega
  · intro h a
    match a with
    | ⟨0, _⟩ => change 1 ≤ (i 0).val ∧ (i 0).val < 1 + 1; omega
    | ⟨1, _⟩ => change 0 ≤ (i 1).val ∧ (i 1).val < 0 + 1024; rw [Nat.zero_add]; exact ⟨Nat.zero_le _, (i 1).isLt⟩
    | ⟨2, _⟩ => change 0 ≤ (i 2).val ∧ (i 2).val < 0 + 1024; rw [Nat.zero_add]; exact ⟨Nat.zero_le _, (i 2).isLt⟩

theorem slot_cover : slotSet0 ∪ slotSet1 = Finset.univ := by
  ext i
  rw [Finset.mem_union, mem_slotSet0, mem_slotSet1]
  have h : (i 0).val < 2 := (i 0).isLt
  exact ⟨fun _ => Finset.mem_univ _, fun _ => by omega⟩

theorem slot_disjoint : Disjoint slotSet0 slotSet1 :=
  Finset.disjoint_left.mpr fun i h0 h1 => by rw [mem_slotSet0] at h0; rw [mem_slotSet1] at h1; omega

/-- The staging buffer held whole is its two slots held. -/
theorem slot_split (c : Dev nD) (f : Buf (Elt F) (fLoc c)) :
    (fLoc c ↦{fullShare} f : sProp (MT nD τ sig Unit (Elt F) ℕ UU ℕ)) ⊣⊢ iprop((fLoc c ↦[slotSet0]{fullShare} f) ∗ (fLoc c ↦[slotSet1]{fullShare} f)) := by
  have h : (fLoc c ↦[slotSet0 ∪ slotSet1]{fullShare} f : sProp (MT nD τ sig Unit (Elt F) ℕ UU ℕ))
      ⊣⊢ iprop((fLoc c ↦[slotSet0]{fullShare} f) ∗ (fLoc c ↦[slotSet1]{fullShare} f)) := pointsTo_union slot_disjoint
  rw [slot_cover] at h
  exact h

/-- Two slots held at whatever contents are the staging buffer held at some contents. -/
theorem slot_join (c : Dev nD) (g0 g1 : Buf (Elt F) (fLoc c)) :
    iprop((fLoc c ↦[slotSet0]{fullShare} g0) ∗ (fLoc c ↦[slotSet1]{fullShare} g1)) ⊢ (iprop(∃ f, fLoc c ↦{fullShare} f) : sProp (MT nD τ sig Unit (Elt F) ℕ UU ℕ)) := by
  iintro ⟨H0, H1⟩
  ihave H := (pointsTo_join (ℓ := fLoc c) (q := fullShare) (f := g0) (g := g1) slot_disjoint) $$ [H0 H1]
  · isplitl [H0]; · iexact H0
    iexact H1
  rw [slot_cover]
  iexists _; iexact H

end Cert.KernelIdeal.AG

end
-- ==== Proof.StageA.lean ====
import proofs.«900078_g7700000000000079_dist_ag_v7x_xy2x2_x_m16384_n1024_bf16_1_alg».proof.Proof.Stages
import proofs.«900078_g7700000000000079_dist_ag_v7x_xy2x2_x_m16384_n1024_bf16_1_alg».proof.Proof.Steps2
import proofs.«900078_g7700000000000079_dist_ag_v7x_xy2x2_x_m16384_n1024_bf16_1_alg».proof.Proof.Slots
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

set_option maxHeartbeats 3200000 in
set_option maxRecDepth 8000 in
/-- One chunk's stretch when chunk `r` sits in slot 1: the previous chunk `rp` (cast, in the scratch) is sent across the first axis;
    the copy of the next chunk `rn` into slot 0 is started; the copy of chunk `r` is waited for; chunk `r` is cast and stored. -/
theorem xchunk1 (K : Dev nD × CK → ℕ) (c n : Dev nD) (hn : n = xn c) (rp r rn : Fin 8)
    (pay : Vec F S1x1024x1024 .f32 → FVec F S1024x1024 .bf16)
    (hpay : ∀ v, pay v = shapeCast S1024x1024 (truncf .bf16 (shapeCast S1024x1024 v shapeCasts_S1x1024x1024_S1024x1024) bitsLt_bf16_f32) shapeCasts_S1024x1024_S1024x1024)
    (fb : Buf (Elt F) (oLoc (xn c))) (g0 : Buf (Elt F) (slot0M.view.loc (c : Thread nD τ))) (g1 : Buf (Elt F) (slot1M.view.loc (c : Thread nD τ)))
    (q1 q0 : PosShare TreeShare)
    (l : List (GSem nD τ sig × ℕ)) (hl : ∀ x ∈ l, x ∈ xOwes c ++ yOwes c) (W : Waits sig Unit)
    {hsc : (xdst c rp : Memref sig (Dev.tc n : Thread nD τ).2.kind .hbm S1024x1024 .bf16).view.ref.isScScratch = false}
    {hsrc hdst hsem} {hsrc' hdst' hsem'}
    {s' : Shape} {e' : EltTy} {srcw : Memref sig .tc .hbm s' e'} {dstw : Memref sig .tc .vmem S1024x1024 .f32} {hsrcw hdstw} (hN : dstw.view.dmaCredit = Nf)
    {hl0 hl1 hx hm}
    {α : Type} {Q : α → sProp (MT nD τ sig Unit (Elt F) ℕ UU ℕ)} {k : PUnit → Prog (TpuEff nD τ sig (Elt F) Λ₀ .tc) α} :
    iprop(records m K ∗ levAts L lv
        ∗ (sLoc c ↦[sendBand c rp]{fullShare} T m c) ∗ (oLoc (xn c) ↦[xrBand (xn c) rp]{fullShare} fb)
        ∗ dutyTok ER (xsCell c rp) 0 false ∗ dutyTok ER (xrCell (xn c) rp) 0 false
        ∗ owes (c : Thread nD τ) (owedL ((xrCell (xn c) rp, N) :: l)) W
        ∗ (xLoc c ↦{q0} m (xLoc c)) ∗ (slot0M.view.loc (c : Thread nD τ) ↦[slotSet0]{fullShare} g0) ∗ semVal ((c : Thread nD τ), .dma 0) 0
        ∗ flight1 m c (k0_off2 c (BitVec.ofNat 32 (1024 * r.val))) (k0_off2_inb c r) q1 g1
        ∗ (xLoc c ↦[Finset.univ \ (xsl (k0_off2 c (BitVec.ofNat 32 (1024 * r.val))) (k0_off2_inb c r)).view.set]{q1} m (xLoc c))
        ∗ (∃ f, sLoc c ↦[sendBand c r]{fullShare} f))
      ⊢ iprop(((cred (tallyAt (xsCell c rp) () N) ∗ (sLoc c ↦[sendBand c rp]{hR} T m c) ∗ (∃ W', owes (c : Thread nD τ) (owedL l) W')
                ∗ flight0 m c (k0_off2 c (BitVec.ofNat 32 (1024 * rn.val))) (k0_off2_inb c rn) q0 g0
                ∗ (xLoc c ↦[Finset.univ \ (xsl (k0_off2 c (BitVec.ofNat 32 (1024 * rn.val))) (k0_off2_inb c rn)).view.set]{q0} m (xLoc c))
                ∗ (xLoc c ↦{q1} m (xLoc c)) ∗ (∃ g, slot1M.view.loc (c : Thread nD τ) ↦[slotSet1]{fullShare} g) ∗ semVal ((c : Thread nD τ), .dma 1) 0
                ∗ (sLoc c ↦[sendBand c r]{fullShare} T m c))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsrc c rp) (.remote (Dev.tc n : Thread nD τ) (xdst c rp) (.dma (xsS rp)) hsc) (.dma (xrS rp)) hsrc hdst hsem) fun _ =>
               .op (.enqueueDma (xsl (k0_off2 c (BitVec.ofNat 32 (1024 * rn.val))) (k0_off2_inb c rn)) (.here slot0M) (.dma (0 : DmaSem sig)) hsrc' hdst' hsem') fun _ =>
               .op (.waitDma2 (1 : DmaSem sig) srcw dstw hsrcw hdstw) fun _ =>
               .op (.load fM (Rect.unit (s := S2x1024x1024) ![1, 0, 0] S1x1024x1024.size inb_S2x1024x1024_S1x1024x1024_1_0_0).toLoadRect hl0) fun v =>
               .op (.load sM (Rect.unit (s := S16384x1024) (k0_off3 c (BitVec.ofNat 32 (1024 * r.val))) S1024x1024.size (k0_off3_inb c r)).toLoadRect hl1) fun _ =>
               .op (.store sM (Rect.unit (s := S16384x1024) (k0_off3 c (BitVec.ofNat 32 (1024 * r.val))) S1024x1024.size (k0_off3_inb c r)) (pay v) Finset.univ hx hm) k) Q) := by
  have e0 : (k0_off2 c (BitVec.ofNat 32 (1024 * r.val))) 0 = 8192 * (c.val % 2) + 1024 * r.val := congrFun (k0_off2_eq c r) 0
  have e1 : (k0_off2 c (BitVec.ofNat 32 (1024 * r.val))) 1 = 0 := congrFun (k0_off2_eq c r) 1
  have hband : sendBand c r = sRows ((k0_off2 c (BitVec.ofNat 32 (1024 * r.val))) 0) 1024 := by unfold sendBand; rw [e0]
  iintro ⟨#HR, #Hlev, Hsp, Hb, Ht1, Ht2, HO, Hx0, Hf0, Hv0, HF1, Hx1, ⟨%f, Hs⟩⟩ Hk
  -- the previous chunk goes: its left half is lent, its right half kept
  ihave Hh := (half_split (ℓ := sLoc c) (sendBand c rp) (T m c)).1 $$ Hsp
  icases Hh with ⟨HsL, HsR⟩
  iapply (wp_xsend m K c n hn rp fb (owedL l) W) $$ [HsL Hb HO Ht1 Ht2]
  · isplitr; · iexact HR
    isplitl [HsL]; · iexact HsL
    isplitl [Hb]; · iexact Hb
    isplitl [HO]; · iexact HO
    isplitl [Ht1]; · iexact Ht1
    iexact Ht2
  iintro ⟨Hcr, HO⟩
  -- the next chunk's copy starts
  iapply (start0 m c (k0_off2 c (BitVec.ofNat 32 (1024 * rn.val))) (k0_off2_inb c rn) q0 g0) $$ [Hx0 Hf0 Hv0]
  · isplitl [Hx0]; · iexact Hx0
    isplitl [Hf0]; · iexact Hf0
    iexact Hv0
  iintro ⟨HF0, Hx0⟩
  -- this chunk's copy is waited for
  iapply (wait1 m c (k0_off2 c (BitVec.ofNat 32 (1024 * r.val))) (k0_off2_inb c r) q1 g1 (owedL l) W hN) $$ [HF1 Hx1 HO]
  · isplitl [HF1]; · iexact HF1
    isplitl [Hx1]; · iexact Hx1
    isplitl [HO]; · iexact HO
    iapply (mayWait_low c (.dma 1) (by decide) l hl); iexact Hlev
  iintro ⟨Hf1, Hx1, Hv1, HO⟩
  -- and cast and stored
  rw [hband]
  iapply (caststore1 m c (k0_off2 c (BitVec.ofNat 32 (1024 * r.val))) (k0_off3 c (BitVec.ofNat 32 (1024 * r.val))) (k0_off2_inb c r) (k0_off3_inb c r)
    ((k0_off3_eq c r).trans (k0_off2_eq c r).symm) e1 g1 f pay hpay) $$ [Hf1 Hs]
  · isplitl [Hf1]; · iexact Hf1
    iexact Hs
  iintro ⟨Hf1, Hs⟩
  iapply Hk
  isplitl [Hcr]; · iexact Hcr
  isplitl [HsR]; · iexact HsR
  isplitl [HO]; · iexact HO
  isplitl [HF0]; · iexact HF0
  isplitl [Hx0]; · iexact Hx0
  isplitl [Hx1]; · iexact Hx1
  isplitl [Hf1]; · iexact Hf1
  isplitl [Hv1]; · iexact Hv1
  iexact Hs

set_option maxHeartbeats 3200000 in
set_option maxRecDepth 8000 in
/-- Part 3: chunk 0 is sent, chunk 2's copy starts, chunk 1 is waited for, cast and stored. -/
theorem partA3 (K : Dev nD × CK → ℕ) (c : Dev nD) (v5 v6 v17 v22 : BitVec 32)
    (fb : Buf (Elt F) (oLoc (xn c))) (g0 : Buf (Elt F) (slot0M.view.loc (c : Thread nD τ))) (g1 : Buf (Elt F) (slot1M.view.loc (c : Thread nD τ)))
    (W : Waits sig Unit) (Kt : PUnit → sProp (MT nD τ sig Unit (Elt F) ℕ UU ℕ)) :
    iprop((records m K ∗ levAts L lv
        ∗ (sLoc c ↦[sendBand c 0]{fullShare} T m c) ∗ (oLoc (xn c) ↦[xrBand (xn c) 0]{fullShare} fb)
        ∗ dutyTok ER (xsCell c 0) 0 false ∗ dutyTok ER (xrCell (xn c) 0) 0 false
        ∗ owes (c : Thread nD τ) (owedL ((xOwes c ++ yOwes c).drop 0)) W
        ∗ (xLoc c ↦{hL} m (xLoc c)) ∗ (slot0M.view.loc (c : Thread nD τ) ↦[slotSet0]{fullShare} g0) ∗ semVal ((c : Thread nD τ), .dma 0) 0
        ∗ flight1 m c (k0_off2 c (BitVec.ofNat 32 (1024 * (1 : Fin 8).val))) (k0_off2_inb c 1) hR g1
        ∗ (xLoc c ↦[Finset.univ \ (xsl (k0_off2 c (BitVec.ofNat 32 (1024 * (1 : Fin 8).val))) (k0_off2_inb c 1)).view.set]{hR} m (xLoc c))
        ∗ (∃ f, sLoc c ↦[sendBand c 1]{fullShare} f))
      ∗ ((cred (tallyAt (xsCell c 0) () N) ∗ (sLoc c ↦[sendBand c 0]{hR} T m c) ∗ (∃ W', owes (c : Thread nD τ) (owedL ((xOwes c ++ yOwes c).drop 1)) W')
            ∗ flight0 m c (k0_off2 c (BitVec.ofNat 32 (1024 * (2 : Fin 8).val))) (k0_off2_inb c 2) hL g0
            ∗ (xLoc c ↦[Finset.univ \ (xsl (k0_off2 c (BitVec.ofNat 32 (1024 * (2 : Fin 8).val))) (k0_off2_inb c 2)).view.set]{hL} m (xLoc c))
            ∗ (xLoc c ↦{hR} m (xLoc c)) ∗ (∃ g, slot1M.view.loc (c : Thread nD τ) ↦[slotSet1]{fullShare} g) ∗ semVal ((c : Thread nD τ), .dma 1) 0
            ∗ (sLoc c ↦[sendBand c 1]{fullShare} T m c)) -∗ Kt ⟨⟩))
      ⊢ wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) Kt := by
  simp only [k0_part3_eq_skeleton]; unfold k0_part3_skel
  simp only [Prog.lift, Prog.bind_op, Prog.bind_ret, Prog.pure_eq_ret]
  iintro ⟨Hpre, Hk⟩
  iapply (xchunk1 m K c _ (dev3_eq c) 0 1 2 k0_pay2 (fun _ => rfl) fb g0 g1 hR hL
    ((xOwes c ++ yOwes c).drop 1) (fun x hx => List.mem_of_mem_drop hx) W (dstw := slot1M) rfl) $$ [Hpre]
  · iexact Hpre
  iintro Hpost
  rw [wp_ret]; imodintro
  iapply Hk
  iexact Hpost

end Cert.KernelIdeal.AG

end
-- ==== Proof.StageA29.lean ====
import proofs.«900078_g7700000000000079_dist_ag_v7x_xy2x2_x_m16384_n1024_bf16_1_alg».proof.Proof.Stages
import proofs.«900078_g7700000000000079_dist_ag_v7x_xy2x2_x_m16384_n1024_bf16_1_alg».proof.Proof.Steps2
import proofs.«900078_g7700000000000079_dist_ag_v7x_xy2x2_x_m16384_n1024_bf16_1_alg».proof.Proof.Slots
import proofs.«900078_g7700000000000079_dist_ag_v7x_xy2x2_x_m16384_n1024_bf16_1_alg».proof.Proof.Levels
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! The first and the last part of the stretch that casts the sent half of the shard and sends it across the first axis: the
    part that starts the first two copies and casts chunk 0, and the part that sends chunk 6, casts chunk 7 and sends it. -/

set_option maxHeartbeats 3200000 in
set_option maxRecDepth 8000 in
/-- Part 2: the copies of chunks 0 and 1 start; chunk 0 is waited for, cast and stored. -/
theorem partA2 (K : Dev nD × CK → ℕ) (c : Dev nD) (v5 v6 v17 v22 : BitVec 32)
    (g0 : Buf (Elt F) (slot0M.view.loc (c : Thread nD τ))) (g1 : Buf (Elt F) (slot1M.view.loc (c : Thread nD τ)))
    (W : Waits sig Unit) (Kt : PUnit → sProp (MT nD τ sig Unit (Elt F) ℕ UU ℕ)) :
    iprop((levAts L lv
        ∗ (xLoc c ↦{hL} m (xLoc c)) ∗ (xLoc c ↦{hR} m (xLoc c))
        ∗ (slot0M.view.loc (c : Thread nD τ) ↦[slotSet0]{fullShare} g0) ∗ (slot1M.view.loc (c : Thread nD τ) ↦[slotSet1]{fullShare} g1)
        ∗ semVal ((c : Thread nD τ), .dma 0) 0 ∗ semVal ((c : Thread nD τ), .dma 1) 0
        ∗ owes (c : Thread nD τ) (owedL (xOwes c ++ yOwes c)) W
        ∗ (∃ f, sLoc c ↦[sendBand c 0]{fullShare} f))
      ∗ ((flight1 m c (k0_off2 c (BitVec.ofNat 32 (1024 * (1 : Fin 8).val))) (k0_off2_inb c 1) hR g1
            ∗ (xLoc c ↦[Finset.univ \ (xsl (k0_off2 c (BitVec.ofNat 32 (1024 * (1 : Fin 8).val))) (k0_off2_inb c 1)).view.set]{hR} m (xLoc c))
            ∗ (xLoc c ↦{hL} m (xLoc c)) ∗ (∃ g, slot0M.view.loc (c : Thread nD τ) ↦[slotSet0]{fullShare} g) ∗ semVal ((c : Thread nD τ), .dma 0) 0
            ∗ (∃ W', owes (c : Thread nD τ) (owedL (xOwes c ++ yOwes c)) W')
            ∗ (sLoc c ↦[sendBand c 0]{fullShare} T m c)) -∗ Kt ⟨⟩))
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) Kt := by
  simp only [k0_part2_eq_skeleton]; unfold k0_part2_skel
  simp only [Prog.lift, Prog.bind_op, Prog.bind_ret, Prog.pure_eq_ret]
  iintro ⟨⟨#Hlev, Hx0, Hx1, Hf0, Hf1, Hv0, Hv1, HO, ⟨%s0, Hs0⟩⟩, Hk⟩
  iapply (start0 m c (k0_off1 c) (k0_off1_inb c) hL g0) $$ [Hx0 Hf0 Hv0]
  · isplitl [Hx0]; · iexact Hx0
    isplitl [Hf0]; · iexact Hf0
    iexact Hv0
  iintro ⟨HF0, Hx0⟩
  iapply (start1 m c (k0_off2 c (BitVec.ofNat 32 (1024 * (1 : Fin 8).val))) (k0_off2_inb c 1) hR g1) $$ [Hx1 Hf1 Hv1]
  · isplitl [Hx1]; · iexact Hx1
    isplitl [Hf1]; · iexact Hf1
    iexact Hv1
  iintro ⟨HF1, Hx1⟩
  iapply (wait0 m c (k0_off1 c) (k0_off1_inb c) hL g0 (owedL (xOwes c ++ yOwes c)) W rfl) $$ [HF0 Hx0 HO]
  · isplitl [HF0]; · iexact HF0
    isplitl [Hx0]; · iexact Hx0
    isplitl [HO]; · iexact HO
    iapply (mayWait_low c (.dma 0) (by decide) (xOwes c ++ yOwes c) (fun x hx => hx)); iexact Hlev
  iintro ⟨Hf0, Hx0, Hv0, HO⟩
  have hband0 : sendBand c 0 = sRows ((k0_off1 c) 0) 1024 := by unfold sendBand; rw [congrFun (k0_off1_eq c) 0]; rfl
  rw [hband0]
  iapply (caststore0 m c (k0_off1 c) (k0_off3 c 0#32) (k0_off1_inb c) (k0_off3_inb c 0) ((k0_off3_eq c 0).trans (k0_off1_eq c).symm)
    (congrFun (k0_off1_eq c) 1) g0 s0 k0_pay1 (fun _ => rfl)) $$ [Hf0 Hs0]
  · isplitl [Hf0]; · iexact Hf0
    iexact Hs0
  iintro ⟨Hf0, Hs0⟩
  rw [wp_ret]; imodintro
  iapply Hk
  isplitl [HF1]; · iexact HF1
  isplitl [Hx1]; · iexact Hx1
  isplitl [Hx0]; · iexact Hx0
  isplitl [Hf0]; · iexact Hf0
  isplitl [Hv0]; · iexact Hv0
  isplitl [HO]; · iexact HO
  iexact Hs0

set_option maxHeartbeats 3200000 in
set_option maxRecDepth 8000 in
/-- Part 9: chunk 6 is sent; chunk 7 is waited for, cast and stored, and sent. -/
theorem partA9 (K : Dev nD × CK → ℕ) (c : Dev nD) (v5 v6 v17 v22 : BitVec 32)
    (fb6 fb7 : Buf (Elt F) (oLoc (xn c))) (g1 : Buf (Elt F) (slot1M.view.loc (c : Thread nD τ)))
    (W : Waits sig Unit) (Kt : PUnit → sProp (MT nD τ sig Unit (Elt F) ℕ UU ℕ)) :
    iprop((records m K ∗ levAts L lv
        ∗ (sLoc c ↦[sendBand c 6]{fullShare} T m c) ∗ (oLoc (xn c) ↦[xrBand (xn c) 6]{fullShare} fb6)
        ∗ dutyTok ER (xsCell c 6) 0 false ∗ dutyTok ER (xrCell (xn c) 6) 0 false
        ∗ (oLoc (xn c) ↦[xrBand (xn c) 7]{fullShare} fb7) ∗ dutyTok ER (xsCell c 7) 0 false ∗ dutyTok ER (xrCell (xn c) 7) 0 false
        ∗ owes (c : Thread nD τ) (owedL ((xOwes c ++ yOwes c).drop 6)) W
        ∗ flight1 m c (k0_off2 c (BitVec.ofNat 32 (1024 * (7 : Fin 8).val))) (k0_off2_inb c 7) hR g1
        ∗ (xLoc c ↦[Finset.univ \ (xsl (k0_off2 c (BitVec.ofNat 32 (1024 * (7 : Fin 8).val))) (k0_off2_inb c 7)).view.set]{hR} m (xLoc c))
        ∗ (∃ f, sLoc c ↦[sendBand c 7]{fullShare} f))
      ∗ ((cred (tallyAt (xsCell c 6) () N) ∗ cred (tallyAt (xsCell c 7) () N) ∗ (sLoc c ↦[sendBand c 6]{hR} T m c) ∗ (sLoc c ↦[sendBand c 7]{hR} T m c)
            ∗ (∃ W', owes (c : Thread nD τ) (owedL (yOwes c)) W')
            ∗ (xLoc c ↦{hR} m (xLoc c)) ∗ (∃ g, slot1M.view.loc (c : Thread nD τ) ↦[slotSet1]{fullShare} g) ∗ semVal ((c : Thread nD τ), .dma 1) 0) -∗ Kt ⟨⟩))
      ⊢ wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) Kt := by
  simp only [k0_part9_eq_skeleton]; unfold k0_part9_skel
  simp only [Prog.lift, Prog.bind_op, Prog.bind_ret, Prog.pure_eq_ret]
  iintro ⟨⟨#HR, #Hlev, Hs6, Hb6, HtS6, HtR6, Hb7, HtS7, HtR7, HO, HF1, Hx1, ⟨%s7, Hs7⟩⟩, Hk⟩
  ihave Hh := (half_split (ℓ := sLoc c) (sendBand c 6) (T m c)).1 $$ Hs6
  icases Hh with ⟨HsL, Hs6⟩
  iapply (wp_xsend m K c _ (dev9_eq c) 6 fb6 (owedL ((xOwes c ++ yOwes c).drop 7)) W) $$ [HsL Hb6 HO HtS6 HtR6]
  · isplitr; · iexact HR
    isplitl [HsL]; · iexact HsL
    isplitl [Hb6]; · iexact Hb6
    isplitl [HO]; · iexact HO
    isplitl [HtS6]; · iexact HtS6
    iexact HtR6
  iintro ⟨Hc6, HO⟩
  iapply (wait1 m c (k0_off2 c (BitVec.ofNat 32 (1024 * (7 : Fin 8).val))) (k0_off2_inb c 7) hR g1 (owedL ((xOwes c ++ yOwes c).drop 7)) W (dstw := slot1M) rfl) $$ [HF1 Hx1 HO]
  · isplitl [HF1]; · iexact HF1
    isplitl [Hx1]; · iexact Hx1
    isplitl [HO]; · iexact HO
    iapply (mayWait_low c (.dma 1) (by decide) ((xOwes c ++ yOwes c).drop 7) (fun x hx => List.mem_of_mem_drop hx)); iexact Hlev
  iintro ⟨Hf1, Hx1, Hv1, ⟨%W7, HO⟩⟩
  have hband7 : sendBand c 7 = sRows ((k0_off2 c (BitVec.ofNat 32 (1024 * (7 : Fin 8).val))) 0) 1024 := by unfold sendBand; rw [congrFun (k0_off2_eq c 7) 0]; rfl
  rw [hband7]
  iapply (caststore1 m c (k0_off2 c (BitVec.ofNat 32 (1024 * (7 : Fin 8).val))) (k0_off3 c (BitVec.ofNat 32 (1024 * (7 : Fin 8).val))) (k0_off2_inb c 7) (k0_off3_inb c 7)
    ((k0_off3_eq c 7).trans (k0_off2_eq c 7).symm) (congrFun (k0_off2_eq c 7) 1) g1 s7 k0_pay8 (fun _ => rfl)) $$ [Hf1 Hs7]
  · isplitl [Hf1]; · iexact Hf1
    iexact Hs7
  iintro ⟨Hf1, Hs7⟩
  rw [← hband7]
  ihave Hh := (half_split (ℓ := sLoc c) (sendBand c 7) (T m c)).1 $$ Hs7
  icases Hh with ⟨HsL, Hs7⟩
  iapply (wp_xsend m K c _ (dev10_eq c) 7 fb7 (owedL (yOwes c)) W7) $$ [HsL Hb7 HO HtS7 HtR7]
  · isplitr; · iexact HR
    isplitl [HsL]; · iexact HsL
    isplitl [Hb7]; · iexact Hb7
    isplitl [HO]; · iexact HO
    isplitl [HtS7]; · iexact HtS7
    iexact HtR7
  iintro ⟨Hc7, HO⟩
  rw [wp_ret]; imodintro
  iapply Hk
  isplitl [Hc6]; · iexact Hc6
  isplitl [Hc7]; · iexact Hc7
  isplitl [Hs6]; · iexact Hs6
  isplitl [Hs7]; · iexact Hs7
  isplitl [HO]; · iexists W7; iexact HO
  isplitl [Hx1]; · iexact Hx1
  isplitl [Hf1]; · iexact Hf1
  iexact Hv1

/-- info: 'Cert.KernelIdeal.AG.partA2' depends on axioms: [propext, Classical.choice, Quot.sound] -/
#guard_msgs in #print axioms partA2

/-- info: 'Cert.KernelIdeal.AG.partA9' depends on axioms: [propext, Classical.choice, Quot.sound] -/
#guard_msgs in #print axioms partA9

end Cert.KernelIdeal.AG

end
-- ==== Proof.StageAMain.lean ====
import proofs.«900078_g7700000000000079_dist_ag_v7x_xy2x2_x_m16384_n1024_bf16_1_alg».proof.Proof.StageA
import proofs.«900078_g7700000000000079_dist_ag_v7x_xy2x2_x_m16384_n1024_bf16_1_alg».proof.Proof.StageAsib
import proofs.«900078_g7700000000000079_dist_ag_v7x_xy2x2_x_m16384_n1024_bf16_1_alg».proof.Proof.StageA29
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! The first stretch as one chain: the shard is split in two half shares and the staging buffer in its two slots, so that the
    copy into one slot can be in flight while the other slot's chunk is cast; part by part a chunk is sent and the next cast;
    at the end the halves and the slots are put back together. -/

set_option maxHeartbeats 4000000 in
/-- Parts 2–9: the sent half of the shard is cast chunk by chunk and each chunk sent across the first axis. -/
theorem stageA (K : Dev nD × CK → ℕ) (c : Dev nD) (W : Waits sig Unit) (v5 v6 v17 v22 : BitVec 32) (Q' : sProp (MT nD τ sig Unit (Elt F) ℕ UU ℕ)) :
    iprop(records m K ∗ levAts L lv ∗ preA m c W ∗ (postA m c -∗ Q'))
      ⊢ wp frame (wpE (defs₀ (F := F)) 𝒱₀ c none) Set.univ (k0_part2 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part3 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part4 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part5 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part6 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part7 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part8 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ =>
        wp frame (wpE (defs₀ (F := F)) 𝒱₀ c none) Set.univ (k0_part9 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v17 v22) fun _ => Q' := by
  unfold preA
  iintro ⟨#HR, #Hlev, ⟨⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩⟩, ⟨⟨HtS0, HtR0⟩, ⟨HtS1, HtR1⟩, ⟨HtS2, HtR2⟩, ⟨HtS3, HtR3⟩, ⟨HtS4, HtR4⟩, ⟨HtS5, HtR5⟩, ⟨HtS6, HtR6⟩, ⟨HtS7, HtR7⟩⟩, HO, Hx, ⟨%ff, Hf⟩, Hv0, Hv1, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩⟩⟩, Hk⟩
  -- the shard is held by halves, one for each staging slot's copies; the staging buffer by slots
  ihave Hx' := (half_split (ℓ := xLoc c) Finset.univ (m (xLoc c))).1 $$ Hx
  icases Hx' with ⟨HxL, HxR⟩
  ihave Hf' := (slot_split c ff).1 $$ Hf
  icases Hf' with ⟨Hf0, Hf1⟩
  -- part 2
  iapply (partA2 m K c v5 v6 v17 v22 (g0 := ff) (g1 := ff) (W := W) (Kt := _))
  isplitl [HxL HxR Hf0 Hf1 Hv0 Hv1 HO Hs0]
  · isplitr; · iexact Hlev
    isplitl [HxL]; · iexact HxL
    isplitl [HxR]; · iexact HxR
    isplitl [Hf0]; · iexact Hf0
    isplitl [Hf1]; · iexact Hf1
    isplitl [Hv0]; · iexact Hv0
    isplitl [Hv1]; · iexact Hv1
    isplitl [HO]; · iexact HO
    iexists s0; iexact Hs0
  iintro ⟨HF1, Hx1r, HxL, ⟨%g0a, Hf0⟩, Hv0, ⟨%W2, HO⟩, Hs0⟩
  -- part 3
  iapply (partA3 m K c v5 v6 v17 v22 (fb := fb0) (g0 := g0a) (g1 := ff) (W := W2) (Kt := _))
  isplitl [Hs0 Hb0 HtS0 HtR0 HO HxL Hf0 Hv0 HF1 Hx1r Hs1]
  · isplitr; · iexact HR
    isplitr; · iexact Hlev
    isplitl [Hs0]; · iexact Hs0
    isplitl [Hb0]; · iexact Hb0
    isplitl [HtS0]; · iexact HtS0
    isplitl [HtR0]; · iexact HtR0
    isplitl [HO]; · iexact HO
    isplitl [HxL]; · iexact HxL
    isplitl [Hf0]; · iexact Hf0
    isplitl [Hv0]; · iexact Hv0
    isplitl [HF1]; · iexact HF1
    isplitl [Hx1r]; · iexact Hx1r
    iexists s1; iexact Hs1
  iintro ⟨Hc0, HsR0, ⟨%W3, HO⟩, HF0, Hx0r, HxR, ⟨%g1_3, Hf1⟩, Hv1, Hs1⟩
  -- part 4
  iapply (partA4 m K c v5 v6 v17 v22 (fb := fb1) (g0 := g0a) (g1 := g1_3) (W := W3) (Kt := _))
  isplitl [Hs1 Hb1 HtS1 HtR1 HO HxR Hf1 Hv1 HF0 Hx0r Hs2]
  · isplitr; · iexact HR
    isplitr; · iexact Hlev
    isplitl [Hs1]; · iexact Hs1
    isplitl [Hb1]; · iexact Hb1
    isplitl [HtS1]; · iexact HtS1
    isplitl [HtR1]; · iexact HtR1
    isplitl [HO]; · iexact HO
    isplitl [HxR]; · iexact HxR
    isplitl [Hf1]; · iexact Hf1
    isplitl [Hv1]; · iexact Hv1
    isplitl [HF0]; · iexact HF0
    isplitl [Hx0r]; · iexact Hx0r
    iexists s2; iexact Hs2
  iintro ⟨Hc1, HsR1, ⟨%W4, HO⟩, HF1, Hx1r, HxL, ⟨%g0_4, Hf0⟩, Hv0, Hs2⟩
  -- part 5
  iapply (partA5 m K c v5 v6 v17 v22 (fb := fb2) (g0 := g0_4) (g1 := g1_3) (W := W4) (Kt := _))
  isplitl [Hs2 Hb2 HtS2 HtR2 HO HxL Hf0 Hv0 HF1 Hx1r Hs3]
  · isplitr; · iexact HR
    isplitr; · iexact Hlev
    isplitl [Hs2]; · iexact Hs2
    isplitl [Hb2]; · iexact Hb2
    isplitl [HtS2]; · iexact HtS2
    isplitl [HtR2]; · iexact HtR2
    isplitl [HO]; · iexact HO
    isplitl [HxL]; · iexact HxL
    isplitl [Hf0]; · iexact Hf0
    isplitl [Hv0]; · iexact Hv0
    isplitl [HF1]; · iexact HF1
    isplitl [Hx1r]; · iexact Hx1r
    iexists s3; iexact Hs3
  iintro ⟨Hc2, HsR2, ⟨%W5, HO⟩, HF0, Hx0r, HxR, ⟨%g1_5, Hf1⟩, Hv1, Hs3⟩
  -- part 6
  iapply (partA6 m K c v5 v6 v17 v22 (fb := fb3) (g0 := g0_4) (g1 := g1_5) (W := W5) (Kt := _))
  isplitl [Hs3 Hb3 HtS3 HtR3 HO HxR Hf1 Hv1 HF0 Hx0r Hs4]
  · isplitr; · iexact HR
    isplitr; · iexact Hlev
    isplitl [Hs3]; · iexact Hs3
    isplitl [Hb3]; · iexact Hb3
    isplitl [HtS3]; · iexact HtS3
    isplitl [HtR3]; · iexact HtR3
    isplitl [HO]; · iexact HO
    isplitl [HxR]; · iexact HxR
    isplitl [Hf1]; · iexact Hf1
    isplitl [Hv1]; · iexact Hv1
    isplitl [HF0]; · iexact HF0
    isplitl [Hx0r]; · iexact Hx0r
    iexists s4; iexact Hs4
  iintro ⟨Hc3, HsR3, ⟨%W6, HO⟩, HF1, Hx1r, HxL, ⟨%g0_6, Hf0⟩, Hv0, Hs4⟩
  -- part 7
  iapply (partA7 m K c v5 v6 v17 v22 (fb := fb4) (g0 := g0_6) (g1 := g1_5) (W := W6) (Kt := _))
  isplitl [Hs4 Hb4 HtS4 HtR4 HO HxL Hf0 Hv0 HF1 Hx1r Hs5]
  · isplitr; · iexact HR
    isplitr; · iexact Hlev
    isplitl [Hs4]; · iexact Hs4
    isplitl [Hb4]; · iexact Hb4
    isplitl [HtS4]; · iexact HtS4
    isplitl [HtR4]; · iexact HtR4
    isplitl [HO]; · iexact HO
    isplitl [HxL]; · iexact HxL
    isplitl [Hf0]; · iexact Hf0
    isplitl [Hv0]; · iexact Hv0
    isplitl [HF1]; · iexact HF1
    isplitl [Hx1r]; · iexact Hx1r
    iexists s5; iexact Hs5
  iintro ⟨Hc4, HsR4, ⟨%W7, HO⟩, HF0, Hx0r, HxR, ⟨%g1_7, Hf1⟩, Hv1, Hs5⟩
  -- part 8
  iapply (partA8 m K c v5 v6 v17 v22 (fb := fb5) (g0 := g0_6) (g1 := g1_7) (W := W7) (Kt := _))
  isplitl [Hs5 Hb5 HtS5 HtR5 HO HxR Hf1 Hv1 HF0 Hx0r Hs6]
  · isplitr; · iexact HR
    isplitr; · iexact Hlev
    isplitl [Hs5]; · iexact Hs5
    isplitl [Hb5]; · iexact Hb5
    isplitl [HtS5]; · iexact HtS5
    isplitl [HtR5]; · iexact HtR5
    isplitl [HO]; · iexact HO
    isplitl [HxR]; · iexact HxR
    isplitl [Hf1]; · iexact Hf1
    isplitl [Hv1]; · iexact Hv1
    isplitl [HF0]; · iexact HF0
    isplitl [Hx0r]; · iexact Hx0r
    iexists s6; iexact Hs6
  iintro ⟨Hc5, HsR5, ⟨%W8, HO⟩, HF1, Hx1r, HxL, ⟨%g0_8, Hf0⟩, Hv0, Hs6⟩
  -- part 9
  iapply (partA9 m K c v5 v6 v17 v22 (fb6 := fb6) (fb7 := fb7) (g1 := g1_7) (W := W8) (Kt := _))
  isplitl [Hs6 Hb6 HtS6 HtR6 Hb7 HtS7 HtR7 HO HF1 Hx1r Hs7]
  · isplitr; · iexact HR
    isplitr; · iexact Hlev
    isplitl [Hs6]; · iexact Hs6
    isplitl [Hb6]; · iexact Hb6
    isplitl [HtS6]; · iexact HtS6
    isplitl [HtR6]; · iexact HtR6
    isplitl [Hb7]; · iexact Hb7
    isplitl [HtS7]; · iexact HtS7
    isplitl [HtR7]; · iexact HtR7
    isplitl [HO]; · iexact HO
    isplitl [HF1]; · iexact HF1
    isplitl [Hx1r]; · iexact Hx1r
    iexists s7; iexact Hs7
  iintro ⟨Hc6, Hc7, HsR6, HsR7, ⟨%W9, HO⟩, HxR, ⟨%g1_9, Hf1⟩, Hv1⟩
  -- what the stretch leaves
  iapply Hk
  unfold postA
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [HsR0 HsR1 HsR2 HsR3 HsR4 HsR5 HsR6 HsR7]
  · isplitl [HsR0]; · iexact HsR0
    isplitl [HsR1]; · iexact HsR1
    isplitl [HsR2]; · iexact HsR2
    isplitl [HsR3]; · iexact HsR3
    isplitl [HsR4]; · iexact HsR4
    isplitl [HsR5]; · iexact HsR5
    isplitl [HsR6]; · iexact HsR6
    iexact HsR7
  isplitl [HO]; · iexists W9; iexact HO
  isplitl [HxL HxR]
  · iapply (half_split (ℓ := xLoc c) Finset.univ (m (xLoc c))).2
    isplitl [HxL]; · iexact HxL
    iexact HxR
  isplitl [Hf0 Hf1]
  · iapply (slot_join c g0_8 g1_9)
    isplitl [Hf0]; · iexact Hf0
    iexact Hf1
  isplitl [Hv0]; · iexact Hv0
  iexact Hv1

/-- info: 'Cert.KernelIdeal.AG.stageA' depends on axioms: [propext, Classical.choice, Quot.sound] -/
#guard_msgs in #print axioms stageA

end Cert.KernelIdeal.AG

end
-- ==== Proof.StageB.lean ====
import proofs.«900078_g7700000000000079_dist_ag_v7x_xy2x2_x_m16384_n1024_bf16_1_alg».proof.Proof.Stages
import proofs.«900078_g7700000000000079_dist_ag_v7x_xy2x2_x_m16384_n1024_bf16_1_alg».proof.Proof.Steps2
import proofs.«900078_g7700000000000079_dist_ag_v7x_xy2x2_x_m16384_n1024_bf16_1_alg».proof.Proof.Slots
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! The kept half of the shard is cast chunk by chunk through the two staging slots: the copy of chunk `k` goes into slot
    `k % 2`, borrowing from the left half share of the shard for slot 0 and from the right half for slot 1; the copy of the next
    chunk is started before the wait for this one. Once all eight kept bands hold the cast shard, the right halves of all sixteen
    bands of the scratch are joined and lent to the local copy onto the device's own band of the result. -/

/-! ## Offsets: the copy of kept chunk `k` reads the rows its store writes -/

theorem keep_he0 (c : Dev nD) : k0_off7 c (BitVec.ofNat 32 (1024 * (0 : Fin 8).val)) = k0_off5 c := by
  rw [k0_off7_eq c 0, k0_off5_eq c]; rfl

theorem keep_he (c : Dev nD) (k : Fin 8) (r : Fin 7) (h : k.val = r.val + 1) :
    k0_off7 c (BitVec.ofNat 32 (1024 * k.val)) = k0_off6 c (BitVec.ofNat 32 (1024 + 1024 * r.val)) := by
  rw [k0_off7_eq c k, k0_off6_eq c r, h]
  have e : (1024 * (r.val + 1) + 8192) - 8192 * (c.val % 2) = (1024 * r.val + 9216) - 8192 * (c.val % 2) := by omega
  rw [e]

/-! ## The two local waits may be made while the second-axis chunks are owed -/

theorem mw0 (c : Dev nD) :
    (levAts L lv : sProp (MT nD τ sig Unit (Elt F) ℕ UU ℕ)) ⊢ MayWait (c : Thread nD τ) (.dma (0 : DmaSem sig)) () (owedL (yOwes c)) :=
  mayWait_local c 0 8
theorem mw1 (c : Dev nD) :
    (levAts L lv : sProp (MT nD τ sig Unit (Elt F) ℕ UU ℕ)) ⊢ MayWait (c : Thread nD τ) (.dma (1 : DmaSem sig)) () (owedL (yOwes c)) :=
  mayWait_local c 1 8

/-! ## The two slots, whatever each holds, are the staging buffer -/

theorem f_join (c : Dev nD) :
    (iprop((∃ g, slot0M.view.loc (c : Thread nD τ) ↦[slotSet0]{fullShare} g) ∗ (∃ g, slot1M.view.loc (c : Thread nD τ) ↦[slotSet1]{fullShare} g))
        : sProp (MT nD τ sig Unit (Elt F) ℕ UU ℕ))
      ⊢ iprop(∃ f, fLoc c ↦{fullShare} f) := by
  iintro ⟨⟨%g0, H0⟩, ⟨%g1, H1⟩⟩
  ihave H := (pointsTo_join (ℓ := fLoc c) (q := fullShare) (f := g0) (g := g1) slot_disjoint) $$ [H0 H1]
  · isplitl [H0]; · iexact H0
    iexact H1
  rw [slot_cover]
  iexists _; iexact H

/-! ## A kept chunk cast and stored -/

set_option maxHeartbeats 1600000 in
set_option maxRecDepth 8000 in
/-- Kept chunk `k`, landed in slot 0, read back, cast and stored: the kept band `k` of the scratch holds the cast shard. -/
theorem cs0 (c : Dev nD) (k : Fin 8) (off : Fin 2 → ℕ) (inbx : ∀ a, off a + S1024x1024.size a ≤ S16384x1024.size a)
    (he : k0_off7 c (BitVec.ofNat 32 (1024 * k.val)) = off)
    (fd : Buf (Elt F) (slot0M.view.loc (c : Thread nD τ))) (f : Buf (Elt F) (sLoc c))
    (pay : Vec F S1x1024x1024 .f32 → FVec F S1024x1024 .bf16)
    (hpay : ∀ v, pay v = shapeCast S1024x1024 (truncf .bf16 (shapeCast S1024x1024 v shapeCasts_S1x1024x1024_S1024x1024) bitsLt_bf16_f32) shapeCasts_S1024x1024_S1024x1024)
    {hl0 hl1 hx hm} {α : Type} {Q : α → sProp (MT nD τ sig Unit (Elt F) ℕ UU ℕ)} {k' : PUnit → Prog (TpuEff nD τ sig (Elt F) Λ₀ .tc) α} :
    iprop((slot0M.view.loc (c : Thread nD τ) ↦[slotSet0]{fullShare} (slot0M.view.write (Elt F) fd ((xsl off inbx).view.read (Elt F) (m (xLoc c))) Finset.univ))
        ∗ (sLoc c ↦[keepBand c k]{fullShare} f))
      ⊢ iprop((((∃ g, slot0M.view.loc (c : Thread nD τ) ↦[slotSet0]{fullShare} g) ∗ (sLoc c ↦[keepBand c k]{fullShare} T m c))
              -∗ wp frame (wpE (defs₀ (F := F)) 𝒱₀ (c : Thread nD τ) none) Set.univ (k' ⟨⟩) Q)
          -∗ wp frame (wpE (defs₀ (F := F)) 𝒱₀ (c : Thread nD τ) none) Set.univ
              (.op (.load fM (Rect.unit (s := S2x1024x1024) ![0, 0, 0] S1x1024x1024.size inb_S2x1024x1024_S1x1024x1024_0_0_0).toLoadRect hl0) fun v =>
                .op (.load sM (Rect.unit (s := S16384x1024) (k0_off7 c (BitVec.ofNat 32 (1024 * k.val))) S1024x1024.size (k0_off7_inb c k)).toLoadRect hl1) fun _ =>
                .op (.store sM (Rect.unit (s := S16384x1024) (k0_off7 c (BitVec.ofNat 32 (1024 * k.val))) S1024x1024.size (k0_off7_inb c k)) (pay v) Finset.univ hx hm) k') Q) := by
  have h1 : off 1 = 0 := by rw [← he]; exact congrFun (k0_off7_eq c k) 1
  have hb : sRows (off 0) 1024 = keepBand c k := by rw [← he, congrFun (k0_off7_eq c k) 0]; rfl
  rw [← hb]
  exact caststore0 m c off (k0_off7 c (BitVec.ofNat 32 (1024 * k.val))) inbx (k0_off7_inb c k) he h1 fd f pay hpay

set_option maxHeartbeats 1600000 in
set_option maxRecDepth 8000 in
/-- Kept chunk `k`, landed in slot 1, read back, cast and stored: the kept band `k` of the scratch holds the cast shard. -/
theorem cs1 (c : Dev nD) (k : Fin 8) (off : Fin 2 → ℕ) (inbx : ∀ a, off a + S1024x1024.size a ≤ S16384x1024.size a)
    (he : k0_off7 c (BitVec.ofNat 32 (1024 * k.val)) = off)
    (fd : Buf (Elt F) (slot1M.view.loc (c : Thread nD τ))) (f : Buf (Elt F) (sLoc c))
    (pay : Vec F S1x1024x1024 .f32 → FVec F S1024x1024 .bf16)
    (hpay : ∀ v, pay v = shapeCast S1024x1024 (truncf .bf16 (shapeCast S1024x1024 v shapeCasts_S1x1024x1024_S1024x1024) bitsLt_bf16_f32) shapeCasts_S1024x1024_S1024x1024)
    {hl0 hl1 hx hm} {α : Type} {Q : α → sProp (MT nD τ sig Unit (Elt F) ℕ UU ℕ)} {k' : PUnit → Prog (TpuEff nD τ sig (Elt F) Λ₀ .tc) α} :
    iprop((slot1M.view.loc (c : Thread nD τ) ↦[slotSet1]{fullShare} (slot1M.view.write (Elt F) fd ((xsl off inbx).view.read (Elt F) (m (xLoc c))) Finset.univ))
        ∗ (sLoc c ↦[keepBand c k]{fullShare} f))
      ⊢ iprop((((∃ g, slot1M.view.loc (c : Thread nD τ) ↦[slotSet1]{fullShare} g) ∗ (sLoc c ↦[keepBand c k]{fullShare} T m c))
              -∗ wp frame (wpE (defs₀ (F := F)) 𝒱₀ (c : Thread nD τ) none) Set.univ (k' ⟨⟩) Q)
          -∗ wp frame (wpE (defs₀ (F := F)) 𝒱₀ (c : Thread nD τ) none) Set.univ
              (.op (.load fM (Rect.unit (s := S2x1024x1024) ![1, 0, 0] S1x1024x1024.size inb_S2x1024x1024_S1x1024x1024_1_0_0).toLoadRect hl0) fun v =>
                .op (.load sM (Rect.unit (s := S16384x1024) (k0_off7 c (BitVec.ofNat 32 (1024 * k.val))) S1024x1024.size (k0_off7_inb c k)).toLoadRect hl1) fun _ =>
                .op (.store sM (Rect.unit (s := S16384x1024) (k0_off7 c (BitVec.ofNat 32 (1024 * k.val))) S1024x1024.size (k0_off7_inb c k)) (pay v) Finset.univ hx hm) k') Q) := by
  have h1 : off 1 = 0 := by rw [← he]; exact congrFun (k0_off7_eq c k) 1
  have hb : sRows (off 0) 1024 = keepBand c k := by rw [← he, congrFun (k0_off7_eq c k) 0]; rfl
  rw [← hb]
  exact caststore1 m c off (k0_off7 c (BitVec.ofNat 32 (1024 * k.val))) inbx (k0_off7_inb c k) he h1 fd f pay hpay

/-! ## The whole scratch starts its copy onto the own band -/

theorem set_sM : (sM.view.set : Finset S16384x1024.Idx) = Finset.univ := View.set_whole cc0_scratch0

set_option maxHeartbeats 1600000 in
/-- With all eight kept bands cast, each is cut into its two half shares; the right halves of the sixteen bands are the right half of
    the whole scratch, which is lent to the copy onto the own band. -/
theorem finishB (c : Dev nD) (fo : Buf (Elt F) (oLoc c))
    {hsrc hdst hsem} {α : Type} {Q : α → sProp (MT nD τ sig Unit (Elt F) ℕ UU ℕ)} {k : PUnit → Prog (TpuEff nD τ sig (Elt F) Λ₀ .tc) α} :
    iprop((conj8 fun k => sLoc c ↦[keepBand c k]{fullShare} T m c) ∗ (conj8 fun k => sLoc c ↦[sendBand c k]{hR} T m c)
        ∗ (oLoc c ↦[ownBand c]{fullShare} fo) ∗ semVal ((c : Thread nD τ), .dma 2) 0)
      ⊢ iprop((((conj8 fun k => sLoc c ↦[keepBand c k]{hL} T m c) ∗ storeFlight m c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.here (ownM c)) (.dma (2 : DmaSem sig)) hsrc hdst hsem) k) Q) := by
  iintro ⟨⟨K0, K1, K2, K3, K4, K5, K6, K7⟩, Hsend, Ho, Hv2⟩ Hk
  ihave H0 := (half_split (ℓ := sLoc c) (keepBand c 0) (T m c)).1 $$ K0; icases H0 with ⟨L0, R0⟩
  ihave H1 := (half_split (ℓ := sLoc c) (keepBand c 1) (T m c)).1 $$ K1; icases H1 with ⟨L1, R1⟩
  ihave H2 := (half_split (ℓ := sLoc c) (keepBand c 2) (T m c)).1 $$ K2; icases H2 with ⟨L2, R2⟩
  ihave H3 := (half_split (ℓ := sLoc c) (keepBand c 3) (T m c)).1 $$ K3; icases H3 with ⟨L3, R3⟩
  ihave H4 := (half_split (ℓ := sLoc c) (keepBand c 4) (T m c)).1 $$ K4; icases H4 with ⟨L4, R4⟩
  ihave H5 := (half_split (ℓ := sLoc c) (keepBand c 5) (T m c)).1 $$ K5; icases H5 with ⟨L5, R5⟩
  ihave H6 := (half_split (ℓ := sLoc c) (keepBand c 6) (T m c)).1 $$ K6; icases H6 with ⟨L6, R6⟩
  ihave H7 := (half_split (ℓ := sLoc c) (keepBand c 7) (T m c)).1 $$ K7; icases H7 with ⟨L7, R7⟩
  ihave Hs := (s_split c hR (T m c)).2 $$ [Hsend R0 R1 R2 R3 R4 R5 R6 R7]
  · rw [bigSep_conj8, bigSep_conj8]
    isplitl [Hsend]; · iexact Hsend
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  iapply (wp_dmaLocal EC 𝒱₀ (c : Thread nD τ) none (src := sM) (dst := ownM c) (sm := .dma 2) (q := hR) (fs := T m c)
    (Sd := ownBand c) (fd := fo) () (Ns c) rfl (View.dmaCredit_pos _ (by decide)) (by rw [set_off8])) $$ [Hs Ho Hv2]
  · rw [set_sM]
    isplitl [Hs]; · iexact Hs
    isplitl [Ho]; · iexact Ho
    iexact Hv2
  iintro HF
  iapply Hk
  isplitl [L0 L1 L2 L3 L4 L5 L6 L7]
  · isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  unfold storeFlight
  iexists fo
  rw [set_sM]
  iexact HF

set_option maxHeartbeats 6400000 in
set_option maxRecDepth 16000 in
/-- Stretch B. -/
theorem stageB (K : Dev nD × CK → ℕ) (c : Dev nD) (W : Waits sig Unit) (v2 v19 : BitVec 32) (Q' : sProp (MT nD τ sig Unit (Elt F) ℕ UU ℕ)) :
    iprop(records m K ∗ levAts L lv ∗ preB m c W ∗ (postB m c -∗ Q'))
      ⊢ wp frame (wpE (defs₀ (F := F)) 𝒱₀ c none) Set.univ (k0_part10 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v19) fun _ =>
        wp frame (wpE (defs₀ (F := F)) 𝒱₀ c none) Set.univ (k0_part11 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v19) fun _ =>
        wp frame (wpE (defs₀ (F := F)) 𝒱₀ c none) Set.univ (k0_part12 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v19) fun _ =>
        wp frame (wpE (defs₀ (F := F)) 𝒱₀ c none) Set.univ (k0_part13 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v19) fun _ =>
        wp frame (wpE (defs₀ (F := F)) 𝒱₀ c none) Set.univ (k0_part14 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v19) fun _ => Q' := by
  unfold preB
  iintro ⟨#HR, #Hlev, ⟨HO, Hx, ⟨%ff, Hf⟩, Hv0, Hv1, Hv2,
    ⟨⟨%s0, Hk0⟩, ⟨%s1, Hk1⟩, ⟨%s2, Hk2⟩, ⟨%s3, Hk3⟩, ⟨%s4, Hk4⟩, ⟨%s5, Hk5⟩, ⟨%s6, Hk6⟩, ⟨%s7, Hk7⟩⟩, Hsend, ⟨%fo, Hown⟩⟩, HQ⟩
  -- the shard in two half shares, the staging buffer in its two slots
  ihave Hxx := (half_split (ℓ := xLoc c) Finset.univ (m (xLoc c))).1 $$ Hx
  icases Hxx with ⟨Hx0, Hx1⟩
  ihave Hff := (slot_split c ff).1 $$ Hf
  icases Hff with ⟨Hf0, Hf1⟩
  -- part 10: the copies of kept chunks 0 and 1 start; chunk 0 is waited for, cast and stored; chunk 2's copy starts
  simp only [k0_part10_eq_skeleton]; unfold k0_part10_skel
  simp only [Prog.lift, Prog.bind_op, Prog.bind_ret, Prog.pure_eq_ret]
  iapply (start0 m c (k0_off5 c) (k0_off5_inb c) hL ff) $$ [Hx0 Hf0 Hv0]
  · isplitl [Hx0]; · iexact Hx0
    isplitl [Hf0]; · iexact Hf0
    iexact Hv0
  iintro ⟨HF0, Hx0⟩
  iapply (start1 m c (k0_off6 c (BitVec.ofNat 32 (1024 + 1024 * (0 : Fin 7).val))) (k0_off6_inb c 0) hR ff) $$ [Hx1 Hf1 Hv1]
  · isplitl [Hx1]; · iexact Hx1
    isplitl [Hf1]; · iexact Hf1
    iexact Hv1
  iintro ⟨HF1, Hx1⟩
  iapply (wait0 m c (k0_off5 c) (k0_off5_inb c) hL ff (owedL (yOwes c)) W (dstw := slot0M) rfl) $$ [HF0 Hx0 HO]
  · isplitl [HF0]; · iexact HF0
    isplitl [Hx0]; · iexact Hx0
    isplitl [HO]; · iexact HO
    iapply (mw0 c); iexact Hlev
  iintro ⟨Hf0, Hx0, Hv0, ⟨%W0, HO⟩⟩
  iapply (cs0 m c 0 (k0_off5 c) (k0_off5_inb c) (keep_he0 c) ff s0 k0_pay9 (fun _ => rfl)) $$ [Hf0 Hk0]
  · isplitl [Hf0]; · iexact Hf0
    iexact Hk0
  iintro ⟨⟨%g0, Hf0⟩, Hk0⟩
  iapply (start0 m c (k0_off6 c (BitVec.ofNat 32 (1024 + 1024 * (1 : Fin 7).val))) (k0_off6_inb c 1) hL g0) $$ [Hx0 Hf0 Hv0]
  · isplitl [Hx0]; · iexact Hx0
    isplitl [Hf0]; · iexact Hf0
    iexact Hv0
  iintro ⟨HF0, Hx0⟩
  rw [wp_ret]; imodintro
  -- part 11: chunk 1 is waited for, cast and stored; chunk 3's copy starts; chunk 2 is waited for, cast and stored
  simp only [k0_part11_eq_skeleton]; unfold k0_part11_skel
  simp only [Prog.lift, Prog.bind_op, Prog.bind_ret, Prog.pure_eq_ret]
  iapply (wait1 m c (k0_off6 c (BitVec.ofNat 32 (1024 + 1024 * (0 : Fin 7).val))) (k0_off6_inb c 0) hR ff (owedL (yOwes c)) W0 (dstw := slot1M) rfl) $$ [HF1 Hx1 HO]
  · isplitl [HF1]; · iexact HF1
    isplitl [Hx1]; · iexact Hx1
    isplitl [HO]; · iexact HO
    iapply (mw1 c); iexact Hlev
  iintro ⟨Hf1, Hx1, Hv1, ⟨%W1, HO⟩⟩
  iapply (cs1 m c 1 (k0_off6 c (BitVec.ofNat 32 (1024 + 1024 * (0 : Fin 7).val))) (k0_off6_inb c 0) (keep_he c 1 0 rfl) ff s1 k0_pay10 (fun _ => rfl)) $$ [Hf1 Hk1]
  · isplitl [Hf1]; · iexact Hf1
    iexact Hk1
  iintro ⟨⟨%g1, Hf1⟩, Hk1⟩
  iapply (start1 m c (k0_off6 c (BitVec.ofNat 32 (1024 + 1024 * (2 : Fin 7).val))) (k0_off6_inb c 2) hR g1) $$ [Hx1 Hf1 Hv1]
  · isplitl [Hx1]; · iexact Hx1
    isplitl [Hf1]; · iexact Hf1
    iexact Hv1
  iintro ⟨HF1, Hx1⟩
  iapply (wait0 m c (k0_off6 c (BitVec.ofNat 32 (1024 + 1024 * (1 : Fin 7).val))) (k0_off6_inb c 1) hL g0 (owedL (yOwes c)) W1 (dstw := slot0M) rfl) $$ [HF0 Hx0 HO]
  · isplitl [HF0]; · iexact HF0
    isplitl [Hx0]; · iexact Hx0
    isplitl [HO]; · iexact HO
    iapply (mw0 c); iexact Hlev
  iintro ⟨Hf0, Hx0, Hv0, ⟨%W2, HO⟩⟩
  iapply (cs0 m c 2 (k0_off6 c (BitVec.ofNat 32 (1024 + 1024 * (1 : Fin 7).val))) (k0_off6_inb c 1) (keep_he c 2 1 rfl) g0 s2 k0_pay11 (fun _ => rfl)) $$ [Hf0 Hk2]
  · isplitl [Hf0]; · iexact Hf0
    iexact Hk2
  iintro ⟨⟨%g2, Hf0⟩, Hk2⟩
  rw [wp_ret]; imodintro
  -- part 12: chunk 4's copy starts; chunk 3 is waited for, cast and stored; chunk 5's copy starts; chunk 4 is waited for
  simp only [k0_part12_eq_skeleton]; unfold k0_part12_skel
  simp only [Prog.lift, Prog.bind_op, Prog.bind_ret, Prog.pure_eq_ret]
  iapply (start0 m c (k0_off6 c (BitVec.ofNat 32 (1024 + 1024 * (3 : Fin 7).val))) (k0_off6_inb c 3) hL g2) $$ [Hx0 Hf0 Hv0]
  · isplitl [Hx0]; · iexact Hx0
    isplitl [Hf0]; · iexact Hf0
    iexact Hv0
  iintro ⟨HF0, Hx0⟩
  iapply (wait1 m c (k0_off6 c (BitVec.ofNat 32 (1024 + 1024 * (2 : Fin 7).val))) (k0_off6_inb c 2) hR g1 (owedL (yOwes c)) W2 (dstw := slot1M) rfl) $$ [HF1 Hx1 HO]
  · isplitl [HF1]; · iexact HF1
    isplitl [Hx1]; · iexact Hx1
    isplitl [HO]; · iexact HO
    iapply (mw1 c); iexact Hlev
  iintro ⟨Hf1, Hx1, Hv1, ⟨%W3, HO⟩⟩
  iapply (cs1 m c 3 (k0_off6 c (BitVec.ofNat 32 (1024 + 1024 * (2 : Fin 7).val))) (k0_off6_inb c 2) (keep_he c 3 2 rfl) g1 s3 k0_pay12 (fun _ => rfl)) $$ [Hf1 Hk3]
  · isplitl [Hf1]; · iexact Hf1
    iexact Hk3
  iintro ⟨⟨%g3, Hf1⟩, Hk3⟩
  iapply (start1 m c (k0_off6 c (BitVec.ofNat 32 (1024 + 1024 * (4 : Fin 7).val))) (k0_off6_inb c 4) hR g3) $$ [Hx1 Hf1 Hv1]
  · isplitl [Hx1]; · iexact Hx1
    isplitl [Hf1]; · iexact Hf1
    iexact Hv1
  iintro ⟨HF1, Hx1⟩
  iapply (wait0 m c (k0_off6 c (BitVec.ofNat 32 (1024 + 1024 * (3 : Fin 7).val))) (k0_off6_inb c 3) hL g2 (owedL (yOwes c)) W3 (dstw := slot0M) rfl) $$ [HF0 Hx0 HO]
  · isplitl [HF0]; · iexact HF0
    isplitl [Hx0]; · iexact Hx0
    isplitl [HO]; · iexact HO
    iapply (mw0 c); iexact Hlev
  iintro ⟨Hf0, Hx0, Hv0, ⟨%W4, HO⟩⟩
  rw [wp_ret]; imodintro
  -- part 13: chunk 4 is cast and stored; chunk 6's copy starts; chunk 5 is waited for, cast and stored
  simp only [k0_part13_eq_skeleton]; unfold k0_part13_skel
  simp only [Prog.lift, Prog.bind_op, Prog.bind_ret, Prog.pure_eq_ret]
  iapply (cs0 m c 4 (k0_off6 c (BitVec.ofNat 32 (1024 + 1024 * (3 : Fin 7).val))) (k0_off6_inb c 3) (keep_he c 4 3 rfl) g2 s4 k0_pay13 (fun _ => rfl)) $$ [Hf0 Hk4]
  · isplitl [Hf0]; · iexact Hf0
    iexact Hk4
  iintro ⟨⟨%g4, Hf0⟩, Hk4⟩
  iapply (start0 m c (k0_off6 c (BitVec.ofNat 32 (1024 + 1024 * (5 : Fin 7).val))) (k0_off6_inb c 5) hL g4) $$ [Hx0 Hf0 Hv0]
  · isplitl [Hx0]; · iexact Hx0
    isplitl [Hf0]; · iexact Hf0
    iexact Hv0
  iintro ⟨HF0, Hx0⟩
  iapply (wait1 m c (k0_off6 c (BitVec.ofNat 32 (1024 + 1024 * (4 : Fin 7).val))) (k0_off6_inb c 4) hR g3 (owedL (yOwes c)) W4 (dstw := slot1M) rfl) $$ [HF1 Hx1 HO]
  · isplitl [HF1]; · iexact HF1
    isplitl [Hx1]; · iexact Hx1
    isplitl [HO]; · iexact HO
    iapply (mw1 c); iexact Hlev
  iintro ⟨Hf1, Hx1, Hv1, ⟨%W5, HO⟩⟩
  iapply (cs1 m c 5 (k0_off6 c (BitVec.ofNat 32 (1024 + 1024 * (4 : Fin 7).val))) (k0_off6_inb c 4) (keep_he c 5 4 rfl) g3 s5 k0_pay14 (fun _ => rfl)) $$ [Hf1 Hk5]
  · isplitl [Hf1]; · iexact Hf1
    iexact Hk5
  iintro ⟨⟨%g5, Hf1⟩, Hk5⟩
  rw [wp_ret]; imodintro
  -- part 14: chunk 7's copy starts; chunks 6 and 7 are waited for, cast and stored; the whole scratch starts its copy onto the own band
  simp only [k0_part14_eq_skeleton]; unfold k0_part14_skel
  simp only [Prog.lift, Prog.bind_op, Prog.bind_ret, Prog.pure_eq_ret]
  iapply (start1 m c (k0_off6 c (BitVec.ofNat 32 (1024 + 1024 * (6 : Fin 7).val))) (k0_off6_inb c 6) hR g5) $$ [Hx1 Hf1 Hv1]
  · isplitl [Hx1]; · iexact Hx1
    isplitl [Hf1]; · iexact Hf1
    iexact Hv1
  iintro ⟨HF1, Hx1⟩
  iapply (wait0 m c (k0_off6 c (BitVec.ofNat 32 (1024 + 1024 * (5 : Fin 7).val))) (k0_off6_inb c 5) hL g4 (owedL (yOwes c)) W5 (dstw := slot0M) rfl) $$ [HF0 Hx0 HO]
  · isplitl [HF0]; · iexact HF0
    isplitl [Hx0]; · iexact Hx0
    isplitl [HO]; · iexact HO
    iapply (mw0 c); iexact Hlev
  iintro ⟨Hf0, Hx0, Hv0, ⟨%W6, HO⟩⟩
  iapply (cs0 m c 6 (k0_off6 c (BitVec.ofNat 32 (1024 + 1024 * (5 : Fin 7).val))) (k0_off6_inb c 5) (keep_he c 6 5 rfl) g4 s6 k0_pay15 (fun _ => rfl)) $$ [Hf0 Hk6]
  · isplitl [Hf0]; · iexact Hf0
    iexact Hk6
  iintro ⟨⟨%g6, Hf0⟩, Hk6⟩
  iapply (wait1 m c (k0_off6 c (BitVec.ofNat 32 (1024 + 1024 * (6 : Fin 7).val))) (k0_off6_inb c 6) hR g5 (owedL (yOwes c)) W6 (dstw := slot1M) rfl) $$ [HF1 Hx1 HO]
  · isplitl [HF1]; · iexact HF1
    isplitl [Hx1]; · iexact Hx1
    isplitl [HO]; · iexact HO
    iapply (mw1 c); iexact Hlev
  iintro ⟨Hf1, Hx1, Hv1, ⟨%W7, HO⟩⟩
  iapply (cs1 m c 7 (k0_off6 c (BitVec.ofNat 32 (1024 + 1024 * (6 : Fin 7).val))) (k0_off6_inb c 6) (keep_he c 7 6 rfl) g5 s7 k0_pay16 (fun _ => rfl)) $$ [Hf1 Hk7]
  · isplitl [Hf1]; · iexact Hf1
    iexact Hk7
  iintro ⟨⟨%g7, Hf1⟩, Hk7⟩
  iapply (finishB m c fo) $$ [Hk0 Hk1 Hk2 Hk3 Hk4 Hk5 Hk6 Hk7 Hsend Hown Hv2]
  · isplitl [Hk0 Hk1 Hk2 Hk3 Hk4 Hk5 Hk6 Hk7]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      iexact Hk7
    isplitl [Hsend]; · iexact Hsend
    isplitl [Hown]; · iexact Hown
    iexact Hv2
  iintro ⟨HkL, HSF⟩
  rw [wp_ret]; imodintro
  -- the halves of the shard and the two slots are put back together
  iapply HQ
  unfold postB
  isplitl [HO]; · iexists W7; iexact HO
  isplitl [Hx0 Hx1]
  · iapply (half_split (ℓ := xLoc c) Finset.univ (m (xLoc c))).2
    isplitl [Hx0]; · iexact Hx0
    iexact Hx1
  isplitl [Hf0 Hf1]
  · iapply (f_join c)
    isplitl [Hf0]; · iexists g6; iexact Hf0
    iexists g7; iexact Hf1
  isplitl [Hv0]; · iexact Hv0
  isplitl [Hv1]; · iexact Hv1
  isplitl [HkL]; · iexact HkL
  iexact HSF

/-- info: 'Cert.KernelIdeal.AG.stageB' depends on axioms: [propext, Classical.choice, Quot.sound] -/
#guard_msgs in #print axioms stageB

end Cert.KernelIdeal.AG

end
-- ==== Proof.StageC.lean ====
import proofs.«900078_g7700000000000079_dist_ag_v7x_xy2x2_x_m16384_n1024_bf16_1_alg».proof.Proof.Stages
import proofs.«900078_g7700000000000079_dist_ag_v7x_xy2x2_x_m16384_n1024_bf16_1_alg».proof.Proof.Steps2
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! The third stretch of the body: each chunk received across the first axis is waited for and forwarded across the second.
    The wait on chunk `k`'s receive cell hands the device that band of its result, landed; the forward lends the left half of
    it and gives the same rows of `yn c`'s result, paying the `k`-th second-axis chunk the device owes. All eight receives are
    waited; chunks 0–6 are forwarded. -/

set_option maxHeartbeats 6400000 in
set_option maxRecDepth 65536 in
theorem stageC (K : Dev nD × CK → ℕ) (c : Dev nD) (W : Waits sig Unit) (v2 v5 v6 v7 v25 : BitVec 32) (Q' : sProp (MT nD τ sig Unit (Elt F) ℕ UU ℕ)) :
    iprop(records m K ∗ levAts L lv ∗ preC (F := F) c W ∗ (postC m c -∗ Q'))
      ⊢ wp frame (wpE (defs₀ (F := F)) 𝒱₀ c none) Set.univ (k0_part15 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v25) fun v456 =>
        wp frame (wpE (defs₀ (F := F)) 𝒱₀ c none) Set.univ (k0_part16 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v25 v456) fun x =>
        wp frame (wpE (defs₀ (F := F)) 𝒱₀ c none) Set.univ (k0_part17 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v25 x.1 x.2) fun _ =>
        wp frame (wpE (defs₀ (F := F)) 𝒱₀ c none) Set.univ (k0_part18 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v25) fun _ =>
        wp frame (wpE (defs₀ (F := F)) 𝒱₀ c none) Set.univ (k0_part19 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v25) fun _ => Q' := by
  simp only [k0_part15_eq_skeleton]; unfold k0_part15_skel
  simp only [Prog.lift, Prog.bind_op, Prog.bind_ret, Prog.pure_eq_ret]
  unfold preC conj8
  iintro ⟨#HR, #Hlev, ⟨⟨Hd0, Hd1, Hd2, Hd3, Hd4, Hd5, Hd6, Hd7⟩, ⟨⟨Hc0, Hat0, Hs0, Hr0⟩, ⟨Hc1, Hat1, Hs1, Hr1⟩, ⟨Hc2, Hat2, Hs2, Hr2⟩, ⟨Hc3, Hat3, Hs3, Hr3⟩,
    ⟨Hc4, Hat4, Hs4, Hr4⟩, ⟨Hc5, Hat5, Hs5, Hr5⟩, ⟨Hc6, Hat6, Hs6, Hr6⟩, ⟨Hc7, Hat7, Hs7, Hr7⟩⟩, HO⟩, Hk⟩
  -- the wait on chunk 0's receive
  iapply (wp_wait_xr m K c (0 : Fin 8) (credit_xdst c (0 : Fin 8)) (owedL ((yOwes c).drop 0)) _) $$ [Hc0 HO Hat0]
  · isplitr; · iexact HR
    isplitl [Hc0]; · iexact Hc0
    isplitl [HO]; · iexact HO
    isplitr; · iapply (mayWait_xr c (0 : Fin 8) 0); iexact Hlev
    iexact Hat0
  iintro ⟨HO, Hat0, Hp0⟩
  -- the forward of chunk 0
  unfold xrPay
  ihave Hh0 := (half_split (ℓ := oLoc c) (xrBand c (0 : Fin 8)) (R m c)).1 $$ Hp0
  icases Hh0 with ⟨HL0, HR0⟩
  icases Hd0 with ⟨%fd0, Hd0⟩
  iapply (wp_ysend m K c _ (dev11_eq c) (0 : Fin 8) fd0 (owedL ((yOwes c).drop 1)) _) $$ [HL0 Hd0 HO Hs0 Hr0]
  · isplitr; · iexact HR
    isplitl [HL0]; · iexact HL0
    isplitl [Hd0]; · iexact Hd0
    isplitl [HO]; · iexact HO
    isplitl [Hs0] <;> iassumption
  iintro ⟨Hy0, HO⟩
  -- the wait on chunk 1's receive
  iapply (wp_wait_xr m K c (1 : Fin 8) (credit_xdst c (1 : Fin 8)) (owedL ((yOwes c).drop 1)) _) $$ [Hc1 HO Hat1]
  · isplitr; · iexact HR
    isplitl [Hc1]; · iexact Hc1
    isplitl [HO]; · iexact HO
    isplitr; · iapply (mayWait_xr c (1 : Fin 8) 1); iexact Hlev
    iexact Hat1
  iintro ⟨HO, Hat1, Hp1⟩
  rw [wp_ret]; imodintro
  simp only [k0_part16_eq_skeleton]; unfold k0_part16_skel
  simp only [Prog.lift, Prog.bind_op, Prog.bind_ret, Prog.pure_eq_ret]
  -- the forward of chunk 1
  unfold xrPay
  ihave Hh1 := (half_split (ℓ := oLoc c) (xrBand c (1 : Fin 8)) (R m c)).1 $$ Hp1
  icases Hh1 with ⟨HL1, HR1⟩
  icases Hd1 with ⟨%fd1, Hd1⟩
  iapply (wp_ysend m K c _ (dev12_eq c) (1 : Fin 8) fd1 (owedL ((yOwes c).drop 2)) _) $$ [HL1 Hd1 HO Hs1 Hr1]
  · isplitr; · iexact HR
    isplitl [HL1]; · iexact HL1
    isplitl [Hd1]; · iexact Hd1
    isplitl [HO]; · iexact HO
    isplitl [Hs1] <;> iassumption
  iintro ⟨Hy1, HO⟩
  -- the wait on chunk 2's receive
  iapply (wp_wait_xr m K c (2 : Fin 8) (credit_xdst c (2 : Fin 8)) (owedL ((yOwes c).drop 2)) _) $$ [Hc2 HO Hat2]
  · isplitr; · iexact HR
    isplitl [Hc2]; · iexact Hc2
    isplitl [HO]; · iexact HO
    isplitr; · iapply (mayWait_xr c (2 : Fin 8) 2); iexact Hlev
    iexact Hat2
  iintro ⟨HO, Hat2, Hp2⟩
  -- the forward of chunk 2
  unfold xrPay
  ihave Hh2 := (half_split (ℓ := oLoc c) (xrBand c (2 : Fin 8)) (R m c)).1 $$ Hp2
  icases Hh2 with ⟨HL2, HR2⟩
  icases Hd2 with ⟨%fd2, Hd2⟩
  iapply (wp_ysend m K c _ (dev13_eq c) (2 : Fin 8) fd2 (owedL ((yOwes c).drop 3)) _) $$ [HL2 Hd2 HO Hs2 Hr2]
  · isplitr; · iexact HR
    isplitl [HL2]; · iexact HL2
    isplitl [Hd2]; · iexact Hd2
    isplitl [HO]; · iexact HO
    isplitl [Hs2] <;> iassumption
  iintro ⟨Hy2, HO⟩
  rw [wp_ret]; imodintro
  simp only [k0_part17_eq_skeleton]; unfold k0_part17_skel
  simp only [Prog.lift, Prog.bind_op, Prog.bind_ret, Prog.pure_eq_ret]
  -- the wait on chunk 3's receive
  iapply (wp_wait_xr m K c (3 : Fin 8) (credit_xdst c (3 : Fin 8)) (owedL ((yOwes c).drop 3)) _) $$ [Hc3 HO Hat3]
  · isplitr; · iexact HR
    isplitl [Hc3]; · iexact Hc3
    isplitl [HO]; · iexact HO
    isplitr; · iapply (mayWait_xr c (3 : Fin 8) 3); iexact Hlev
    iexact Hat3
  iintro ⟨HO, Hat3, Hp3⟩
  -- the forward of chunk 3
  unfold xrPay
  ihave Hh3 := (half_split (ℓ := oLoc c) (xrBand c (3 : Fin 8)) (R m c)).1 $$ Hp3
  icases Hh3 with ⟨HL3, HR3⟩
  icases Hd3 with ⟨%fd3, Hd3⟩
  iapply (wp_ysend m K c _ (dev14_eq c) (3 : Fin 8) fd3 (owedL ((yOwes c).drop 4)) _) $$ [HL3 Hd3 HO Hs3 Hr3]
  · isplitr; · iexact HR
    isplitl [HL3]; · iexact HL3
    isplitl [Hd3]; · iexact Hd3
    isplitl [HO]; · iexact HO
    isplitl [Hs3] <;> iassumption
  iintro ⟨Hy3, HO⟩
  -- the wait on chunk 4's receive
  iapply (wp_wait_xr m K c (4 : Fin 8) (credit_xdst c (4 : Fin 8)) (owedL ((yOwes c).drop 4)) _) $$ [Hc4 HO Hat4]
  · isplitr; · iexact HR
    isplitl [Hc4]; · iexact Hc4
    isplitl [HO]; · iexact HO
    isplitr; · iapply (mayWait_xr c (4 : Fin 8) 4); iexact Hlev
    iexact Hat4
  iintro ⟨HO, Hat4, Hp4⟩
  rw [wp_ret]; imodintro
  simp only [k0_part18_eq_skeleton]; unfold k0_part18_skel
  simp only [Prog.lift, Prog.bind_op, Prog.bind_ret, Prog.pure_eq_ret]
  -- the forward of chunk 4
  unfold xrPay
  ihave Hh4 := (half_split (ℓ := oLoc c) (xrBand c (4 : Fin 8)) (R m c)).1 $$ Hp4
  icases Hh4 with ⟨HL4, HR4⟩
  icases Hd4 with ⟨%fd4, Hd4⟩
  iapply (wp_ysend m K c _ (dev15_eq c) (4 : Fin 8) fd4 (owedL ((yOwes c).drop 5)) _) $$ [HL4 Hd4 HO Hs4 Hr4]
  · isplitr; · iexact HR
    isplitl [HL4]; · iexact HL4
    isplitl [Hd4]; · iexact Hd4
    isplitl [HO]; · iexact HO
    isplitl [Hs4] <;> iassumption
  iintro ⟨Hy4, HO⟩
  -- the wait on chunk 5's receive
  iapply (wp_wait_xr m K c (5 : Fin 8) (credit_xdst c (5 : Fin 8)) (owedL ((yOwes c).drop 5)) _) $$ [Hc5 HO Hat5]
  · isplitr; · iexact HR
    isplitl [Hc5]; · iexact Hc5
    isplitl [HO]; · iexact HO
    isplitr; · iapply (mayWait_xr c (5 : Fin 8) 5); iexact Hlev
    iexact Hat5
  iintro ⟨HO, Hat5, Hp5⟩
  -- the forward of chunk 5
  unfold xrPay
  ihave Hh5 := (half_split (ℓ := oLoc c) (xrBand c (5 : Fin 8)) (R m c)).1 $$ Hp5
  icases Hh5 with ⟨HL5, HR5⟩
  icases Hd5 with ⟨%fd5, Hd5⟩
  iapply (wp_ysend m K c _ (dev16_eq c) (5 : Fin 8) fd5 (owedL ((yOwes c).drop 6)) _) $$ [HL5 Hd5 HO Hs5 Hr5]
  · isplitr; · iexact HR
    isplitl [HL5]; · iexact HL5
    isplitl [Hd5]; · iexact Hd5
    isplitl [HO]; · iexact HO
    isplitl [Hs5] <;> iassumption
  iintro ⟨Hy5, HO⟩
  rw [wp_ret]; imodintro
  simp only [k0_part19_eq_skeleton]; unfold k0_part19_skel
  simp only [Prog.lift, Prog.bind_op, Prog.bind_ret, Prog.pure_eq_ret]
  -- the wait on chunk 6's receive
  iapply (wp_wait_xr m K c (6 : Fin 8) (credit_xdst c (6 : Fin 8)) (owedL ((yOwes c).drop 6)) _) $$ [Hc6 HO Hat6]
  · isplitr; · iexact HR
    isplitl [Hc6]; · iexact Hc6
    isplitl [HO]; · iexact HO
    isplitr; · iapply (mayWait_xr c (6 : Fin 8) 6); iexact Hlev
    iexact Hat6
  iintro ⟨HO, Hat6, Hp6⟩
  -- the forward of chunk 6
  unfold xrPay
  ihave Hh6 := (half_split (ℓ := oLoc c) (xrBand c (6 : Fin 8)) (R m c)).1 $$ Hp6
  icases Hh6 with ⟨HL6, HR6⟩
  icases Hd6 with ⟨%fd6, Hd6⟩
  iapply (wp_ysend m K c _ (dev17_eq c) (6 : Fin 8) fd6 (owedL ((yOwes c).drop 7)) _) $$ [HL6 Hd6 HO Hs6 Hr6]
  · isplitr; · iexact HR
    isplitl [HL6]; · iexact HL6
    isplitl [Hd6]; · iexact Hd6
    isplitl [HO]; · iexact HO
    isplitl [Hs6] <;> iassumption
  iintro ⟨Hy6, HO⟩
  -- the wait on chunk 7's receive
  iapply (wp_wait_xr m K c (7 : Fin 8) (credit_xdst c (7 : Fin 8)) (owedL ((yOwes c).drop 7)) _) $$ [Hc7 HO Hat7]
  · isplitr; · iexact HR
    isplitl [Hc7]; · iexact Hc7
    isplitl [HO]; · iexact HO
    isplitr; · iapply (mayWait_xr c (7 : Fin 8) 7); iexact Hlev
    iexact Hat7
  iintro ⟨HO, Hat7, Hp7⟩
  rw [wp_ret]; imodintro
  iapply Hk
  unfold postC xrPay
  isplitl [Hat0 Hy0 HR0]
  · isplitl [Hat0]; · iexact Hat0
    isplitl [Hy0] <;> iassumption
  isplitl [Hat1 Hy1 HR1]
  · isplitl [Hat1]; · iexact Hat1
    isplitl [Hy1] <;> iassumption
  isplitl [Hat2 Hy2 HR2]
  · isplitl [Hat2]; · iexact Hat2
    isplitl [Hy2] <;> iassumption
  isplitl [Hat3 Hy3 HR3]
  · isplitl [Hat3]; · iexact Hat3
    isplitl [Hy3] <;> iassumption
  isplitl [Hat4 Hy4 HR4]
  · isplitl [Hat4]; · iexact Hat4
    isplitl [Hy4] <;> iassumption
  isplitl [Hat5 Hy5 HR5]
  · isplitl [Hat5]; · iexact Hat5
    isplitl [Hy5] <;> iassumption
  isplitl [Hat6 Hy6 HR6]
  · isplitl [Hat6]; · iexact Hat6
    isplitl [Hy6] <;> iassumption
  isplitl [Hat7 Hp7 Hs7 Hr7 Hd7]
  · isplitl [Hat7]; · iexact Hat7
    isplitl [Hp7]; · iexact Hp7
    isplitl [Hs7]; · iexact Hs7
    isplitl [Hr7] <;> iassumption
  iexists _; iexact HO

/-- info: 'Cert.KernelIdeal.AG.stageC' depends on axioms: [propext, Classical.choice, Quot.sound] -/
#guard_msgs in #print axioms stageC

end Cert.KernelIdeal.AG

end
-- ==== Proof.StageD.lean ====
import proofs.«900078_g7700000000000079_dist_ag_v7x_xy2x2_x_m16384_n1024_bf16_1_alg».proof.Proof.Stages
import proofs.«900078_g7700000000000079_dist_ag_v7x_xy2x2_x_m16384_n1024_bf16_1_alg».proof.Proof.Steps2
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! The fourth stretch: chunk 7 is forwarded across the second axis; then, chunk by chunk, the device waits on its two send
    cells and on its second-axis receive cell. Each wait closes the cell's one round and hands over what the round's duty
    stored: a send gives back the half share it lent, a receive gives the band landed. -/

/-- A chunk all of whose four cells are done: the cells past their round, the sends' half shares back, the band the device
    received across the second axis landed; the right half of the band it received across the first axis was never lent. -/
def doneChunk (c : Dev nD) (k : Fin 8) : sProp (MT nD τ sig Unit (Elt F) ℕ UU ℕ) :=
  iprop(atPos ER (xsCell c k) 1 ∅ 0 ∗ atPos ER (xrCell c k) 1 ∅ 0 ∗ atPos ER (ysCell c k) 1 ∅ 0 ∗ atPos ER (yrCell c k) 1 ∅ 0
    ∗ xsPay m c k ∗ ysPay m c k ∗ (oLoc c ↦[xrBand c k]{hR} R m c) ∗ yrPay m c k)

/-- After parts 20–23: chunks 0–5 done; of chunk 6 the second-axis receive still to wait; of chunk 7 all three, its forward
    issued; the local copy still in flight; nothing owed. -/
def postD23 (c : Dev nD) : sProp (MT nD τ sig Unit (Elt F) ℕ UU ℕ) :=
  iprop(doneChunk m c 0 ∗ doneChunk m c 1 ∗ doneChunk m c 2 ∗ doneChunk m c 3 ∗ doneChunk m c 4 ∗ doneChunk m c 5
    ∗ (atPos ER (xsCell c 6) 1 ∅ 0 ∗ atPos ER (xrCell c 6) 1 ∅ 0 ∗ atPos ER (ysCell c 6) 1 ∅ 0
        ∗ xsPay m c 6 ∗ ysPay m c 6 ∗ (oLoc c ↦[xrBand c 6]{hR} R m c)
        ∗ cred (tallyAt (yrCell c 6) () N) ∗ atPos ER (yrCell c 6) 0 ∅ 0)
    ∗ (atPos ER (xrCell c 7) 1 ∅ 0 ∗ (oLoc c ↦[xrBand c 7]{hR} R m c)
        ∗ cred (tallyAt (xsCell c 7) () N) ∗ atPos ER (xsCell c 7) 0 ∅ 0
        ∗ cred (tallyAt (ysCell c 7) () N) ∗ atPos ER (ysCell c 7) 0 ∅ 0
        ∗ cred (tallyAt (yrCell c 7) () N) ∗ atPos ER (yrCell c 7) 0 ∅ 0)
    ∗ storeFlight m c
    ∗ ∃ W, owes (c : Thread nD τ) (owedL []) W)

set_option maxHeartbeats 4000000 in
/-- Parts 20–23: the forward of chunk 7, then the waits on the sends and second-axis receives of chunks 0–5, the sends of chunk 6. -/
theorem stageD (K : Dev nD × CK → ℕ) (c : Dev nD) (v2 v7 : BitVec 32) (Q' : sProp (MT nD τ sig Unit (Elt F) ℕ UU ℕ)) :
    iprop(records m K ∗ levAts L lv ∗ preD m c ∗ (postD23 m c -∗ Q'))
      ⊢ wp frame (wpE (defs₀ (F := F)) 𝒱₀ (c : Thread nD τ) none) Set.univ (k0_part20 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7) fun _ =>
        wp frame (wpE (defs₀ (F := F)) 𝒱₀ (c : Thread nD τ) none) Set.univ (k0_part21 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7) fun _ =>
        wp frame (wpE (defs₀ (F := F)) 𝒱₀ (c : Thread nD τ) none) Set.univ (k0_part22 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7) fun _ =>
        wp frame (wpE (defs₀ (F := F)) 𝒱₀ (c : Thread nD τ) none) Set.univ (k0_part23 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7) fun _ => Q' := by
  unfold preD postC
  iintro ⟨#HR, #Hlev, ⟨⟨⟨Hxr0, Hcy0, HbR0⟩, ⟨Hxr1, Hcy1, HbR1⟩, ⟨Hxr2, Hcy2, HbR2⟩, ⟨Hxr3, Hcy3, HbR3⟩, ⟨Hxr4, Hcy4, HbR4⟩, ⟨Hxr5, Hcy5, HbR5⟩, ⟨Hxr6, Hcy6, HbR6⟩, ⟨Hxr7, Hb7, Hty7, Htr7, ⟨%fd, Hd7⟩⟩, ⟨%W0, HO⟩⟩, ⟨⟨Hcx0, Hax0, Hay0, Hcr0, Har0⟩, ⟨Hcx1, Hax1, Hay1, Hcr1, Har1⟩, ⟨Hcx2, Hax2, Hay2, Hcr2, Har2⟩, ⟨Hcx3, Hax3, Hay3, Hcr3, Har3⟩, ⟨Hcx4, Hax4, Hay4, Hcr4, Har4⟩, ⟨Hcx5, Hax5, Hay5, Hcr5, Har5⟩, ⟨Hcx6, Hax6, Hay6, Hcr6, Har6⟩, ⟨Hcx7, Hax7, Hay7, Hcr7, Har7⟩⟩, Hfl⟩, Hk⟩
  -- band 7, received whole, is lent by its left half
  ihave Hb7' := (half_split (ℓ := oLoc c) (xrBand c 7) (R m c)).1 $$ Hb7
  icases Hb7' with ⟨Hb7L, Hb7R⟩
  simp only [k0_part20_eq_skeleton]; unfold k0_part20_skel
  simp only [Prog.lift, Prog.bind_op, Prog.bind_ret, Prog.pure_eq_ret]
  -- chunk 7's forward across the second axis
  iapply (wp_ysend m K c _ (dev18_eq c) (7 : Fin 8) fd (owedL []) W0) $$ [Hb7L Hd7 HO Hty7 Htr7]
  · isplitr; · iexact HR
    isplitl [Hb7L]; · iexact Hb7L
    isplitl [Hd7]; · iexact Hd7
    isplitl [HO]; · iexact HO
    isplitl [Hty7]; · iexact Hty7
    iexact Htr7
  iintro ⟨Hcy7, HO⟩
  -- the wait on the first-axis send cell of chunk 0
  iapply (wp_wait_xs m K c (0 : Fin 8) (credit_xsrc c 0) (owedL []) _) $$ [Hcx0 HO Hax0]
  · isplitr; · iexact HR
    isplitl [Hcx0]; · iexact Hcx0
    isplitl [HO]; · iexact HO
    isplitr; · iapply (mayWait_nil c _); iexact Hlev
    iexact Hax0
  iintro ⟨HO, Hax0, Hpx0⟩
  -- the wait on the second-axis send cell of chunk 0
  iapply (wp_wait_ys m K c (0 : Fin 8) (credit_ybuf c 0) (owedL []) _) $$ [Hcy0 HO Hay0]
  · isplitr; · iexact HR
    isplitl [Hcy0]; · iexact Hcy0
    isplitl [HO]; · iexact HO
    isplitr; · iapply (mayWait_nil c _); iexact Hlev
    iexact Hay0
  iintro ⟨HO, Hay0, Hpy0⟩
  -- the wait on the second-axis receive cell of chunk 0
  iapply (wp_wait_yr m K c (0 : Fin 8) (credit_ybuf c 0) (owedL []) _) $$ [Hcr0 HO Har0]
  · isplitr; · iexact HR
    isplitl [Hcr0]; · iexact Hcr0
    isplitl [HO]; · iexact HO
    isplitr; · iapply (mayWait_nil c _); iexact Hlev
    iexact Har0
  iintro ⟨HO, Har0, Hpr0⟩
  -- the wait on the first-axis send cell of chunk 1
  iapply (wp_wait_xs m K c (1 : Fin 8) (credit_xsrc c 1) (owedL []) _) $$ [Hcx1 HO Hax1]
  · isplitr; · iexact HR
    isplitl [Hcx1]; · iexact Hcx1
    isplitl [HO]; · iexact HO
    isplitr; · iapply (mayWait_nil c _); iexact Hlev
    iexact Hax1
  iintro ⟨HO, Hax1, Hpx1⟩
  -- the wait on the second-axis send cell of chunk 1
  iapply (wp_wait_ys m K c (1 : Fin 8) (credit_ybuf c 1) (owedL []) _) $$ [Hcy1 HO Hay1]
  · isplitr; · iexact HR
    isplitl [Hcy1]; · iexact Hcy1
    isplitl [HO]; · iexact HO
    isplitr; · iapply (mayWait_nil c _); iexact Hlev
    iexact Hay1
  iintro ⟨HO, Hay1, Hpy1⟩
  rw [wp_ret]; imodintro
  simp only [k0_part21_eq_skeleton]; unfold k0_part21_skel
  simp only [Prog.lift, Prog.bind_op, Prog.bind_ret, Prog.pure_eq_ret]
  -- the wait on the second-axis receive cell of chunk 1
  iapply (wp_wait_yr m K c (1 : Fin 8) (credit_ybuf c 1) (owedL []) _) $$ [Hcr1 HO Har1]
  · isplitr; · iexact HR
    isplitl [Hcr1]; · iexact Hcr1
    isplitl [HO]; · iexact HO
    isplitr; · iapply (mayWait_nil c _); iexact Hlev
    iexact Har1
  iintro ⟨HO, Har1, Hpr1⟩
  -- the wait on the first-axis send cell of chunk 2
  iapply (wp_wait_xs m K c (2 : Fin 8) (credit_xsrc c 2) (owedL []) _) $$ [Hcx2 HO Hax2]
  · isplitr; · iexact HR
    isplitl [Hcx2]; · iexact Hcx2
    isplitl [HO]; · iexact HO
    isplitr; · iapply (mayWait_nil c _); iexact Hlev
    iexact Hax2
  iintro ⟨HO, Hax2, Hpx2⟩
  -- the wait on the second-axis send cell of chunk 2
  iapply (wp_wait_ys m K c (2 : Fin 8) (credit_ybuf c 2) (owedL []) _) $$ [Hcy2 HO Hay2]
  · isplitr; · iexact HR
    isplitl [Hcy2]; · iexact Hcy2
    isplitl [HO]; · iexact HO
    isplitr; · iapply (mayWait_nil c _); iexact Hlev
    iexact Hay2
  iintro ⟨HO, Hay2, Hpy2⟩
  -- the wait on the second-axis receive cell of chunk 2
  iapply (wp_wait_yr m K c (2 : Fin 8) (credit_ybuf c 2) (owedL []) _) $$ [Hcr2 HO Har2]
  · isplitr; · iexact HR
    isplitl [Hcr2]; · iexact Hcr2
    isplitl [HO]; · iexact HO
    isplitr; · iapply (mayWait_nil c _); iexact Hlev
    iexact Har2
  iintro ⟨HO, Har2, Hpr2⟩
  -- the wait on the first-axis send cell of chunk 3
  iapply (wp_wait_xs m K c (3 : Fin 8) (credit_xsrc c 3) (owedL []) _) $$ [Hcx3 HO Hax3]
  · isplitr; · iexact HR
    isplitl [Hcx3]; · iexact Hcx3
    isplitl [HO]; · iexact HO
    isplitr; · iapply (mayWait_nil c _); iexact Hlev
    iexact Hax3
  iintro ⟨HO, Hax3, Hpx3⟩
  rw [wp_ret]; imodintro
  simp only [k0_part22_eq_skeleton]; unfold k0_part22_skel
  simp only [Prog.lift, Prog.bind_op, Prog.bind_ret, Prog.pure_eq_ret]
  -- the wait on the second-axis send cell of chunk 3
  iapply (wp_wait_ys m K c (3 : Fin 8) (credit_ybuf c 3) (owedL []) _) $$ [Hcy3 HO Hay3]
  · isplitr; · iexact HR
    isplitl [Hcy3]; · iexact Hcy3
    isplitl [HO]; · iexact HO
    isplitr; · iapply (mayWait_nil c _); iexact Hlev
    iexact Hay3
  iintro ⟨HO, Hay3, Hpy3⟩
  -- the wait on the second-axis receive cell of chunk 3
  iapply (wp_wait_yr m K c (3 : Fin 8) (credit_ybuf c 3) (owedL []) _) $$ [Hcr3 HO Har3]
  · isplitr; · iexact HR
    isplitl [Hcr3]; · iexact Hcr3
    isplitl [HO]; · iexact HO
    isplitr; · iapply (mayWait_nil c _); iexact Hlev
    iexact Har3
  iintro ⟨HO, Har3, Hpr3⟩
  -- the wait on the first-axis send cell of chunk 4
  iapply (wp_wait_xs m K c (4 : Fin 8) (credit_xsrc c 4) (owedL []) _) $$ [Hcx4 HO Hax4]
  · isplitr; · iexact HR
    isplitl [Hcx4]; · iexact Hcx4
    isplitl [HO]; · iexact HO
    isplitr; · iapply (mayWait_nil c _); iexact Hlev
    iexact Hax4
  iintro ⟨HO, Hax4, Hpx4⟩
  -- the wait on the second-axis send cell of chunk 4
  iapply (wp_wait_ys m K c (4 : Fin 8) (credit_ybuf c 4) (owedL []) _) $$ [Hcy4 HO Hay4]
  · isplitr; · iexact HR
    isplitl [Hcy4]; · iexact Hcy4
    isplitl [HO]; · iexact HO
    isplitr; · iapply (mayWait_nil c _); iexact Hlev
    iexact Hay4
  iintro ⟨HO, Hay4, Hpy4⟩
  rw [wp_ret]; imodintro
  simp only [k0_part23_eq_skeleton]; unfold k0_part23_skel
  simp only [Prog.lift, Prog.bind_op, Prog.bind_ret, Prog.pure_eq_ret]
  -- the wait on the second-axis receive cell of chunk 4
  iapply (wp_wait_yr m K c (4 : Fin 8) (credit_ybuf c 4) (owedL []) _) $$ [Hcr4 HO Har4]
  · isplitr; · iexact HR
    isplitl [Hcr4]; · iexact Hcr4
    isplitl [HO]; · iexact HO
    isplitr; · iapply (mayWait_nil c _); iexact Hlev
    iexact Har4
  iintro ⟨HO, Har4, Hpr4⟩
  -- the wait on the first-axis send cell of chunk 5
  iapply (wp_wait_xs m K c (5 : Fin 8) (credit_xsrc c 5) (owedL []) _) $$ [Hcx5 HO Hax5]
  · isplitr; · iexact HR
    isplitl [Hcx5]; · iexact Hcx5
    isplitl [HO]; · iexact HO
    isplitr; · iapply (mayWait_nil c _); iexact Hlev
    iexact Hax5
  iintro ⟨HO, Hax5, Hpx5⟩
  -- the wait on the second-axis send cell of chunk 5
  iapply (wp_wait_ys m K c (5 : Fin 8) (credit_ybuf c 5) (owedL []) _) $$ [Hcy5 HO Hay5]
  · isplitr; · iexact HR
    isplitl [Hcy5]; · iexact Hcy5
    isplitl [HO]; · iexact HO
    isplitr; · iapply (mayWait_nil c _); iexact Hlev
    iexact Hay5
  iintro ⟨HO, Hay5, Hpy5⟩
  -- the wait on the second-axis receive cell of chunk 5
  iapply (wp_wait_yr m K c (5 : Fin 8) (credit_ybuf c 5) (owedL []) _) $$ [Hcr5 HO Har5]
  · isplitr; · iexact HR
    isplitl [Hcr5]; · iexact Hcr5
    isplitl [HO]; · iexact HO
    isplitr; · iapply (mayWait_nil c _); iexact Hlev
    iexact Har5
  iintro ⟨HO, Har5, Hpr5⟩
  -- the wait on the first-axis send cell of chunk 6
  iapply (wp_wait_xs m K c (6 : Fin 8) (credit_xsrc c 6) (owedL []) _) $$ [Hcx6 HO Hax6]
  · isplitr; · iexact HR
    isplitl [Hcx6]; · iexact Hcx6
    isplitl [HO]; · iexact HO
    isplitr; · iapply (mayWait_nil c _); iexact Hlev
    iexact Hax6
  iintro ⟨HO, Hax6, Hpx6⟩
  -- the wait on the second-axis send cell of chunk 6
  iapply (wp_wait_ys m K c (6 : Fin 8) (credit_ybuf c 6) (owedL []) _) $$ [Hcy6 HO Hay6]
  · isplitr; · iexact HR
    isplitl [Hcy6]; · iexact Hcy6
    isplitl [HO]; · iexact HO
    isplitr; · iapply (mayWait_nil c _); iexact Hlev
    iexact Hay6
  iintro ⟨HO, Hay6, Hpy6⟩
  rw [wp_ret]; imodintro
  iapply Hk
  unfold postD23 doneChunk
  isplitl [Hax0 Hxr0 Hay0 Har0 Hpx0 Hpy0 HbR0 Hpr0]
  · isplitl [Hax0]; · iexact Hax0
    isplitl [Hxr0]; · iexact Hxr0
    isplitl [Hay0]; · iexact Hay0
    isplitl [Har0]; · iexact Har0
    isplitl [Hpx0]; · iexact Hpx0
    isplitl [Hpy0]; · iexact Hpy0
    isplitl [HbR0]; · iexact HbR0
    iexact Hpr0
  isplitl [Hax1 Hxr1 Hay1 Har1 Hpx1 Hpy1 HbR1 Hpr1]
  · isplitl [Hax1]; · iexact Hax1
    isplitl [Hxr1]; · iexact Hxr1
    isplitl [Hay1]; · iexact Hay1
    isplitl [Har1]; · iexact Har1
    isplitl [Hpx1]; · iexact Hpx1
    isplitl [Hpy1]; · iexact Hpy1
    isplitl [HbR1]; · iexact HbR1
    iexact Hpr1
  isplitl [Hax2 Hxr2 Hay2 Har2 Hpx2 Hpy2 HbR2 Hpr2]
  · isplitl [Hax2]; · iexact Hax2
    isplitl [Hxr2]; · iexact Hxr2
    isplitl [Hay2]; · iexact Hay2
    isplitl [Har2]; · iexact Har2
    isplitl [Hpx2]; · iexact Hpx2
    isplitl [Hpy2]; · iexact Hpy2
    isplitl [HbR2]; · iexact HbR2
    iexact Hpr2
  isplitl [Hax3 Hxr3 Hay3 Har3 Hpx3 Hpy3 HbR3 Hpr3]
  · isplitl [Hax3]; · iexact Hax3
    isplitl [Hxr3]; · iexact Hxr3
    isplitl [Hay3]; · iexact Hay3
    isplitl [Har3]; · iexact Har3
    isplitl [Hpx3]; · iexact Hpx3
    isplitl [Hpy3]; · iexact Hpy3
    isplitl [HbR3]; · iexact HbR3
    iexact Hpr3
  isplitl [Hax4 Hxr4 Hay4 Har4 Hpx4 Hpy4 HbR4 Hpr4]
  · isplitl [Hax4]; · iexact Hax4
    isplitl [Hxr4]; · iexact Hxr4
    isplitl [Hay4]; · iexact Hay4
    isplitl [Har4]; · iexact Har4
    isplitl [Hpx4]; · iexact Hpx4
    isplitl [Hpy4]; · iexact Hpy4
    isplitl [HbR4]; · iexact HbR4
    iexact Hpr4
  isplitl [Hax5 Hxr5 Hay5 Har5 Hpx5 Hpy5 HbR5 Hpr5]
  · isplitl [Hax5]; · iexact Hax5
    isplitl [Hxr5]; · iexact Hxr5
    isplitl [Hay5]; · iexact Hay5
    isplitl [Har5]; · iexact Har5
    isplitl [Hpx5]; · iexact Hpx5
    isplitl [Hpy5]; · iexact Hpy5
    isplitl [HbR5]; · iexact HbR5
    iexact Hpr5
  isplitl [Hax6 Hxr6 Hay6 Hpx6 Hpy6 HbR6 Hcr6 Har6]
  · isplitl [Hax6]; · iexact Hax6
    isplitl [Hxr6]; · iexact Hxr6
    isplitl [Hay6]; · iexact Hay6
    isplitl [Hpx6]; · iexact Hpx6
    isplitl [Hpy6]; · iexact Hpy6
    isplitl [HbR6]; · iexact HbR6
    isplitl [Hcr6]; · iexact Hcr6
    iexact Har6
  isplitl [Hxr7 Hb7R Hcx7 Hax7 Hcy7 Hay7 Hcr7 Har7]
  · isplitl [Hxr7]; · iexact Hxr7
    isplitl [Hb7R]; · iexact Hb7R
    isplitl [Hcx7]; · iexact Hcx7
    isplitl [Hax7]; · iexact Hax7
    isplitl [Hcy7]; · iexact Hcy7
    isplitl [Hay7]; · iexact Hay7
    isplitl [Hcr7]; · iexact Hcr7
    iexact Har7
  isplitl [Hfl]
  · iexact Hfl
  iexists _; iexact HO

/-- info: 'Cert.KernelIdeal.AG.stageD' depends on axioms: [propext, Classical.choice, Quot.sound] -/
#guard_msgs in #print axioms stageD

end Cert.KernelIdeal.AG

end
-- ==== Proof.Finish.lean ====
import proofs.«900078_g7700000000000079_dist_ag_v7x_xy2x2_x_m16384_n1024_bf16_1_alg».proof.Proof.StageD
import proofs.«900078_g7700000000000079_dist_ag_v7x_xy2x2_x_m16384_n1024_bf16_1_alg».proof.Proof.Bands
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Transfers

/-! After the last waits: every transfer cell is closed, and the pieces of the two buffers the protocol handed around are put
    back together — the scratch from its sixteen bands and two halves, the result array from its own band and the sixteen
    received bands. -/

theorem bigSep_fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

/-- The local copy's landing on the own band is the result there. -/
theorem own_landed (c : Dev nD) (fd : Buf (Elt F) (oLoc c)) :
    (oLoc c ↦[ownBand c]{fullShare} ((ownM c).view.write (Elt F) fd (sM.view.read (Elt F) (T m c)) Finset.univ) : sProp (MT nD τ sig Unit (Elt F) ℕ UU ℕ))
      = (oLoc c ↦[ownBand c]{fullShare} R m c) :=
  pointsTo_congr (val_own m c fd _)

set_option maxHeartbeats 1600000 in
/-- All thirty-two transfer cells of a device, each past its one round, closed: their semaphores at zero. -/
theorem close_all (K : Dev nD × CK → ℕ) (c : Dev nD) :
    iprop(records m K ∗ conj8 (fun k => iprop(atPos ER (xsCell c k) 1 ∅ 0 ∗ atPos ER (xrCell c k) 1 ∅ 0 ∗ atPos ER (ysCell c k) 1 ∅ 0 ∗ atPos ER (yrCell c k) 1 ∅ 0)))
      ⊢ (iprop(|={Set.univ}=> bigSep Finset.univ fun tk : Fin 4 × Fin 8 => semVal (kcell (c, some tk)) 0) : sProp (MT nD τ sig Unit (Elt F) ℕ UU ℕ)) := by
  iintro ⟨#HR, ⟨A00, A10, A20, A30⟩, ⟨A01, A11, A21, A31⟩, ⟨A02, A12, A22, A32⟩, ⟨A03, A13, A23, A33⟩, ⟨A04, A14, A24, A34⟩, ⟨A05, A15, A25, A35⟩, ⟨A06, A16, A26, A36⟩, ⟨A07, A17, A27, A37⟩⟩
  rw [bigSep_univ_prod, bigSep_fin4]
  simp only [bigSep_fin8]
  imod (close_cell m K c ((0 : Fin 4), (0 : Fin 8))) $$ [A00] with S00
  · isplitr; · iexact HR
    iexact A00
  imod (close_cell m K c ((0 : Fin 4), (1 : Fin 8))) $$ [A01] with S01
  · isplitr; · iexact HR
    iexact A01
  imod (close_cell m K c ((0 : Fin 4), (2 : Fin 8))) $$ [A02] with S02
  · isplitr; · iexact HR
    iexact A02
  imod (close_cell m K c ((0 : Fin 4), (3 : Fin 8))) $$ [A03] with S03
  · isplitr; · iexact HR
    iexact A03
  imod (close_cell m K c ((0 : Fin 4), (4 : Fin 8))) $$ [A04] with S04
  · isplitr; · iexact HR
    iexact A04
  imod (close_cell m K c ((0 : Fin 4), (5 : Fin 8))) $$ [A05] with S05
  · isplitr; · iexact HR
    iexact A05
  imod (close_cell m K c ((0 : Fin 4), (6 : Fin 8))) $$ [A06] with S06
  · isplitr; · iexact HR
    iexact A06
  imod (close_cell m K c ((0 : Fin 4), (7 : Fin 8))) $$ [A07] with S07
  · isplitr; · iexact HR
    iexact A07
  imod (close_cell m K c ((1 : Fin 4), (0 : Fin 8))) $$ [A10] with S10
  · isplitr; · iexact HR
    iexact A10
  imod (close_cell m K c ((1 : Fin 4), (1 : Fin 8))) $$ [A11] with S11
  · isplitr; · iexact HR
    iexact A11
  imod (close_cell m K c ((1 : Fin 4), (2 : Fin 8))) $$ [A12] with S12
  · isplitr; · iexact HR
    iexact A12
  imod (close_cell m K c ((1 : Fin 4), (3 : Fin 8))) $$ [A13] with S13
  · isplitr; · iexact HR
    iexact A13
  imod (close_cell m K c ((1 : Fin 4), (4 : Fin 8))) $$ [A14] with S14
  · isplitr; · iexact HR
    iexact A14
  imod (close_cell m K c ((1 : Fin 4), (5 : Fin 8))) $$ [A15] with S15
  · isplitr; · iexact HR
    iexact A15
  imod (close_cell m K c ((1 : Fin 4), (6 : Fin 8))) $$ [A16] with S16
  · isplitr; · iexact HR
    iexact A16
  imod (close_cell m K c ((1 : Fin 4), (7 : Fin 8))) $$ [A17] with S17
  · isplitr; · iexact HR
    iexact A17
  imod (close_cell m K c ((2 : Fin 4), (0 : Fin 8))) $$ [A20] with S20
  · isplitr; · iexact HR
    iexact A20
  imod (close_cell m K c ((2 : Fin 4), (1 : Fin 8))) $$ [A21] with S21
  · isplitr; · iexact HR
    iexact A21
  imod (close_cell m K c ((2 : Fin 4), (2 : Fin 8))) $$ [A22] with S22
  · isplitr; · iexact HR
    iexact A22
  imod (close_cell m K c ((2 : Fin 4), (3 : Fin 8))) $$ [A23] with S23
  · isplitr; · iexact HR
    iexact A23
  imod (close_cell m K c ((2 : Fin 4), (4 : Fin 8))) $$ [A24] with S24
  · isplitr; · iexact HR
    iexact A24
  imod (close_cell m K c ((2 : Fin 4), (5 : Fin 8))) $$ [A25] with S25
  · isplitr; · iexact HR
    iexact A25
  imod (close_cell m K c ((2 : Fin 4), (6 : Fin 8))) $$ [A26] with S26
  · isplitr; · iexact HR
    iexact A26
  imod (close_cell m K c ((2 : Fin 4), (7 : Fin 8))) $$ [A27] with S27
  · isplitr; · iexact HR
    iexact A27
  imod (close_cell m K c ((3 : Fin 4), (0 : Fin 8))) $$ [A30] with S30
  · isplitr; · iexact HR
    iexact A30
  imod (close_cell m K c ((3 : Fin 4), (1 : Fin 8))) $$ [A31] with S31
  · isplitr; · iexact HR
    iexact A31
  imod (close_cell m K c ((3 : Fin 4), (2 : Fin 8))) $$ [A32] with S32
  · isplitr; · iexact HR
    iexact A32
  imod (close_cell m K c ((3 : Fin 4), (3 : Fin 8))) $$ [A33] with S33
  · isplitr; · iexact HR
    iexact A33
  imod (close_cell m K c ((3 : Fin 4), (4 : Fin 8))) $$ [A34] with S34
  · isplitr; · iexact HR
    iexact A34
  imod (close_cell m K c ((3 : Fin 4), (5 : Fin 8))) $$ [A35] with S35
  · isplitr; · iexact HR
    iexact A35
  imod (close_cell m K c ((3 : Fin 4), (6 : Fin 8))) $$ [A36] with S36
  · isplitr; · iexact HR
    iexact A36
  imod (close_cell m K c ((3 : Fin 4), (7 : Fin 8))) $$ [A37] with S37
  · isplitr; · iexact HR
    iexact A37
  imodintro
  isplitl [S00 S01 S02 S03 S04 S05 S06 S07]
  · isplitl [S00]; · iexact S00
    isplitl [S01]; · iexact S01
    isplitl [S02]; · iexact S02
    isplitl [S03]; · iexact S03
    isplitl [S04]; · iexact S04
    isplitl [S05]; · iexact S05
    isplitl [S06]; · iexact S06
    iexact S07
  isplitl [S10 S11 S12 S13 S14 S15 S16 S17]
  · isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S20 S21 S22 S23 S24 S25 S26 S27]
  · isplitl [S20]; · iexact S20
    isplitl [S21]; · iexact S21
    isplitl [S22]; · iexact S22
    isplitl [S23]; · iexact S23
    isplitl [S24]; · iexact S24
    isplitl [S25]; · iexact S25
    isplitl [S26]; · iexact S26
    iexact S27
  isplitl [S30]; · iexact S30
  isplitl [S31]; · iexact S31
  isplitl [S32]; · iexact S32
  isplitl [S33]; · iexact S33
  isplitl [S34]; · iexact S34
  isplitl [S35]; · iexact S35
  isplitl [S36]; · iexact S36
  iexact S37

/-- The scratch whole again: the sixteen left-half bands (eight back from the sends, eight kept) and the right half. -/
theorem scratch_whole (c : Dev nD) :
    iprop(conj8 (fun k => xsPay m c k) ∗ conj8 (fun k => iprop(sLoc c ↦[keepBand c k]{hL} T m c)) ∗ (sLoc c ↦{hR} T m c))
      ⊢ (iprop(∃ f, sLoc c ↦{fullShare} f) : sProp (MT nD τ sig Unit (Elt F) ℕ UU ℕ)) := by
  iintro ⟨Hs, Hk, HR⟩
  iexists (T m c)
  iapply (half_split (ℓ := sLoc c) Finset.univ (T m c)).2
  isplitr [HR]
  · iapply (s_split c hL (T m c)).2
    isplitl [Hs]
    · rw [bigSep_conj8]; iexact Hs
    · rw [bigSep_conj8]; iexact Hk
  · iexact HR

/-- The result array whole: its own band, the eight bands received across the first axis (each from its two halves) and the
    eight received across the second. -/
theorem result_whole (c : Dev nD) :
    iprop((oLoc c ↦[ownBand c]{fullShare} R m c) ∗ conj8 (fun k => ysPay m c k) ∗ conj8 (fun k => iprop(oLoc c ↦[xrBand c k]{hR} R m c))
        ∗ conj8 (fun k => yrPay m c k))
      ⊢ (oLoc c ↦{fullShare} R m c : sProp (MT nD τ sig Unit (Elt F) ℕ UU ℕ)) := by
  unfold ysPay yrPay
  iintro ⟨Hown, ⟨y0, y1, y2, y3, y4, y5, y6, y7⟩, ⟨r0, r1, r2, r3, r4, r5, r6, r7⟩, Hyr⟩
  iapply (o_split c (R m c)).2
  isplitl [Hown]; · iexact Hown
  isplitr [Hyr]
  · rw [bigSep_conj8]
    isplitl [y0 r0]
    · iapply (half_split (ℓ := oLoc c) (xrBand c 0) (R m c)).2
      isplitl [y0]; · iexact y0
      iexact r0
    isplitl [y1 r1]
    · iapply (half_split (ℓ := oLoc c) (xrBand c 1) (R m c)).2
      isplitl [y1]; · iexact y1
      iexact r1
    isplitl [y2 r2]
    · iapply (half_split (ℓ := oLoc c) (xrBand c 2) (R m c)).2
      isplitl [y2]; · iexact y2
      iexact r2
    isplitl [y3 r3]
    · iapply (half_split (ℓ := oLoc c) (xrBand c 3) (R m c)).2
      isplitl [y3]; · iexact y3
      iexact r3
    isplitl [y4 r4]
    · iapply (half_split (ℓ := oLoc c) (xrBand c 4) (R m c)).2
      isplitl [y4]; · iexact y4
      iexact r4
    isplitl [y5 r5]
    · iapply (half_split (ℓ := oLoc c) (xrBand c 5) (R m c)).2
      isplitl [y5]; · iexact y5
      iexact r5
    isplitl [y6 r6]
    · iapply (half_split (ℓ := oLoc c) (xrBand c 6) (R m c)).2
      isplitl [y6]; · iexact y6
      iexact r6
    iapply (half_split (ℓ := oLoc c) (xrBand c 7) (R m c)).2
    isplitl [y7]; · iexact y7
    iexact r7
  · rw [bigSep_conj8]; iexact Hyr

/-- The wait on the local copy, owing nothing: the own band holds the result, the lent half of the scratch is back, the copy's
    semaphore is at zero. -/
theorem store_done (c : Dev nD) (W : Waits sig Unit)
    {sp sp' : Space} {s s' : Shape} {e e' : EltTy} {κ' : Kind}
    {srcw : Memref sig .tc sp' s' e'} {dstw : Memref sig κ' sp s e} {hsrc : srcw.view.WordExact} {hdst : dstw.view.WordExact}
    (hN : dstw.view.dmaCredit = Ns c)
    {α : Type} {Q : α → sProp (MT nD τ sig Unit (Elt F) ℕ UU ℕ)} {k : PUnit → Prog (TpuEff nD τ sig (Elt F) Λ₀ .tc) α} :
    iprop(storeFlight m c ∗ owes (c : Thread nD τ) (owedL []) W)
      ⊢ iprop((((oLoc c ↦[ownBand c]{fullShare} R m c) ∗ (sLoc c ↦{hR} T m c) ∗ semVal ((c : Thread nD τ), .dma 2) 0
                ∗ ∃ W', owes (c : Thread nD τ) (owedL []) W')
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (2 : DmaSem sig) srcw dstw hsrc hdst) k) Q) := by
  iintro ⟨HF, HO⟩ Hk
  unfold storeFlight
  icases HF with ⟨%fd, HF⟩
  iapply (wp_waitLocal EC 𝒱₀ (c : Thread nD τ) none () hN (W := W)) $$ [HF HO]
  · isplitl [HF]; · iexact HF
    iexact HO
  iintro ⟨⟨Hown, Hs⟩, Hv, HO⟩
  iapply Hk
  isplitl [Hown]; · rw [← own_landed m c fd]; iexact Hown
  isplitl [Hs]; · iexact Hs
  isplitl [Hv]; · iexact Hv
  iexists _; iexact HO

/-- info: 'Cert.KernelIdeal.AG.close_all' depends on axioms: [propext, Classical.choice, Quot.sound] -/
#guard_msgs in #print axioms close_all
/-- info: 'Cert.KernelIdeal.AG.scratch_whole' depends on axioms: [propext, Classical.choice, Quot.sound] -/
#guard_msgs in #print axioms scratch_whole
/-- info: 'Cert.KernelIdeal.AG.result_whole' depends on axioms: [propext, Classical.choice, Quot.sound] -/
#guard_msgs in #print axioms result_whole
/-- info: 'Cert.KernelIdeal.AG.store_done' depends on axioms: [propext, Classical.choice, Quot.sound] -/
#guard_msgs in #print axioms store_done

end Cert.KernelIdeal.AG

end
-- ==== Proof.Body.lean ====
import proofs.«900078_g7700000000000079_dist_ag_v7x_xy2x2_x_m16384_n1024_bf16_1_alg».proof.Proof.Body1
import proofs.«900078_g7700000000000079_dist_ag_v7x_xy2x2_x_m16384_n1024_bf16_1_alg».proof.Proof.StageAMain
import proofs.«900078_g7700000000000079_dist_ag_v7x_xy2x2_x_m16384_n1024_bf16_1_alg».proof.Proof.StageB
import proofs.«900078_g7700000000000079_dist_ag_v7x_xy2x2_x_m16384_n1024_bf16_1_alg».proof.Proof.StageC
import proofs.«900078_g7700000000000079_dist_ag_v7x_xy2x2_x_m16384_n1024_bf16_1_alg».proof.Proof.StageD
import proofs.«900078_g7700000000000079_dist_ag_v7x_xy2x2_x_m16384_n1024_bf16_1_alg».proof.Proof.Finish
import Idealize.ShloMosaic.Lib.Tactic

noncomputable section

namespace Cert.KernelIdeal.AG

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! The body of the one grid point, from the region's invariant before it to the invariant after it: the entry handshake, the
    four stretches, the last waits; then every transfer cell is closed and the two buffers are put back together. -/

/-- Over an option type: the summand at `none`, then the rest. -/
theorem bigSep_option {α : Type} [Fintype α] [DecidableEq α] (Φ : Option α → sProp (MT nD τ sig Unit (Elt F) ℕ UU ℕ)) :
    bigSep Finset.univ Φ = iprop(Φ none ∗ bigSep Finset.univ fun a => Φ (some a)) := by
  have h : (Finset.univ : Finset (Option α)) = insert none (Finset.univ.map Function.Embedding.some) := by
    ext x; cases x <;> simp
  rw [h, bigSep_insert (by simp), bigSep_map]; rfl

/-- A device's positions, cell by cell: the barrier, then each kind of transfer cell chunk by chunk. -/
theorem positions_split (c : Dev nD) :
    (bigSep Finset.univ fun j : CK => atPos ER (kcell (c, j)) 0 ∅ 0 : sProp (MT nD τ sig Unit (Elt F) ℕ UU ℕ))
      ⊢ iprop(atPos ER (barCell c) 0 ∅ 0 ∗ conj8 (fun k => atPos ER (xsCell c k) 0 ∅ 0) ∗ conj8 (fun k => atPos ER (xrCell c k) 0 ∅ 0)
          ∗ conj8 (fun k => atPos ER (ysCell c k) 0 ∅ 0) ∗ conj8 (fun k => atPos ER (yrCell c k) 0 ∅ 0)) := by
  rw [bigSep_option, bigSep_univ_prod, bigSep_fin4]
  simp only [bigSep_fin8]
  exact BI.Entails.refl _

/-- The bands of its own result a device hands its first-axis neighbour at the handshake, -/
theorem barPayX_intro (c : Dev nD) (f : Buf (Elt F) (oLoc c)) :
    (bigSep Finset.univ fun k : Fin 8 => (oLoc c ↦[xrBand c k]{fullShare} f : sProp (MT nD τ sig Unit (Elt F) ℕ UU ℕ))) ⊢ barPayX (xn c) := by
  unfold barPayX; rw [xn_xn]
  exact bigSep_mono fun k _ => show _ ⊢ (_ : sProp (MT nD τ sig Unit (Elt F) ℕ UU ℕ)) from by iintro H; iexists f; iexact H
/-- and its second-axis neighbour. -/
theorem barPayY_intro (c : Dev nD) (f : Buf (Elt F) (oLoc c)) :
    (bigSep Finset.univ fun k : Fin 8 => (oLoc c ↦[yrBand c k]{fullShare} f : sProp (MT nD τ sig Unit (Elt F) ℕ UU ℕ))) ⊢ barPayY (yn c) := by
  unfold barPayY; rw [yn_yn]
  exact bigSep_mono fun k _ => show _ ⊢ (_ : sProp (MT nD τ sig Unit (Elt F) ℕ UU ℕ)) from by iintro H; iexists f; iexact H

set_option maxHeartbeats 12800000 in
set_option maxRecDepth 65536 in
/-- The body obligation of the one grid point on device `c`. -/
theorem body_obligation (c : Dev nD) : BodyObligation (dats (F := F) m 0 c) (defs₀ (F := F)) 𝒱₀ () Set.univ := fun t => by
  rw [fin_N0 t]
  show iprop(Φ₀ m c ∗ (dats m 0 c).owesAt () (t0_0 : Fin cfg0.N).castSucc ∗ bigSep (Finset.univ : Finset (Fin 0)) _)
    ⊢ wp frame (wpE (defs₀ (F := F)) 𝒱₀ c none) Set.univ (cc0_body (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) (fun _ => iprop(Φ₁ m c ∗ (dats m 0 c).owesAt () (t0_0 : Fin cfg0.N).succ ∗ bigSep (Finset.univ : Finset (Fin 0)) _))
  simp only [Finset.univ_eq_empty, bigSep_empty]
  unfold Dat.owesAt Pipeline.owesWithin
  rw [show (dats m 0 c).owed (t0_0 : Fin cfg0.N).castSucc = O₀ c from rfl, show (dats m 0 c).owed (t0_0 : Fin cfg0.N).succ = owedL [] from rfl]
  -- what the device holds before the point
  unfold Φ₀ start ghost linear payToks creds locals
  simp only [bigSep_conj8]
  iintro ⟨⟨⟨⟨%K, #HR, Hpos, HtBX, HtBY, Htoks⟩, ⟨Hv0, Hv1, Hv2⟩, ⟨HcB, Hcr⟩, #Hlev⟩, Hx, Ho, ⟨%fs, Hs⟩, Hf⟩, ⟨%W, -, HO⟩, -⟩
  ihave Hpos' := (positions_split (F := F) c) $$ Hpos
  icases Hpos' with ⟨HatB, HatXS, HatXR, HatYS, HatYR⟩
  -- the result array in its own band and the sixteen bands the neighbours will write; the scratch in its sixteen bands
  ihave Ho' := (o_split c (m (oLoc c))).1 $$ Ho
  icases Ho' with ⟨Hown, Hoxr, Hoyr⟩
  ihave HpX := (barPayX_intro c (m (oLoc c))) $$ Hoxr
  ihave HpY := (barPayY_intro c (m (oLoc c))) $$ Hoyr
  ihave Hs' := (s_split c fullShare fs).1 $$ Hs
  icases Hs' with ⟨Hsend, Hkeep⟩
  -- the program: the body is its last part, which is the sequence of the others
  simp only [cc0_body_eq_skeleton]; unfold cc0_body_skel
  simp only [k0_part24_eq_skeleton]; unfold k0_part24_skel
  simp only [Prog.lift, Prog.bind_op, Prog.bind_ret, Prog.pure_eq_ret, wp_bind]
  -- the tokens, credits and positions chunk by chunk
  icases Htoks with ⟨⟨HtXS0, HtXR0, HtYS0, HtYR0⟩, ⟨HtXS1, HtXR1, HtYS1, HtYR1⟩, ⟨HtXS2, HtXR2, HtYS2, HtYR2⟩, ⟨HtXS3, HtXR3, HtYS3, HtYR3⟩, ⟨HtXS4, HtXR4, HtYS4, HtYR4⟩, ⟨HtXS5, HtXR5, HtYS5, HtYR5⟩, ⟨HtXS6, HtXR6, HtYS6, HtYR6⟩, ⟨HtXS7, HtXR7, HtYS7, HtYR7⟩⟩
  icases Hcr with ⟨⟨HcXR0, HcYR0⟩, ⟨HcXR1, HcYR1⟩, ⟨HcXR2, HcYR2⟩, ⟨HcXR3, HcYR3⟩, ⟨HcXR4, HcYR4⟩, ⟨HcXR5, HcYR5⟩, ⟨HcXR6, HcYR6⟩, ⟨HcXR7, HcYR7⟩⟩
  icases HatXS with ⟨HatXS0, HatXS1, HatXS2, HatXS3, HatXS4, HatXS5, HatXS6, HatXS7⟩
  icases HatXR with ⟨HatXR0, HatXR1, HatXR2, HatXR3, HatXR4, HatXR5, HatXR6, HatXR7⟩
  icases HatYS with ⟨HatYS0, HatYS1, HatYS2, HatYS3, HatYS4, HatYS5, HatYS6, HatYS7⟩
  icases HatYR with ⟨HatYR0, HatYR1, HatYR2, HatYR3, HatYR4, HatYR5, HatYR6, HatYR7⟩
  simp only [bigSep_conj8]
  icases Hsend with ⟨Hsd0, Hsd1, Hsd2, Hsd3, Hsd4, Hsd5, Hsd6, Hsd7⟩
  icases Hkeep with ⟨Hkp0, Hkp1, Hkp2, Hkp3, Hkp4, Hkp5, Hkp6, Hkp7⟩
  -- the entry handshake
  iapply (part1_spec m K c W _)
  isplitl [HatB HtBX HtBY HcB HO HpX HpY]
  · unfold pre1
    isplitr; · iexact HR
    isplitr; · iexact Hlev
    isplitl [HatB]; · iexact HatB
    isplitl [HtBX]; · iexact HtBX
    isplitl [HtBY]; · iexact HtBY
    isplitl [HcB]; · iexact HcB
    isplitl [HO]; · iexact HO
    isplitl [HpX] <;> iassumption
  iintro %r ⟨%hr, Hpost⟩
  obtain ⟨d0, v2, v5, v6, v7, v17, v19, v22, v25⟩ := r
  have hr' : c = d0 := hr.symm
  subst hr'
  simp only []
  unfold post1 barPayX barPayY
  simp only [bigSep_conj8]
  icases Hpost with ⟨-, ⟨%W1, HO⟩, HbX, HbY⟩
  -- the first stretch
  iapply (stageA m K c W1 v5 v6 v17 v22 _)
  isplitr; · iexact HR
  isplitr; · iexact Hlev
  isplitl [HbX HtXS0 HtXS1 HtXS2 HtXS3 HtXS4 HtXS5 HtXS6 HtXS7 HtXR0 HtXR1 HtXR2 HtXR3 HtXR4 HtXR5 HtXR6 HtXR7 HO Hx Hf Hv0 Hv1 Hsd0 Hsd1 Hsd2 Hsd3 Hsd4 Hsd5 Hsd6 Hsd7]
  · unfold preA
    isplitl [HbX]; · iexact HbX
    isplitl [HtXS0 HtXS1 HtXS2 HtXS3 HtXS4 HtXS5 HtXS6 HtXS7 HtXR0 HtXR1 HtXR2 HtXR3 HtXR4 HtXR5 HtXR6 HtXR7]
    · isplitl [HtXS0 HtXR0]; · (isplitl [HtXS0] <;> iassumption)
      isplitl [HtXS1 HtXR1]; · (isplitl [HtXS1] <;> iassumption)
      isplitl [HtXS2 HtXR2]; · (isplitl [HtXS2] <;> iassumption)
      isplitl [HtXS3 HtXR3]; · (isplitl [HtXS3] <;> iassumption)
      isplitl [HtXS4 HtXR4]; · (isplitl [HtXS4] <;> iassumption)
      isplitl [HtXS5 HtXR5]; · (isplitl [HtXS5] <;> iassumption)
      isplitl [HtXS6 HtXR6]; · (isplitl [HtXS6] <;> iassumption)
      (isplitl [HtXS7] <;> iassumption)
    isplitl [HO]; · iexact HO
    isplitl [Hx]; · iexact Hx
    isplitl [Hf]; · iexact Hf
    isplitl [Hv0]; · iexact Hv0
    isplitl [Hv1]; · iexact Hv1
    isplitl [Hsd0]; · (iexists fs; iexact Hsd0)
    isplitl [Hsd1]; · (iexists fs; iexact Hsd1)
    isplitl [Hsd2]; · (iexists fs; iexact Hsd2)
    isplitl [Hsd3]; · (iexists fs; iexact Hsd3)
    isplitl [Hsd4]; · (iexists fs; iexact Hsd4)
    isplitl [Hsd5]; · (iexists fs; iexact Hsd5)
    isplitl [Hsd6]; · (iexists fs; iexact Hsd6)
    (iexists fs; iexact Hsd7)
  unfold postA
  iintro ⟨⟨HcXS0, HcXS1, HcXS2, HcXS3, HcXS4, HcXS5, HcXS6, HcXS7⟩, Hsr, ⟨%W2, HO⟩, Hx, Hf, Hv0, Hv1⟩
  -- the second stretch
  iapply (stageB m K c W2 v2 v19 _)
  isplitr; · iexact HR
  isplitr; · iexact Hlev
  isplitl [HO Hx Hf Hv0 Hv1 Hv2 Hkp0 Hkp1 Hkp2 Hkp3 Hkp4 Hkp5 Hkp6 Hkp7 Hsr Hown]
  · unfold preB
    isplitl [HO]; · iexact HO
    isplitl [Hx]; · iexact Hx
    isplitl [Hf]; · iexact Hf
    isplitl [Hv0]; · iexact Hv0
    isplitl [Hv1]; · iexact Hv1
    isplitl [Hv2]; · iexact Hv2
    isplitl [Hkp0 Hkp1 Hkp2 Hkp3 Hkp4 Hkp5 Hkp6 Hkp7]
    · isplitl [Hkp0]; · (iexists fs; iexact Hkp0)
      isplitl [Hkp1]; · (iexists fs; iexact Hkp1)
      isplitl [Hkp2]; · (iexists fs; iexact Hkp2)
      isplitl [Hkp3]; · (iexists fs; iexact Hkp3)
      isplitl [Hkp4]; · (iexists fs; iexact Hkp4)
      isplitl [Hkp5]; · (iexists fs; iexact Hkp5)
      isplitl [Hkp6]; · (iexists fs; iexact Hkp6)
      (iexists fs; iexact Hkp7)
    isplitl [Hsr]; · iexact Hsr
    iexists (m (oLoc c)); iexact Hown
  unfold postB
  iintro ⟨⟨%W3, HO⟩, Hx, Hf, Hv0, Hv1, Hkl, Hfl⟩
  -- the third stretch
  iapply (stageC m K c W3 v2 v5 v6 v7 v25 _)
  isplitr; · iexact HR
  isplitr; · iexact Hlev
  isplitl [HbY HcXR0 HcXR1 HcXR2 HcXR3 HcXR4 HcXR5 HcXR6 HcXR7 HatXR0 HatXR1 HatXR2 HatXR3 HatXR4 HatXR5 HatXR6 HatXR7 HtYS0 HtYS1 HtYS2 HtYS3 HtYS4 HtYS5 HtYS6 HtYS7 HtYR0 HtYR1 HtYR2 HtYR3 HtYR4 HtYR5 HtYR6 HtYR7 HO]
  · unfold preC
    isplitl [HbY]; · iexact HbY
    isplitl [HcXR0 HcXR1 HcXR2 HcXR3 HcXR4 HcXR5 HcXR6 HcXR7 HatXR0 HatXR1 HatXR2 HatXR3 HatXR4 HatXR5 HatXR6 HatXR7 HtYS0 HtYS1 HtYS2 HtYS3 HtYS4 HtYS5 HtYS6 HtYS7 HtYR0 HtYR1 HtYR2 HtYR3 HtYR4 HtYR5 HtYR6 HtYR7]
    · isplitl [HcXR0 HatXR0 HtYS0 HtYR0]; · (isplitl [HcXR0]; · iexact HcXR0); (isplitl [HatXR0]; · iexact HatXR0); (isplitl [HtYS0] <;> iassumption)
      isplitl [HcXR1 HatXR1 HtYS1 HtYR1]; · (isplitl [HcXR1]; · iexact HcXR1); (isplitl [HatXR1]; · iexact HatXR1); (isplitl [HtYS1] <;> iassumption)
      isplitl [HcXR2 HatXR2 HtYS2 HtYR2]; · (isplitl [HcXR2]; · iexact HcXR2); (isplitl [HatXR2]; · iexact HatXR2); (isplitl [HtYS2] <;> iassumption)
      isplitl [HcXR3 HatXR3 HtYS3 HtYR3]; · (isplitl [HcXR3]; · iexact HcXR3); (isplitl [HatXR3]; · iexact HatXR3); (isplitl [HtYS3] <;> iassumption)
      isplitl [HcXR4 HatXR4 HtYS4 HtYR4]; · (isplitl [HcXR4]; · iexact HcXR4); (isplitl [HatXR4]; · iexact HatXR4); (isplitl [HtYS4] <;> iassumption)
      isplitl [HcXR5 HatXR5 HtYS5 HtYR5]; · (isplitl [HcXR5]; · iexact HcXR5); (isplitl [HatXR5]; · iexact HatXR5); (isplitl [HtYS5] <;> iassumption)
      isplitl [HcXR6 HatXR6 HtYS6 HtYR6]; · (isplitl [HcXR6]; · iexact HcXR6); (isplitl [HatXR6]; · iexact HatXR6); (isplitl [HtYS6] <;> iassumption)
      (isplitl [HcXR7]; · iexact HcXR7); (isplitl [HatXR7]; · iexact HatXR7); (isplitl [HtYS7] <;> iassumption)
    iexact HO
  iintro HpC
  -- the fourth stretch
  iapply (stageD m K c v2 v7 _)
  isplitr; · iexact HR
  isplitr; · iexact Hlev
  isplitl [HpC HcXS0 HcXS1 HcXS2 HcXS3 HcXS4 HcXS5 HcXS6 HcXS7 HatXS0 HatXS1 HatXS2 HatXS3 HatXS4 HatXS5 HatXS6 HatXS7 HatYS0 HatYS1 HatYS2 HatYS3 HatYS4 HatYS5 HatYS6 HatYS7 HcYR0 HcYR1 HcYR2 HcYR3 HcYR4 HcYR5 HcYR6 HcYR7 HatYR0 HatYR1 HatYR2 HatYR3 HatYR4 HatYR5 HatYR6 HatYR7 Hfl]
  · unfold preD
    isplitl [HpC]; · iexact HpC
    isplitl [HcXS0 HcXS1 HcXS2 HcXS3 HcXS4 HcXS5 HcXS6 HcXS7 HatXS0 HatXS1 HatXS2 HatXS3 HatXS4 HatXS5 HatXS6 HatXS7 HatYS0 HatYS1 HatYS2 HatYS3 HatYS4 HatYS5 HatYS6 HatYS7 HcYR0 HcYR1 HcYR2 HcYR3 HcYR4 HcYR5 HcYR6 HcYR7 HatYR0 HatYR1 HatYR2 HatYR3 HatYR4 HatYR5 HatYR6 HatYR7]
    · isplitl [HcXS0 HatXS0 HatYS0 HcYR0 HatYR0]; · (isplitl [HcXS0]; · iexact HcXS0); (isplitl [HatXS0]; · iexact HatXS0); (isplitl [HatYS0]; · iexact HatYS0); (isplitl [HcYR0] <;> iassumption)
      isplitl [HcXS1 HatXS1 HatYS1 HcYR1 HatYR1]; · (isplitl [HcXS1]; · iexact HcXS1); (isplitl [HatXS1]; · iexact HatXS1); (isplitl [HatYS1]; · iexact HatYS1); (isplitl [HcYR1] <;> iassumption)
      isplitl [HcXS2 HatXS2 HatYS2 HcYR2 HatYR2]; · (isplitl [HcXS2]; · iexact HcXS2); (isplitl [HatXS2]; · iexact HatXS2); (isplitl [HatYS2]; · iexact HatYS2); (isplitl [HcYR2] <;> iassumption)
      isplitl [HcXS3 HatXS3 HatYS3 HcYR3 HatYR3]; · (isplitl [HcXS3]; · iexact HcXS3); (isplitl [HatXS3]; · iexact HatXS3); (isplitl [HatYS3]; · iexact HatYS3); (isplitl [HcYR3] <;> iassumption)
      isplitl [HcXS4 HatXS4 HatYS4 HcYR4 HatYR4]; · (isplitl [HcXS4]; · iexact HcXS4); (isplitl [HatXS4]; · iexact HatXS4); (isplitl [HatYS4]; · iexact HatYS4); (isplitl [HcYR4] <;> iassumption)
      isplitl [HcXS5 HatXS5 HatYS5 HcYR5 HatYR5]; · (isplitl [HcXS5]; · iexact HcXS5); (isplitl [HatXS5]; · iexact HatXS5); (isplitl [HatYS5]; · iexact HatYS5); (isplitl [HcYR5] <;> iassumption)
      isplitl [HcXS6 HatXS6 HatYS6 HcYR6 HatYR6]; · (isplitl [HcXS6]; · iexact HcXS6); (isplitl [HatXS6]; · iexact HatXS6); (isplitl [HatYS6]; · iexact HatYS6); (isplitl [HcYR6] <;> iassumption)
      (isplitl [HcXS7]; · iexact HcXS7); (isplitl [HatXS7]; · iexact HatXS7); (isplitl [HatYS7]; · iexact HatYS7); (isplitl [HcYR7] <;> iassumption)
    iexact Hfl
  unfold postD23 doneChunk
  iintro ⟨⟨Axs0, Axr0, Ays0, Ayr0, Pxs0, Pys0, HbR0, Pyr0⟩, ⟨Axs1, Axr1, Ays1, Ayr1, Pxs1, Pys1, HbR1, Pyr1⟩, ⟨Axs2, Axr2, Ays2, Ayr2, Pxs2, Pys2, HbR2, Pyr2⟩, ⟨Axs3, Axr3, Ays3, Ayr3, Pxs3, Pys3, HbR3, Pyr3⟩, ⟨Axs4, Axr4, Ays4, Ayr4, Pxs4, Pys4, HbR4, Pyr4⟩, ⟨Axs5, Axr5, Ays5, Ayr5, Pxs5, Pys5, HbR5, Pyr5⟩,
    ⟨Axs6, Axr6, Ays6, Pxs6, Pys6, HbR6, HcYR6, HatYR6⟩, ⟨Axr7, HbR7, HcXS7, HatXS7, HcYS7, HatYS7, HcYR7, HatYR7⟩, Hfl, ⟨%W5, HO⟩⟩
  -- the last waits of the last part: chunk 6's second-axis receive, chunk 7's two sends
  iapply (wp_wait_yr m K c (6 : Fin 8) (credit_ybuf c (6 : Fin 8)) (owedL []) _) $$ [HcYR6 HO HatYR6]
  · isplitr; · iexact HR
    isplitl [HcYR6]; · iexact HcYR6
    isplitl [HO]; · iexact HO
    isplitr; · iapply (mayWait_nil c (.dma (yrS (6 : Fin 8)))); iexact Hlev
    iexact HatYR6
  iintro ⟨HO, Ayr6, Pyr6⟩
  iapply (wp_wait_xs m K c (7 : Fin 8) (credit_xsrc c (7 : Fin 8)) (owedL []) _) $$ [HcXS7 HO HatXS7]
  · isplitr; · iexact HR
    isplitl [HcXS7]; · iexact HcXS7
    isplitl [HO]; · iexact HO
    isplitr; · iapply (mayWait_nil c (.dma (xsS (7 : Fin 8)))); iexact Hlev
    iexact HatXS7
  iintro ⟨HO, Axs7, Pxs7⟩
  iapply (wp_wait_ys m K c (7 : Fin 8) (credit_ybuf c (7 : Fin 8)) (owedL []) _) $$ [HcYS7 HO HatYS7]
  · isplitr; · iexact HR
    isplitl [HcYS7]; · iexact HcYS7
    isplitl [HO]; · iexact HO
    isplitr; · iapply (mayWait_nil c (.dma (ysS (7 : Fin 8)))); iexact Hlev
    iexact HatYS7
  iintro ⟨HO, Ays7, Pys7⟩
  rw [wp_ret]; imodintro
  simp only []
  -- the body's own last waits: chunk 7's second-axis receive, the local copy
  iapply (wp_wait_yr m K c (7 : Fin 8) (credit_ybuf c (7 : Fin 8)) (owedL []) _) $$ [HcYR7 HO HatYR7]
  · isplitr; · iexact HR
    isplitl [HcYR7]; · iexact HcYR7
    isplitl [HO]; · iexact HO
    isplitr; · iapply (mayWait_nil c (.dma (yrS (7 : Fin 8)))); iexact Hlev
    iexact HatYR7
  iintro ⟨HO, Ayr7, Pyr7⟩
  iapply (store_done m c _ rfl) $$ [Hfl HO]
  · isplitl [Hfl]; · iexact Hfl
    iexact HO
  iintro ⟨HownR, HsR, Hv2, ⟨%W6, HO⟩⟩
  rw [wp_ret]
  -- every transfer cell is past its one round: closed
  imod (close_all m K c) $$ [Axs0 Axr0 Ays0 Ayr0 Axs1 Axr1 Ays1 Ayr1 Axs2 Axr2 Ays2 Ayr2 Axs3 Axr3 Ays3 Ayr3 Axs4 Axr4 Ays4 Ayr4 Axs5 Axr5 Ays5 Ayr5 Axs6 Axr6 Ays6 Ayr6 Axs7 Axr7 Ays7 Ayr7] with Hsems
  · isplitr; · iexact HR
    isplitl [Axs0 Axr0 Ays0 Ayr0]; · ((isplitl [Axs0]; · iexact Axs0); (isplitl [Axr0]; · iexact Axr0); (isplitl [Ays0] <;> iassumption))
    isplitl [Axs1 Axr1 Ays1 Ayr1]; · ((isplitl [Axs1]; · iexact Axs1); (isplitl [Axr1]; · iexact Axr1); (isplitl [Ays1] <;> iassumption))
    isplitl [Axs2 Axr2 Ays2 Ayr2]; · ((isplitl [Axs2]; · iexact Axs2); (isplitl [Axr2]; · iexact Axr2); (isplitl [Ays2] <;> iassumption))
    isplitl [Axs3 Axr3 Ays3 Ayr3]; · ((isplitl [Axs3]; · iexact Axs3); (isplitl [Axr3]; · iexact Axr3); (isplitl [Ays3] <;> iassumption))
    isplitl [Axs4 Axr4 Ays4 Ayr4]; · ((isplitl [Axs4]; · iexact Axs4); (isplitl [Axr4]; · iexact Axr4); (isplitl [Ays4] <;> iassumption))
    isplitl [Axs5 Axr5 Ays5 Ayr5]; · ((isplitl [Axs5]; · iexact Axs5); (isplitl [Axr5]; · iexact Axr5); (isplitl [Ays5] <;> iassumption))
    isplitl [Axs6 Axr6 Ays6 Ayr6]; · ((isplitl [Axs6]; · iexact Axs6); (isplitl [Axr6]; · iexact Axr6); (isplitl [Ays6] <;> iassumption))
    (isplitl [Axs7]; · iexact Axs7); (isplitl [Axr7]; · iexact Axr7); (isplitl [Ays7] <;> iassumption)
  imodintro
  -- the invariant after the point
  isplitr [HO]
  · unfold Φ₁
    isplitl [Hx]; · iexact Hx
    isplitl [HownR Pys0 Pys1 Pys2 Pys3 Pys4 Pys5 Pys6 Pys7 HbR0 HbR1 HbR2 HbR3 HbR4 HbR5 HbR6 HbR7 Pyr0 Pyr1 Pyr2 Pyr3 Pyr4 Pyr5 Pyr6 Pyr7]
    · iapply (result_whole m c)
      isplitl [HownR]; · iexact HownR
      isplitl [Pys0 Pys1 Pys2 Pys3 Pys4 Pys5 Pys6 Pys7]
      · isplitl [Pys0]; · iexact Pys0
        isplitl [Pys1]; · iexact Pys1
        isplitl [Pys2]; · iexact Pys2
        isplitl [Pys3]; · iexact Pys3
        isplitl [Pys4]; · iexact Pys4
        isplitl [Pys5]; · iexact Pys5
        isplitl [Pys6]; · iexact Pys6
        iexact Pys7
      isplitl [HbR0 HbR1 HbR2 HbR3 HbR4 HbR5 HbR6 HbR7]
      · isplitl [HbR0]; · iexact HbR0
        isplitl [HbR1]; · iexact HbR1
        isplitl [HbR2]; · iexact HbR2
        isplitl [HbR3]; · iexact HbR3
        isplitl [HbR4]; · iexact HbR4
        isplitl [HbR5]; · iexact HbR5
        isplitl [HbR6]; · iexact HbR6
        iexact HbR7
      isplitl [Pyr0]; · iexact Pyr0
      isplitl [Pyr1]; · iexact Pyr1
      isplitl [Pyr2]; · iexact Pyr2
      isplitl [Pyr3]; · iexact Pyr3
      isplitl [Pyr4]; · iexact Pyr4
      isplitl [Pyr5]; · iexact Pyr5
      isplitl [Pyr6]; · iexact Pyr6
      iexact Pyr7
    isplitl [Pxs0 Pxs1 Pxs2 Pxs3 Pxs4 Pxs5 Pxs6 Pxs7 Hkl HsR]
    · iapply (scratch_whole m c)
      isplitl [Pxs0 Pxs1 Pxs2 Pxs3 Pxs4 Pxs5 Pxs6 Pxs7]
      · isplitl [Pxs0]; · iexact Pxs0
        isplitl [Pxs1]; · iexact Pxs1
        isplitl [Pxs2]; · iexact Pxs2
        isplitl [Pxs3]; · iexact Pxs3
        isplitl [Pxs4]; · iexact Pxs4
        isplitl [Pxs5]; · iexact Pxs5
        isplitl [Pxs6]; · iexact Pxs6
        iexact Pxs7
      isplitl [Hkl]; · iexact Hkl
      iexact HsR
    isplitl [Hf]; · iexact Hf
    isplitl [Hv0 Hv1 Hv2]
    · unfold locals
      isplitl [Hv0]; · iexact Hv0
      isplitl [Hv1] <;> iassumption
    iexact Hsems
  isplitl [HO]
  · iexists W6
    isplitr; · ipureintro; exact fun _ _ => Or.inl trivial
    iexact HO
  iempintro

/-- info: 'Cert.KernelIdeal.AG.body_obligation' depends on axioms: [propext, Classical.choice, Quot.sound] -/
#guard_msgs in #print axioms body_obligation

end Cert.KernelIdeal.AG

end
-- ==== Proof.Run.lean ====
import proofs.«900078_g7700000000000079_dist_ag_v7x_xy2x2_x_m16384_n1024_bf16_1_alg».proof.Proof.Deal
import proofs.«900078_g7700000000000079_dist_ag_v7x_xy2x2_x_m16384_n1024_bf16_1_alg».proof.Proof.Levels
import proofs.«900078_g7700000000000079_dist_ag_v7x_xy2x2_x_m16384_n1024_bf16_1_alg».proof.Proof.Body

/-! The launch. The region stages no window: the shard and the result array are unscoped buffers that reach the region's
    invariant as launched, the two scratch buffers are the region's own. Each device starts from its dealt ghost state,
    its launch credit and the level facts; at the exit the result array holds `R c` and the shard what it held, and both
    are read off the final state. -/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device enters the region with, and what it leaves with -/

/-- At the entry: the protocol's start, the shard and the result array as launched. -/
def entryX (c : Dev nD) : sProp (MT nD τ sig Unit (Elt F) ℕ UU ℕ) :=
  iprop(start m c ∗ (xLoc c ↦{fullShare} m (xLoc c)) ∗ (oLoc c ↦{fullShare} m (oLoc c)))

/-- At the exit: the shard as launched, the result array at `R c`. -/
def exitY (c : Dev nD) : sProp (MT nD τ sig Unit (Elt F) ℕ UU ℕ) :=
  iprop((xLoc c ↦{fullShare} m (xLoc c)) ∗ (oLoc c ↦{fullShare} R m c))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entryX m c ∗ emp) := by
  rw [Pipeline.unscopedRestP_none, unscopedRest0_eq]
  iintro ⟨⟨Hx, Ho⟩, Hlev, Hcr, -, HG⟩
  ihave Hc := (creds_of_launch (F := F) c) $$ Hcr
  imodintro
  unfold entryX start G'
  icases HG with ⟨Hgh, Hloc⟩
  isplitl
  · isplitl [Hgh Hloc Hc Hlev]
    · isplitl [Hgh]; · iexact Hgh
      isplitl [Hloc]; · iexact Hloc
      isplitl [Hc]; · iexact Hc
      iexact Hlev
    isplitl [Hx]; · iexact Hx
    iexact Ho
  · iempintro

theorem phi0_intro (c : Dev nD) :
    iprop(entryX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ entryX
  iintro ⟨⟨Hs, Hx, Ho⟩, -, ⟨Hs0, Hs1⟩⟩
  isplitl [Hs]; · iexact Hs
  isplitl [Hx]; · iexact Hx
  isplitl [Ho]; · iexact Ho
  isplitl [Hs0]; · iexact Hs0
  iexact Hs1

theorem phi1_exit (c : Dev nD) :
    (dats m 0 c).Φ (Fin.last cfg0.N) ⊢ iprop(exitY m c ∗ Pipeline.ownSems0 osem c ∗ Pipeline.scopedRest cfg0.spec c) := by
  rw [show (dats m 0 c).Φ (Fin.last cfg0.N) = Φ₁ m c from rfl, scopedRest0_eq, ownSems0_eq]
  unfold Φ₁ exitY
  iintro ⟨Hx, Ho, Hs0, Hs1, Hloc, Hsem⟩
  isplitl [Hx Ho]
  · isplitl [Hx] <;> iassumption
  isplitl [Hloc Hsem]
  · isplitl [Hloc] <;> iassumption
  isplitl [Hs0] <;> iassumption

/-! ## The run -/

set_option maxRecDepth 8000 in
/-- At the compiled mesh of four devices, for any float values, from any memory with zero counters: every weakly fair
    execution of @main terminates, and every final state has each device's result array at `R c` — its own shard's cast
    in its own band, its neighbours' in the other — and its shard unchanged. -/
theorem run_main : θ_run defs (onTc (τ := τ) (main (F := F))) ⟨m, fun _ => 0, ρ⟩
    (fun r => ∀ c : Dev nD, r.2.mem (oLoc c) = R m c ∧ r.2.mem (xLoc c) = m (xLoc c)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := entryX m) (Y := exitY m) (Z := fun _ => iprop(emp))
    (hX := start_intro m ρ) (hin := phi0_intro m) (hout := phi1_exit m)
    (QY := fun c s => s.mem (oLoc c) = R m c ∧ s.mem (xLoc c) = m (xLoc c))
    (hY := fun c s' => by
      unfold exitY
      iintro ⟨⟨Hx, Ho⟩, -, HSI⟩
      icombine HSI Ho gives %ho
      icombine HSI Hx gives %hx
      imodintro
      isplitr; · ipureintro; exact ⟨Buf.eq_of_forall_mem_univ ho, Buf.eq_of_forall_mem_univ hx⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.Claims.lean ====
import proofs.«900078_g7700000000000079_dist_ag_v7x_xy2x2_x_m16384_n1024_bf16_1_alg».proof.Defs
import proofs.«900078_g7700000000000079_dist_ag_v7x_xy2x2_x_m16384_n1024_bf16_1_alg».proof.Proof.Bridge
import proofs.«900078_g7700000000000079_dist_ag_v7x_xy2x2_x_m16384_n1024_bf16_1_alg».proof.Proof.Gen.KernelIdeal
import proofs.«900078_g7700000000000079_dist_ag_v7x_xy2x2_x_m16384_n1024_bf16_1_alg».proof.Proof.Gen.ReferenceIdeal
import proofs.«900078_g7700000000000079_dist_ag_v7x_xy2x2_x_m16384_n1024_bf16_1_alg».proof.Proof.Gen.ReferenceIdeal.Run
import proofs.«900078_g7700000000000079_dist_ag_v7x_xy2x2_x_m16384_n1024_bf16_1_alg».proof.Proof.Gen.Pre_finite_inputs_Kernel
import proofs.«900078_g7700000000000079_dist_ag_v7x_xy2x2_x_m16384_n1024_bf16_1_alg».proof.Proof.Gen.Pre_finite_inputs_ReferenceIdeal
import proofs.«900078_g7700000000000079_dist_ag_v7x_xy2x2_x_m16384_n1024_bf16_1_alg».proof.Proof.Gen.Kernel
import proofs.«900078_g7700000000000079_dist_ag_v7x_xy2x2_x_m16384_n1024_bf16_1_alg».proof.Proof.Run
import proofs.«900078_g7700000000000079_dist_ag_v7x_xy2x2_x_m16384_n1024_bf16_1_alg».proof.Proof.K.Run

/-! The certificate's claims from the two runs. The kernel's run ends with every device's result array at `R m c` and its
    shard unchanged; the reference's run ends with its result at the entry-by-entry cast of its whole argument array. Where
    each device's shard is its block of that array, `R m c` IS that cast (the value bridge), on every device: that is the
    value claim, with the cast array as the common value. The frames are the two runs with the results dropped. -/

noncomputable section

namespace Cert.Proof.Claims

open Idealize.ShloMosaic Idealize.ShloMosaic.TcCoe Idealize.SL.Sem

/-- The word-level kernel runs and leaves every shard as launched: its run — the same argument read at the word-level
    program, nothing in it depending on what a float is — with the result dropped. -/
theorem frame_p : Cert.frame_Kernel := fun m ρ _ =>
  (θ_run Cert.Kernel.defs _ _).mono (fun _ h c => (h c).2) (Cert.Kernel.AG.run_main (F := Bits) m ρ)

/-- The idealized kernel runs and leaves every shard as launched. -/
theorem frame_pi : Cert.frame_KernelIdeal := fun m ρ _ =>
  (θ_run Cert.KernelIdeal.defs _ _).mono (fun _ h c => (h c).2) (Cert.KernelIdeal.AG.run_main (F := Ideal) m ρ)

/-- The reference runs and leaves its argument as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the cast of the whole array: the reference by its run, every device of the kernel by its run and
    the value bridge. -/
theorem algebraic : Cert.algebraic_KernelIdeal_ReferenceIdeal := by
  intro m ρ m' ρ' _ hagree
  refine ⟨(truncf (F := Ideal) .bf16 (m' (((0 : Dev Cert.ReferenceIdeal.nD).tc : Thread Cert.ReferenceIdeal.nD Cert.ReferenceIdeal.τ).loc Cert.ReferenceIdeal.main_arg0) :
      (⟨Cert.ReferenceIdeal.S32768x1024, .f32⟩ : BufTy).Contents (Elt Ideal)) Cert.ReferenceIdeal.Facts₀.bitsLt_bf16_f32 :
      (⟨Cert.ReferenceIdeal.S32768x1024, .bf16⟩ : BufTy).Contents (Elt Ideal)), ?_, ?_⟩
  · exact (θ_run Cert.KernelIdeal.defs _ _).mono
      (fun _ h c => ⟨(h c).1.trans (Cert.KernelIdeal.AG.R_eq_whole m _ hagree c), (h c).2⟩)
      (Cert.KernelIdeal.AG.run_main (F := Ideal) m ρ)
  · exact (θ_run Cert.ReferenceIdeal.defs _ _).mono (fun _ h => h 0) (Cert.ReferenceIdeal.Value.run (F := Ideal) m' ρ')

/-- info: 'Cert.Proof.Claims.frame_p' depends on axioms: [propext, Classical.choice, Quot.sound] -/
#guard_msgs in #print axioms frame_p
/-- info: 'Cert.Proof.Claims.frame_pi' depends on axioms: [propext, Classical.choice, Quot.sound] -/
#guard_msgs in #print axioms frame_pi
/-- info: 'Cert.Proof.Claims.frame_ri' depends on axioms: [propext, Classical.choice, Quot.sound] -/
#guard_msgs in #print axioms frame_ri
/-- info: 'Cert.Proof.Claims.algebraic' depends on axioms: [propext, Classical.choice, Quot.sound] -/
#guard_msgs in #print axioms algebraic

end Cert.Proof.Claims

end
-- ==== Proof.lean ====
/- An all-gather on a 2 × 2 mesh. Each device holds one of the two row shards of a 32768 × 1024 f32 array (the shard of its first
   mesh coordinate) and ends holding the whole array cast to bf16: its own shard by a local copy; of the other shard, the half
   indexed by its second coordinate straight from the device across the first axis, chunk by chunk, and the other half
   forwarded by the device across the second axis, which received it the same way. The reference casts the whole array on one
   device. Since a cast is entrywise, every device's result is the reference's, entry by entry, whatever a float is; the three
   frames are the runs with the values dropped, and the ideal pass rewrote nothing. The runs rest on the protocol: the entry
   handshake on the barrier semaphore hands each neighbour the bands of the result it will write, every transfer's receive
   cell hands its band back landed, and a device waits only on cells below everything it still owes. -/
import proofs.«900078_g7700000000000079_dist_ag_v7x_xy2x2_x_m16384_n1024_bf16_1_alg».proof.Defs
import proofs.«900078_g7700000000000079_dist_ag_v7x_xy2x2_x_m16384_n1024_bf16_1_alg».proof.Proof.Gen.Kernel
import proofs.«900078_g7700000000000079_dist_ag_v7x_xy2x2_x_m16384_n1024_bf16_1_alg».proof.Proof.Gen.Kernel.Skeleton
import proofs.«900078_g7700000000000079_dist_ag_v7x_xy2x2_x_m16384_n1024_bf16_1_alg».proof.Proof.Gen.Kernel.Launch
import proofs.«900078_g7700000000000079_dist_ag_v7x_xy2x2_x_m16384_n1024_bf16_1_alg».proof.Proof.Gen.Kernel.Points
import proofs.«900078_g7700000000000079_dist_ag_v7x_xy2x2_x_m16384_n1024_bf16_1_alg».proof.Proof.Gen.Kernel.Frame
import proofs.«900078_g7700000000000079_dist_ag_v7x_xy2x2_x_m16384_n1024_bf16_1_alg».proof.Proof.Gen.KernelIdeal
import proofs.«900078_g7700000000000079_dist_ag_v7x_xy2x2_x_m16384_n1024_bf16_1_alg».proof.Proof.Gen.KernelIdeal.Skeleton
import proofs.«900078_g7700000000000079_dist_ag_v7x_xy2x2_x_m16384_n1024_bf16_1_alg».proof.Proof.Gen.KernelIdeal.Launch
import proofs.«900078_g7700000000000079_dist_ag_v7x_xy2x2_x_m16384_n1024_bf16_1_alg».proof.Proof.Gen.KernelIdeal.Points
import proofs.«900078_g7700000000000079_dist_ag_v7x_xy2x2_x_m16384_n1024_bf16_1_alg».proof.Proof.Gen.KernelIdeal.Frame
import proofs.«900078_g7700000000000079_dist_ag_v7x_xy2x2_x_m16384_n1024_bf16_1_alg».proof.Proof.Gen.ReferenceIdeal
import proofs.«900078_g7700000000000079_dist_ag_v7x_xy2x2_x_m16384_n1024_bf16_1_alg».proof.Proof.Gen.Pre_finite_inputs_Kernel
import proofs.«900078_g7700000000000079_dist_ag_v7x_xy2x2_x_m16384_n1024_bf16_1_alg».proof.Proof.Gen.Pre_finite_inputs_ReferenceIdeal
import Idealize.ShloMosaic.Adequacy
import Idealize.ShloMosaic.Init
import proofs.«900078_g7700000000000079_dist_ag_v7x_xy2x2_x_m16384_n1024_bf16_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_p, Claims.frame_pi, Claims.frame_ri, Claims.preserves, Claims.algebraic⟩

end Cert.Proof

end
